-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg3 : IVec S1600000 32) (main_v13 : IVec S_ 1) (main_v15 : IVec S1600000 1) (main_c_5 : IVec S_ 1) : IVec S_ 1 :=
  let main_v16 : IVec S_ 1 := (fun x v => Host.reduce IntOp.andi x v reducesTo_S1600000_S_d0 h_S_) main_v15 main_c_5
  let main_v17 : IVec S_ 1 := andi main_v13 main_v16
  let main_c_6 : IVec S_ 32 := constantI S_ 32 100000#32
  let main_v18 : IVec S1600000 32 := broadcastInDim S1600000 ![] bcast_S_S1600000 main_c_6
  let main_v19 : IVec S1600000 1 := cmpi .slt main_arg3 main_v18
  let main_c_7 : IVec S_ 1 := constantI S_ 1 1#1
  let main_v20 : IVec S_ 1 := (fun x v => Host.reduce IntOp.andi x v reducesTo_S1600000_S_d0 h_S_) main_v19 main_c_7
  let main_v21 : IVec S_ 1 := andi main_v17 main_v20
  main_v21

def fn {F : FTy → Type} [FloatOps F] (main_arg0 : FVec F S100000x128 .f32) (main_arg1 : FVec F S128x128 .f32) (main_arg2 : IVec S1600000 32) (main_arg3 : IVec S1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg3 main_v14
  let main_c_5 : IVec S_ 1 := constantI S_ 1 1#1
  fn_part1 (F := F) main_arg3 main_v13 main_v15 main_c_5
-- ==== Kernel.lean ====
abbrev S100000x128 : Shape := ⟨2, ![100000, 128]⟩
abbrev S128x128 : Shape := ⟨2, ![128, 128]⟩
abbrev S1600000 : Shape := ⟨1, ![1600000]⟩
abbrev S_ : Shape := ⟨0, ![]⟩
abbrev S100352x128 : Shape := ⟨2, ![100352, 128]⟩
abbrev S1601536 : Shape := ⟨1, ![1601536]⟩
abbrev S1601536x128 : Shape := ⟨2, ![1601536, 128]⟩
abbrev S2048x128 : Shape := ⟨2, ![2048, 128]⟩
abbrev S4096 : Shape := ⟨1, ![4096]⟩
abbrev S4096x128 : Shape := ⟨2, ![4096, 128]⟩
abbrev S1x2048 : Shape := ⟨2, ![1, 2048]⟩
abbrev S4096x1 : Shape := ⟨2, ![4096, 1]⟩
abbrev S4096x2048 : Shape := ⟨2, ![4096, 2048]⟩

abbrev nBuf : Space → Nat
  | .hbm => 20
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S_, .i32⟩
  | .hbm, ⟨6, _⟩ => ⟨S_, .f32⟩
  | .hbm, ⟨7, _⟩ => ⟨S100352x128, .f32⟩
  | .hbm, ⟨8, _⟩ => ⟨S_, .i32⟩
  | .hbm, ⟨9, _⟩ => ⟨S_, .i32⟩
  | .hbm, ⟨10, _⟩ => ⟨S1601536, .i32⟩
  | .hbm, ⟨11, _⟩ => ⟨S_, .i32⟩
  | .hbm, ⟨12, _⟩ => ⟨S_, .i32⟩
  | .hbm, ⟨13, _⟩ => ⟨S1601536, .i32⟩
  | .hbm, ⟨14, _⟩ => ⟨S_, .i32⟩
  | .hbm, ⟨15, _⟩ => ⟨S_, .f32⟩
  | .hbm, ⟨16, _⟩ => ⟨S1601536, .f32⟩
  | .hbm, ⟨17, _⟩ => ⟨S1601536x128, .f32⟩
  | .hbm, ⟨18, _⟩ => ⟨S100352x128, .f32⟩
  | .hbm, ⟨19, _⟩ => ⟨S100000x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S4096, .i32⟩
  | .local _ .vmem, ⟨4, _⟩ => ⟨S4096, .i32⟩
  | .local _ .vmem, ⟨5, _⟩ => ⟨S4096, .f32⟩
  | .local _ .vmem, ⟨6, _⟩ => ⟨S4096, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096, .i32⟩
  | .local _ .vmem, ⟨13, _⟩ => ⟨S4096, .i32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![391, 49], ![false, false]⟩

def k0_cond2 (i : grid0.Coords) : BitVec 1 :=
  let arg1 : BitVec 32 := BitVec.ofNat 32 (i 1).val
  let c48_i32 : BitVec 32 := 48#32
  let v30 : BitVec 1 := Scalar.cmpi .eq arg1 c48_i32
  let v31 : BitVec 32 := Scalar.extui v30
  let c0_i32_10 : BitVec 32 := 0#32
  let v32 : BitVec 1 := Scalar.cmpi .ne v31 c0_i32_10
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![49, 391], ![false, false]⟩

def k1_cond2 (i : grid1.Coords) : BitVec 1 :=
  let arg1 : BitVec 32 := BitVec.ofNat 32 (i 1).val
  let c390_i32 : BitVec 32 := 390#32
  let v25 : BitVec 1 := Scalar.cmpi .eq arg1 c390_i32
  let v26 : BitVec 32 := Scalar.extui v25
  let c0_i32_7 : BitVec 32 := 0#32
  let v27 : BitVec 1 := Scalar.cmpi .ne v26 c0_i32_7
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S100000x128_S100352x128_03520_000 : S100000x128.Pads (![0, 0] : Fin 2 → Nat) ![352, 0] ![0, 0] S100352x128
  h_S_ : 0 < S_.numel
  pads_S1600000_S1601536_015360 : S1600000.Pads (![0] : Fin 1 → Nat) ![1536] ![0] S1601536
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S4096_S4096_0 : ∀ a, (![0] : Fin 1 → Nat) a + S4096.size a ≤ S4096.size a
  h_S4096 : 0 < S4096.numel
  shapeCasts_S4096_S4096 : S4096.ShapeCasts S4096
  iota_S1x2048_d1_w32 : S1x2048.Iotas .tc 32 [1]
  shapeCasts_S4096_S4096x1 : S4096.ShapeCasts S4096x1
  broadcasts_S4096x1_S4096x2048 : S4096x1.Broadcasts S4096x2048
  broadcasts_S1x2048_S4096x2048 : S1x2048.Broadcasts S4096x2048
  natLt_1_32 : 1 < 32
  broadcasts_S4096x1_S4096x128 : S4096x1.Broadcasts S4096x128
  slices_S100352x128_S100000x128_0_0 : S100352x128.Slices ![0, 0] S100000x128
  dot_S2048x128_S128x128_S2048x128_1_0_0_1_n_n_wf : DotDims.WF S2048x128 S128x128 S2048x128 [1] [0] [0] [1] [] []
  dot_S4096x2048_S2048x128_S4096x128_1_0_0_1_n_n_wf : DotDims.WF S4096x2048 S2048x128 S4096x128 [1] [0] [0] [1] [] []
  dot_S4096x2048_S4096x128_S2048x128_0_0_1_1_n_n_wf : DotDims.WF S4096x2048 S4096x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S1601536.size a
  hwx0_2 : ∀ i : grid0.Coords, EltTy.bits .i32 = 32 ∨ (Rect.block (s := S1601536) S4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S1601536.size a
  hwx0_3 : ∀ i : grid0.Coords, EltTy.bits .f32 = 32 ∨ (Rect.block (s := S1601536) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S1601536x128.size a
  hwx0_4 : ∀ i : grid0.Coords, EltTy.bits .f32 = 32 ∨ (Rect.block (s := S1601536x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S1601536x128.size a
  hwx1_0 : ∀ i : grid1.Coords, EltTy.bits .f32 = 32 ∨ (Rect.block (s := S1601536x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1601536.size a
  hwx1_1 : ∀ i : grid1.Coords, EltTy.bits .i32 = 32 ∨ (Rect.block (s := S1601536) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S100352x128.size a
  hwx1_2 : ∀ i : grid1.Coords, EltTy.bits .f32 = 32 ∨ (Rect.block (s := S100352x128) S2048x128.size (cc1_transform_2 i) (hinb1_2 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4096x2048_S2048x128_S4096x128_1_0_0_1_n_n : DotDims S4096x2048 S2048x128 S4096x128 where
  lhsContracting := [1]
  rhsContracting := [0]
  lhsNonContracting := [0]
  rhsNonContracting := [1]
  lhsBatch := []
  rhsBatch := []
  wf := dot_S4096x2048_S2048x128_S4096x128_1_0_0_1_n_n_wf
def dot_S4096x2048_S4096x128_S2048x128_0_0_1_1_n_n : DotDims S4096x2048 S4096x128 S2048x128 where
  lhsContracting := [0]
  rhsContracting := [0]
  lhsNonContracting := [1]
  rhsNonContracting := [1]
  lhsBatch := []
  rhsBatch := []
  wf := dot_S4096x2048_S4096x128_S2048x128_0_0_1_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v4) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .i1⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_1_0_0_n_n_wf : DotDims.WF S100000x128 S128x128 S100000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Kernel.Shared.lean ====
/-
  What both kernels' point-by-point arguments share.

  The gather kernel runs on a grid of 391 edge chunks by 49 node blocks, the scatter kernel on 49 node blocks by
  391 edge chunks; in both the inner axis is the one a scratch accumulator is carried along. A point's position
  along the inner axis decides what the body does: at the first inner position it clears the accumulator, at the
  last it writes the accumulator out to the output window, and in between (and at both ends) it adds one block's
  contribution. Stated here: each window's block of its array at a point; that an input window's buffer holds that
  block whenever the body runs, refetched there or not (its block index has not moved since the fetch); the two
  positions as conditions on the point's number; that the output window is left alone and not written back except at
  the last inner position; the buffers the body is called with; and the region's resting invariant with the
  accumulator's buffer named apart from the other scratch space.
-/
import proofs.«408857_j66305705115856_1_alg».proof.Proof.Gen.Kernel.Launch
import proofs.«408857_j66305705115856_1_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The gather region's windows -/

/-- Window `w`'s block at point `t`, read off its array as the gather region finds it. -/
def gblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gather's window of node rows holds its block at every point, refetched there or not. -/
theorem gfound0_of {c : Dev nD} (dat : Dat τ (Elt F) Unit ℕ (UR sig nD τ) ℕ cfg0 c)
    (hA : dat.A 0 = V c (Pipeline.arrRef spec0 0)) (hafter : ∀ t, dat.after 0 t = gblk V c 0 t)
    (t : Fin cfg0.N) (d) : dat.before 0 t d = gblk V c 0 t :=
  (dat.before_in_eq_fetched 0 rfl (fun _ => rfl) (fun _ _ _ => rfl) (fun t => by rw [hafter]; unfold Dat.blockOf gblk; rw [hA]; try rfl) t d).trans
    (by unfold Dat.fetched Dat.blockOf gblk; rw [hA]; try rfl)

/-- The gather's window of weights holds its block at every point, refetched there or not. -/
theorem gfound1_of {c : Dev nD} (dat : Dat τ (Elt F) Unit ℕ (UR sig nD τ) ℕ cfg0 c)
    (hA : dat.A 1 = V c (Pipeline.arrRef spec0 1)) (hafter : ∀ t, dat.after 1 t = gblk V c 1 t)
    (t : Fin cfg0.N) (d) : dat.before 1 t d = gblk V c 1 t :=
  (dat.before_in_eq_fetched 1 rfl (fun _ => rfl) (fun _ _ _ => rfl) (fun t => by rw [hafter]; unfold Dat.blockOf gblk; rw [hA]; try rfl) t d).trans
    (by unfold Dat.fetched Dat.blockOf gblk; rw [hA]; try rfl)

/-- The gather's window of column indices holds its block at every point, refetched there or not. -/
theorem gfound2_of {c : Dev nD} (dat : Dat τ (Elt F) Unit ℕ (UR sig nD τ) ℕ cfg0 c)
    (hA : dat.A 2 = V c (Pipeline.arrRef spec0 2)) (hafter : ∀ t, dat.after 2 t = gblk V c 2 t)
    (t : Fin cfg0.N) (d) : dat.before 2 t d = gblk V c 2 t :=
  (dat.before_in_eq_fetched 2 rfl (fun _ => rfl) (fun _ _ _ => rfl) (fun t => by rw [hafter]; unfold Dat.blockOf gblk; rw [hA]; try rfl) t d).trans
    (by unfold Dat.fetched Dat.blockOf gblk; rw [hA]; try rfl)

/-- The gather's window of edge values holds its block at every point, refetched there or not. -/
theorem gfound3_of {c : Dev nD} (dat : Dat τ (Elt F) Unit ℕ (UR sig nD τ) ℕ cfg0 c)
    (hA : dat.A 3 = V c (Pipeline.arrRef spec0 3)) (hafter : ∀ t, dat.after 3 t = gblk V c 3 t)
    (t : Fin cfg0.N) (d) : dat.before 3 t d = gblk V c 3 t :=
  (dat.before_in_eq_fetched 3 rfl (fun _ => rfl) (fun _ _ _ => rfl) (fun t => by rw [hafter]; unfold Dat.blockOf gblk; rw [hA]; try rfl) t d).trans
    (by unfold Dat.fetched Dat.blockOf gblk; rw [hA]; try rfl)

/-! ## The scatter region's windows -/

/-- Window `w`'s block at point `t`, read off its array as the scatter region finds it. -/
def sblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scatter's window of messages holds its block at every point, refetched there or not. -/
theorem sfound0_of {c : Dev nD} (dat : Dat τ (Elt F) Unit ℕ (UR sig nD τ) ℕ cfg1 c)
    (hA : dat.A 0 = V c (Pipeline.arrRef spec1 0)) (hafter : ∀ t, dat.after 0 t = sblk V c 0 t)
    (t : Fin cfg1.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- The scatter's window of row indices holds its block at every point, refetched there or not. -/
theorem sfound1_of {c : Dev nD} (dat : Dat τ (Elt F) Unit ℕ (UR sig nD τ) ℕ cfg1 c)
    (hA : dat.A 1 = V c (Pipeline.arrRef spec1 1)) (hafter : ∀ t, dat.after 1 t = sblk V c 1 t)
    (t : Fin cfg1.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

end Blocks

/-! ## Where a point stands along the inner axis

A point's coordinate on an axis is its number divided by the axis's stride, modulo the axis's bound; the inner
axis has stride 1, so the inner coordinate is the point's number modulo the inner bound, and each condition below
is a condition on that one coordinate, decided over its 49 (or 391) values. -/

theorem gInnerCoord (t : Fin cfg0.N) : ((grid0.coords t) 1).val = t.val % 49 := by
  show t.val / grid0.stride 1 % grid0.bound 1 = t.val % 49
  have h1 : grid0.stride 1 = 1 := by decide
  have h2 : grid0.bound 1 = 49 := by decide
  rw [h1, h2, Nat.div_one]

theorem sInnerCoord (t : Fin cfg1.N) : ((grid1.coords t) 1).val = t.val % 391 := by
  show t.val / grid1.stride 1 % grid1.bound 1 = t.val % 391
  have h1 : grid1.stride 1 = 1 := by decide
  have h2 : grid1.bound 1 = 391 := by decide
  rw [h1, h2, Nat.div_one]

/-- The gather body clears its accumulator: the point is at the first node block. -/
abbrev gFirst (i : grid0.Coords) : Prop := (Scalar.cmpi .ne (Scalar.extui (Scalar.cmpi .eq (BitVec.ofNat 32 (i 1).val) 0#32)) 0#32) = 1#1
/-- That is every 49th point, from point 0. -/
theorem gFirst_iff (t : Fin cfg0.N) : gFirst (grid0.coords t) ↔ t.val % 49 = 0 := by
  rw [← gInnerCoord t]
  exact (by decide : ∀ n : Fin 49, ((Scalar.cmpi .ne (Scalar.extui (Scalar.cmpi .eq (BitVec.ofNat 32 n.val) 0#32)) 0#32) = 1#1) ↔ n.val = 0) ((grid0.coords t) 1)
/-- The gather body writes its accumulator out: the point is at the last node block. -/
abbrev gLast (i : grid0.Coords) : Prop := k0_cond2 i = 1#1
/-- That is every 49th point, from point 48. -/
theorem gLast_iff (t : Fin cfg0.N) : gLast (grid0.coords t) ↔ t.val % 49 = 48 := by
  rw [← gInnerCoord t]
  exact (by decide : ∀ n : Fin 49, ((Scalar.cmpi .ne (Scalar.extui (Scalar.cmpi .eq (BitVec.ofNat 32 n.val) 48#32)) 0#32) = 1#1) ↔ n.val = 48) ((grid0.coords t) 1)

/-- The scatter body clears its accumulator: the point is at the first edge chunk. -/
abbrev sFirst (i : grid1.Coords) : Prop := (Scalar.cmpi .ne (Scalar.extui (Scalar.cmpi .eq (BitVec.ofNat 32 (i 1).val) 0#32)) 0#32) = 1#1
/-- That is every 391st point, from point 0. -/
theorem sFirst_iff (t : Fin cfg1.N) : sFirst (grid1.coords t) ↔ t.val % 391 = 0 := by
  rw [← sInnerCoord t]
  exact (by decide : ∀ n : Fin 391, ((Scalar.cmpi .ne (Scalar.extui (Scalar.cmpi .eq (BitVec.ofNat 32 n.val) 0#32)) 0#32) = 1#1) ↔ n.val = 0) ((grid1.coords t) 1)
/-- The scatter body writes its accumulator out: the point is at the last edge chunk. -/
abbrev sLast (i : grid1.Coords) : Prop := k1_cond2 i = 1#1
/-- That is every 391st point, from point 390. -/
theorem sLast_iff (t : Fin cfg1.N) : sLast (grid1.coords t) ↔ t.val % 391 = 390 := by
  rw [← sInnerCoord t]
  exact (by decide : ∀ n : Fin 391, ((Scalar.cmpi .ne (Scalar.extui (Scalar.cmpi .eq (BitVec.ofNat 32 n.val) 390#32)) 0#32) = 1#1) ↔ n.val = 390) ((grid1.coords t) 1)

/-! ## The output windows between write-outs -/

/-- Away from the last node block the gather's output window is left as found: the window is idle exactly where the
    write-out's condition fails; -/
theorem gOut_idle (t : Fin cfg0.N) (h : ¬gLast (grid0.coords t)) : cfg0.idle 4 (grid0.coords t) = true := by
  have h' : ¬(k0_cond2 (grid0.coords t) = 1#1) := h
  show (!(k0_cond2 (grid0.coords t) == 1#1)) = true
  simp [h']
/-- at the last node block the body stores into it. -/
theorem gOut_live (t : Fin cfg0.N) (h : gLast (grid0.coords t)) : cfg0.idle 4 (grid0.coords t) = false := by
  have h' : k0_cond2 (grid0.coords t) = 1#1 := h
  show (!(k0_cond2 (grid0.coords t) == 1#1)) = false
  simp [h']

/-- Away from the last edge chunk the scatter's output window is left as found; -/
theorem sOut_idle (t : Fin cfg1.N) (h : ¬sLast (grid1.coords t)) : cfg1.idle 2 (grid1.coords t) = true := by
  have h' : ¬(k1_cond2 (grid1.coords t) = 1#1) := h
  show (!(k1_cond2 (grid1.coords t) == 1#1)) = true
  simp [h']
/-- at the last edge chunk the body stores into it. -/
theorem sOut_live (t : Fin cfg1.N) (h : sLast (grid1.coords t)) : cfg1.idle 2 (grid1.coords t) = false := by
  have h' : k1_cond2 (grid1.coords t) = 1#1 := h
  show (!(k1_cond2 (grid1.coords t) == 1#1)) = false
  simp [h']

/-! ## The buffers the bodies are called with -/

abbrev gm0 (t : Fin cfg0.N) : Memref sig .tc .vmem S2048x128 .f32 := win0_0.stage (cfg0.slots t 0)
abbrev gh0 (t : Fin cfg0.N) : (gm0 t).IsWhole := hstage0_0 ((cfg0.slots t 0).cast nbuf0_0)
abbrev gm1 (t : Fin cfg0.N) : Memref sig .tc .vmem S128x128 .f32 := win0_1.stage (cfg0.slots t 1)
abbrev gh1 (t : Fin cfg0.N) : (gm1 t).IsWhole := hstage0_1 ((cfg0.slots t 1).cast nbuf0_1)
abbrev gm2 (t : Fin cfg0.N) : Memref sig .tc .vmem S4096 .i32 := win0_2.stage (cfg0.slots t 2)
abbrev gh2 (t : Fin cfg0.N) : (gm2 t).IsWhole := hstage0_2 ((cfg0.slots t 2).cast nbuf0_2)
abbrev gm3 (t : Fin cfg0.N) : Memref sig .tc .vmem S4096 .f32 := win0_3.stage (cfg0.slots t 3)
abbrev gh3 (t : Fin cfg0.N) : (gm3 t).IsWhole := hstage0_3 ((cfg0.slots t 3).cast nbuf0_3)
abbrev gm4 (t : Fin cfg0.N) : Memref sig .tc .vmem S4096x128 .f32 := win0_4.stage (cfg0.slots t 4)
abbrev gh4 (t : Fin cfg0.N) : (gm4 t).IsWhole := hstage0_4 ((cfg0.slots t 4).cast nbuf0_4)
/-- The gather's accumulator: a whole scratch buffer of the kernel's own. -/
abbrev gAcc : Memref sig .tc .vmem S4096x128 .f32 := Memref.whole cc0_scratch0
/-- One staging buffer of the gather's output window, through which its contents are stated. -/
abbrev gOutView : View sig .tc .vmem S4096x128 .f32 := (Memref.whole cc0_stg4_0 : Memref sig .tc .vmem S4096x128 .f32).view

abbrev sm0 (t : Fin cfg1.N) : Memref sig .tc .vmem S4096x128 .f32 := win1_0.stage (cfg1.slots t 0)
abbrev sh0 (t : Fin cfg1.N) : (sm0 t).IsWhole := hstage1_0 ((cfg1.slots t 0).cast nbuf1_0)
abbrev sm1 (t : Fin cfg1.N) : Memref sig .tc .vmem S4096 .i32 := win1_1.stage (cfg1.slots t 1)
abbrev sh1 (t : Fin cfg1.N) : (sm1 t).IsWhole := hstage1_1 ((cfg1.slots t 1).cast nbuf1_1)
abbrev sm2 (t : Fin cfg1.N) : Memref sig .tc .vmem S2048x128 .f32 := win1_2.stage (cfg1.slots t 2)
abbrev sh2 (t : Fin cfg1.N) : (sm2 t).IsWhole := hstage1_2 ((cfg1.slots t 2).cast nbuf1_2)
/-- The scatter's accumulator: a whole scratch buffer of the kernel's own. -/
abbrev sAcc : Memref sig .tc .vmem S2048x128 .f32 := Memref.whole cc1_scratch0
/-- One staging buffer of the scatter's output window, through which its contents are stated. -/
abbrev sOutView : View sig .tc .vmem S2048x128 .f32 := (Memref.whole cc1_stg2_0 : Memref sig .tc .vmem S2048x128 .f32).view

/-! ## Whole-buffer accesses start at the origin -/

theorem origin2 : (![0, 0] : Fin 2 → ℕ) = fun _ => 0 := by funext a; fin_cases a <;> rfl
theorem origin1 : (![0] : Fin 1 → ℕ) = fun _ => 0 := by funext a; fin_cases a; rfl

/-! ## The resting invariant with the accumulator named -/

/-- The core's scratch space other than the gather's accumulator and its windows' buffers, at some contents. -/
abbrev gOthers (c : Dev nD) : sProp 𝕄 :=
  Pipeline.scopedRestBut (Ix := Unit) (Name := ℕ) (U := UR sig nD τ) (Lvl := ℕ) (Val := Elt F) spec0 c [cc0_scratch0]
/-- The core's scratch space other than the scatter's accumulator and its windows' buffers, at some contents. -/
abbrev sOthers (c : Dev nD) : sProp 𝕄 :=
  Pipeline.scopedRestBut (Ix := Unit) (Name := ℕ) (U := UR sig nD τ) (Lvl := ℕ) (Val := Elt F) spec1 c [cc1_scratch0]

/-- The gather region's resting invariant: its accumulator at some contents, every other scratch buffer of the
    core at some contents, the generator register at some state. -/
theorem gRest_eq (c : Dev nD) :
    (Pipeline.ΦA spec0 c : sProp 𝕄)
      = iprop(iprop((∃ d, owns (c : Thread nD τ) gAcc fullShare d) ∗ gOthers (F := F) c) ∗ (∃ r, prngReg c r)) := by
  unfold Pipeline.ΦA
  rw [Pipeline.scopedRest_split_of_list spec0 c [cc0_scratch0] (by decide) (by decide)]
  simp only [bigSepL_singleton, gAcc, owns_whole]; try rfl

/-- The scatter region's resting invariant, likewise. -/
theorem sRest_eq (c : Dev nD) :
    (Pipeline.ΦA spec1 c : sProp 𝕄)
      = iprop(iprop((∃ d, owns (c : Thread nD τ) sAcc fullShare d) ∗ sOthers (F := F) c) ∗ (∃ r, prngReg c r)) := by
  unfold Pipeline.ΦA
  rw [Pipeline.scopedRest_split_of_list spec1 c [cc1_scratch0] (by decide) (by decide)]
  simp only [bigSepL_singleton, sAcc, owns_whole]; try rfl

end Cert.Kernel.Layer

end
-- ==== Proof.Kernel.GatherFirst.lean ====
/-
  The gather body at the first node block of an edge chunk (and not the last): it clears the accumulator, whatever
  it held, and adds the first block's contribution. The four input buffers and the output window's buffer come
  back as they were; the accumulator comes back with the pieces the body stored, which are the witness.
-/
import proofs.«408857_j66305705115856_1_alg».proof.Proof.Kernel.Shared

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def gatherFirst (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole) (hF : gFirst i) (hL : ¬gLast i)
    (x0 : Vec F S2048x128 .f32) (x1 : Vec F S128x128 .f32) (x2 : Vec F S4096 .i32) (x3 : Vec F S4096 .f32) :
    { LS : List (View.Piece (Elt F) S4096x128 .f32) //
      ∀ (xi : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Layer

end
-- ==== Proof.Kernel.GatherMid.lean ====
/-
  The gather body at a node block that is neither the first nor the last of its edge chunk: it adds the block's
  contribution to the accumulator as the point before left it. Everything else comes back as it was.
-/
import proofs.«408857_j66305705115856_1_alg».proof.Proof.Kernel.GatherFirst

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def gatherMid (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole) (hF : ¬gFirst i) (hL : ¬gLast i)
    (x0 : Vec F S2048x128 .f32) (x1 : Vec F S128x128 .f32) (x2 : Vec F S4096 .i32) (x3 : Vec F S4096 .f32) (xs : Vec F S4096x128 .f32) :
    { LS : List (View.Piece (Elt F) S4096x128 .f32) //
      ∀ (xi : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Layer

end
-- ==== Proof.Kernel.GatherLast.lean ====
/-
  The gather body at the last node block of an edge chunk (and not the first): it adds the block's contribution to
  the accumulator as the point before left it, then stores the accumulator, each row scaled by its edge's value,
  into the output window's buffer. Both come back with the pieces stored into them.
-/
import proofs.«408857_j66305705115856_1_alg».proof.Proof.Kernel.GatherMid

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def gatherLast (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole) (hF : ¬gFirst i) (hL : gLast i)
    (x0 : Vec F S2048x128 .f32) (x1 : Vec F S128x128 .f32) (x2 : Vec F S4096 .i32) (x3 : Vec F S4096 .f32) (xs : Vec F S4096x128 .f32) :
    Σ' (L : List (View.Piece (Elt F) S4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ f, arg7.view.loc (c : Thread nD τ) ↦[arg7.view.set]{fullShare} arg7.view.writes (Elt F) f LS)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Layer

end
-- ==== Proof.Kernel.GatherData.lean ====
/-
  The gather region, point by point.

  Along an edge chunk's 49 node blocks the accumulator is cleared at the first block and then gains one block's
  contribution per point, so after point `n` it holds a recursion in the points' blocks alone: the step function of
  the body applied to the blocks at `n` and to the accumulator after `n - 1`, or to the cleared accumulator where
  `n` is a first block. At a last block the output window's buffer receives the accumulator scaled by the chunk's
  edge values. First: what each of the three runs leaves in a buffer it stored into is the payload of its last
  store there, a pure function of the blocks. Then the recursion, the region's invariant (before the first point
  the resting one; after point `n` the accumulator at the recursion's value), the proof data and the obligation
  that the body, run at any point from what the data say it finds, leaves what they say it leaves.
-/
import proofs.«408857_j66305705115856_1_alg».proof.Proof.Kernel.GatherLast
import Idealize.ShloMosaic.Lib.Pipeline.Value

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the runs leave -/

section Pieces
variable (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole)
  (x0 : Vec F S2048x128 .f32) (x1 : Vec F S128x128 .f32) (x2 : Vec F S4096 .i32) (x3 : Vec F S4096 .f32)

/-- The first-block run's stores cover the accumulator. -/
theorem gatherFirst_cover (hF : gFirst i) (hL : ¬gLast i) (y : S4096x128.Idx) :
    ∃ pc ∈ (gatherFirst c i arg2 harg2 arg3 harg3 arg4 harg4 arg5 harg5 arg6 harg6 arg7 harg7 hF hL x0 x1 x2 x3).1, y ∈ pc.1.set :=
  View.cover_of_tiledL _ S4096x128.size (by sl_kernel_rfl) y

/-- They leave one step from the cleared accumulator. -/
theorem gatherFirst_acc (hF : gFirst i) (hL : ¬gLast i) :
    View.canon (gatherFirst c i arg2 harg2 arg3 harg3 arg4 harg4 arg5 harg5 arg6 harg6 arg7 harg7 hF hL x0 x1 x2 x3).1 = k0_pay2 i x0 x1 x2 (k0_pay1 (F := F)) := by
  unfold gatherFirst; dsimp only; sl_unfold_words
  rw [View.canon_cons_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

variable (xs : Vec F S4096x128 .f32)

/-- A middle run's stores cover the accumulator. -/
theorem gatherMid_cover (hF : ¬gFirst i) (hL : ¬gLast i) (y : S4096x128.Idx) :
    ∃ pc ∈ (gatherMid c i arg2 harg2 arg3 harg3 arg4 harg4 arg5 harg5 arg6 harg6 arg7 harg7 hF hL x0 x1 x2 x3 xs).1, y ∈ pc.1.set :=
  View.cover_of_tiledL _ S4096x128.size (by sl_kernel_rfl) y

/-- They leave one step from what the accumulator held. -/
theorem gatherMid_acc (hF : ¬gFirst i) (hL : ¬gLast i) :
    View.canon (gatherMid c i arg2 harg2 arg3 harg3 arg4 harg4 arg5 harg5 arg6 harg6 arg7 harg7 hF hL x0 x1 x2 x3 xs).1 = k0_pay2 i x0 x1 x2 xs := by
  unfold gatherMid; dsimp only; sl_unfold_words
  rw [View.canon_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

/-- The last-block run's stores cover the accumulator … -/
theorem gatherLast_cover (hF : ¬gFirst i) (hL : gLast i) (y : S4096x128.Idx) :
    ∃ pc ∈ (gatherLast c i arg2 harg2 arg3 harg3 arg4 harg4 arg5 harg5 arg6 harg6 arg7 harg7 hF hL x0 x1 x2 x3 xs).2.1, y ∈ pc.1.set :=
  View.cover_of_tiledL _ S4096x128.size (by sl_kernel_rfl) y

/-- … and the output window's buffer. -/
theorem gatherLast_outCover (hF : ¬gFirst i) (hL : gLast i) (y : S4096x128.Idx) :
    ∃ pc ∈ (gatherLast c i arg2 harg2 arg3 harg3 arg4 harg4 arg5 harg5 arg6 harg6 arg7 harg7 hF hL x0 x1 x2 x3 xs).1, y ∈ pc.1.set :=
  View.cover_of_tiledL _ S4096x128.size (by sl_kernel_rfl) y

/-- In the accumulator they leave one step from what it held, … -/
theorem gatherLast_acc (hF : ¬gFirst i) (hL : gLast i) :
    View.canon (gatherLast c i arg2 harg2 arg3 harg3 arg4 harg4 arg5 harg5 arg6 harg6 arg7 harg7 hF hL x0 x1 x2 x3 xs).2.1 = k0_pay2 i x0 x1 x2 xs := by
  unfold gatherLast; dsimp only; sl_unfold_words
  rw [View.canon_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

/-- … and in the output window's buffer that, each row scaled by its edge's value. -/
theorem gatherLast_out (hF : ¬gFirst i) (hL : gLast i) :
    View.canon (gatherLast c i arg2 harg2 arg3 harg3 arg4 harg4 arg5 harg5 arg6 harg6 arg7 harg7 hF hL x0 x1 x2 x3 xs).1 = k0_pay3 (k0_pay2 i x0 x1 x2 xs) x3 := by
  unfold gatherLast; dsimp only; sl_unfold_words
  rw [View.canon_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

end Pieces

/-! ## The accumulator, point by point -/

section Data
variable (V : (c : Dev nD) → (b : Ref sig .tc) → Buf (Elt F) ((c : Thread nD τ).loc b))

/-- The node block's rows, the weights, the chunk's column indices and its edge values at a point, at their literal types. -/
abbrev gEmb (c : Dev nD) (t : Fin cfg0.N) : Vec F S2048x128 .f32 := gblk V c 0 t
abbrev gWts (c : Dev nD) (t : Fin cfg0.N) : Vec F S128x128 .f32 := gblk V c 1 t
abbrev gCols (c : Dev nD) (t : Fin cfg0.N) : Vec F S4096 .i32 := gblk V c 2 t
abbrev gVals (c : Dev nD) (t : Fin cfg0.N) : Vec F S4096 .f32 := gblk V c 3 t

/-- What the accumulator holds after point `n`. -/
def gAccAt (c : Dev nD) : (n : ℕ) → n < cfg0.N → Vec F S4096x128 .f32
  | 0, hn => k0_pay2 (grid0.coords ⟨0, hn⟩) (gEmb V c ⟨0, hn⟩) (gWts V c ⟨0, hn⟩) (gCols V c ⟨0, hn⟩) (k0_pay1 (F := F))
  | n + 1, hn => k0_pay2 (grid0.coords ⟨n + 1, hn⟩) (gEmb V c ⟨n + 1, hn⟩) (gWts V c ⟨n + 1, hn⟩) (gCols V c ⟨n + 1, hn⟩)
      (if (n + 1) % 49 = 0 then k0_pay1 (F := F) else gAccAt c n (Nat.lt_of_succ_lt hn))

/-- At a first block: one step from the cleared accumulator. -/
theorem gAccAt_first (c : Dev nD) (t : Fin cfg0.N) (h : t.val % 49 = 0) :
    gAccAt V c t.val t.isLt = k0_pay2 (grid0.coords t) (gEmb V c t) (gWts V c t) (gCols V c t) (k0_pay1 (F := F)) := by
  obtain ⟨n, hn⟩ := t
  cases n with
  | zero => rfl
  | succ n => simp only [gAccAt]; rw [if_pos h]

/-- Elsewhere: one step from what the point before left. -/
theorem gAccAt_next (c : Dev nD) (t : Fin cfg0.N) (h : ¬t.val % 49 = 0) :
    gAccAt V c t.val t.isLt = k0_pay2 (grid0.coords t) (gEmb V c t) (gWts V c t) (gCols V c t)
      (gAccAt V c (t.val - 1) (Nat.lt_of_le_of_lt (Nat.sub_le _ _) t.isLt)) := by
  obtain ⟨n, hn⟩ := t
  cases n with
  | zero => exact absurd (Nat.zero_mod _) h
  | succ n => simp only [gAccAt]; rw [if_neg h]; rfl

/-- The region's invariant before position `n`: at the start the resting one; after point `n - 1` the accumulator at
    what that point left, the other scratch space and the generator register as they come. -/
def gInv (c : Dev nD) : (n : ℕ) → n ≤ cfg0.N → sProp 𝕄
  | 0, _ => Pipeline.ΦA spec0 c
  | n + 1, hn => iprop(iprop(owns (c : Thread nD τ) gAcc fullShare (gAccAt V c n hn) ∗ gOthers (F := F) c) ∗ (∃ r, prngReg c r))

theorem gInv_zero (c : Dev nD) (n : ℕ) (h : n ≤ cfg0.N) (hz : n = 0) : gInv V c n h = Pipeline.ΦA spec0 c := by
  subst hz; rfl
theorem gInv_succ (c : Dev nD) (n : ℕ) (hn : n < cfg0.N) :
    gInv V c (n + 1) hn = iprop(iprop(owns (c : Thread nD τ) gAcc fullShare (gAccAt V c n hn) ∗ gOthers (F := F) c) ∗ (∃ r, prngReg c r)) := rfl
theorem gInv_pos (c : Dev nD) (n : ℕ) (h : n ≤ cfg0.N) (hz : n ≠ 0) :
    gInv V c n h = iprop(iprop(owns (c : Thread nD τ) gAcc fullShare (gAccAt V c (n - 1) (by omega)) ∗ gOthers (F := F) c) ∗ (∃ r, prngReg c r)) := by
  cases n with
  | zero => exact absurd rfl hz
  | succ n => rfl

/-- The gather pipeline's proof data on core `c`: the arrays as the region finds them; each input window's buffer
    at its block after every point; the output window's at the scaled accumulator; the invariant above; nothing
    owed; full shares. -/
def gDat (c : Dev nD) : Dat τ (Elt F) Unit ℕ (UR sig nD τ) ℕ cfg0 c where
  A w := V c (Pipeline.arrRef spec0 w)
  after w t := match w with
    | ⟨0, _⟩ => gblk V c 0 t
    | ⟨1, _⟩ => gblk V c 1 t
    | ⟨2, _⟩ => gblk V c 2 t
    | ⟨3, _⟩ => gblk V c 3 t
    | ⟨4, _⟩ => k0_pay3 (gAccAt V c t.val t.isLt) (gVals V c t)
  Φ t := gInv V c t.val (Nat.le_of_lt_succ t.isLt)
  q _ := fullShare
  owed _ := 0

theorem gDat_A (c : Dev nD) (w : Fin cfg0.W) : (gDat V c).A w = V c (Pipeline.arrRef spec0 w) := by
  dsimp only [gDat]
theorem gDat_inv_castSucc (c : Dev nD) (t : Fin cfg0.N) :
    (gDat V c).Φ t.castSucc = gInv V c t.val (Nat.le_of_lt t.isLt) := by
  dsimp only [gDat]; simp only [Fin.coe_castSucc]
theorem gDat_after0 (c : Dev nD) (t : Fin cfg0.N) : (gDat V c).after 0 t = gblk V c 0 t := by dsimp only [gDat]
theorem gDat_after1 (c : Dev nD) (t : Fin cfg0.N) : (gDat V c).after 1 t = gblk V c 1 t := by dsimp only [gDat]
theorem gDat_after2 (c : Dev nD) (t : Fin cfg0.N) : (gDat V c).after 2 t = gblk V c 2 t := by dsimp only [gDat]
theorem gDat_after3 (c : Dev nD) (t : Fin cfg0.N) : (gDat V c).after 3 t = gblk V c 3 t := by dsimp only [gDat]
theorem gDat_after4 (c : Dev nD) (t : Fin cfg0.N) :
    (gDat V c).after 4 t = k0_pay3 (gAccAt V c t.val t.isLt) (gVals V c t) := by dsimp only [gDat]

theorem gDat_found0 (c : Dev nD) (t : Fin cfg0.N) (d) : (gDat V c).before 0 t d = gblk V c 0 t :=
  gfound0_of V (gDat V c) (gDat_A V c 0) (gDat_after0 V c) t d
theorem gDat_found1 (c : Dev nD) (t : Fin cfg0.N) (d) : (gDat V c).before 1 t d = gblk V c 1 t :=
  gfound1_of V (gDat V c) (gDat_A V c 1) (gDat_after1 V c) t d
theorem gDat_found2 (c : Dev nD) (t : Fin cfg0.N) (d) : (gDat V c).before 2 t d = gblk V c 2 t :=
  gfound2_of V (gDat V c) (gDat_A V c 2) (gDat_after2 V c) t d
theorem gDat_found3 (c : Dev nD) (t : Fin cfg0.N) (d) : (gDat V c).before 3 t d = gblk V c 3 t :=
  gfound3_of V (gDat V c) (gDat_A V c 3) (gDat_after3 V c) t d

end Data

end Cert.Kernel.Layer

end
-- ==== Proof.Kernel.GatherBlocks.lean ====
/-
  The gather region's blocks, in the whole arrays' coordinates.

  Point `t` of the gather's grid is edge chunk `t / 49`, node block `t % 49` (the grid runs the node blocks
  fastest). Its block of the padded node table is the 2048 rows from `2048 (t % 49)`; its block of the weights is
  the whole matrix; its blocks of the padded column indices and edge values are the 4096 entries from
  `4096 (t / 49)`; and its block of the message array is the 4096 rows from `4096 (t / 49)`. The message blocks
  written back — one per edge chunk, after its last node block — tile the message array.
-/
import proofs.«408857_j66305705115856_1_alg».proof.Proof.Kernel.Shared
import Idealize.ShloMosaic.Lib.ValueIdx
import Idealize.ShloMosaic.Lib.Pipeline.Value

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b)) (c : Dev nD)

/-- The grid's inner coordinate of point `t` is `t % 49`, its outer one `t / 49`. -/
theorem gInner (t : Fin cfg0.N) : ((grid0.coords t) 1).val = t.val % 49 := by
  show t.val / grid0.stride 1 % grid0.bound 1 = t.val % 49
  have h1 : grid0.stride 1 = 1 := by decide
  have h2 : grid0.bound 1 = 49 := by decide
  rw [h1, h2, Nat.div_one]
theorem gOuter (t : Fin cfg0.N) : ((grid0.coords t) 0).val = t.val / 49 := by
  show t.val / grid0.stride 0 % grid0.bound 0 = t.val / 49
  have h1 : grid0.stride 0 = 49 := by decide
  have h2 : grid0.bound 0 = 391 := by decide
  have hN : t.val < 19159 := lt_of_lt_of_eq t.isLt N_0
  rw [h1, h2]
  omega

/-! The printed index maps at point `t`: a grid coordinate is below `2³²`, so its word reads back as itself. -/

/-- The node table's block index: the node block, and column block 0. -/
private theorem idx0_0 (t : Fin cfg0.N) : win0_0.index t (0 : Fin 2) = t.val % 49 := by
  show (BitVec.ofNat 32 ((grid0.coords t) 1).val).toNat = t.val % 49
  rw [BitVec.toNat_ofNat, gInner]
  omega
private theorem idx0_1 (t : Fin cfg0.N) : win0_0.index t (1 : Fin 2) = 0 := rfl
/-- The weights' block index: block (0, 0). -/
private theorem idx1_0 (t : Fin cfg0.N) : win0_1.index t (0 : Fin 2) = 0 := rfl
private theorem idx1_1 (t : Fin cfg0.N) : win0_1.index t (1 : Fin 2) = 0 := rfl
/-- The column indices' block index: the edge chunk. -/
private theorem idx2_0 (t : Fin cfg0.N) : win0_2.index t (0 : Fin 1) = t.val / 49 := by
  have hN : t.val < 19159 := lt_of_lt_of_eq t.isLt N_0
  show (BitVec.ofNat 32 ((grid0.coords t) 0).val).toNat = t.val / 49
  rw [BitVec.toNat_ofNat, gOuter]
  omega
/-- The edge values' block index: the edge chunk. -/
private theorem idx3_0 (t : Fin cfg0.N) : win0_3.index t (0 : Fin 1) = t.val / 49 := by
  have hN : t.val < 19159 := lt_of_lt_of_eq t.isLt N_0
  show (BitVec.ofNat 32 ((grid0.coords t) 0).val).toNat = t.val / 49
  rw [BitVec.toNat_ofNat, gOuter]
  omega
/-- The message array's block index: the edge chunk, and column block 0. -/
private theorem idx4_0 (t : Fin cfg0.N) : win0_4.index t (0 : Fin 2) = t.val / 49 := by
  have hN : t.val < 19159 := lt_of_lt_of_eq t.isLt N_0
  show (BitVec.ofNat 32 ((grid0.coords t) 0).val).toNat = t.val / 49
  rw [BitVec.toNat_ofNat, gOuter]
  omega
private theorem idx4_1 (t : Fin cfg0.N) : win0_4.index t (1 : Fin 2) = 0 := rfl

/-- The node block's rows. -/
theorem gEmb_apply (t : Fin cfg0.N) (k : Fin 2048) (d : Fin 128) :
    (gblk V c 0 t : Vec F S2048x128 .f32) (ix2 k d)
      = (V c main_v0 : Vec F S100352x128 .f32) (ix2 (⟨2048 * (t.val % 49) + k.val, by omega⟩ : Fin 100352) d) := by
  unfold gblk
  rw [View.read_apply]
  show (V c main_v0 : Vec F S100352x128 .f32) (((cfg0.win 0).blk t).view.emb (ix2 k d)) = _
  refine congrArg (V c main_v0 : Vec F S100352x128 .f32) (funext fun a => Fin.ext ?_)
  match a with
  | ⟨0, _⟩ =>
    show win0_0.index t (0 : Fin 2) * 2048 + 1 * k.val = 2048 * (t.val % 49) + k.val
    rw [idx0_0]; omega
  | ⟨1, _⟩ =>
    show win0_0.index t (1 : Fin 2) * 128 + 1 * d.val = d.val
    rw [idx0_1]; omega

/-- The weights' block is the whole matrix. -/
theorem gWts_eq (t : Fin cfg0.N) : (gblk V c 1 t : Vec F S128x128 .f32) = (V c main_arg1 : Vec F S128x128 .f32) := by
  funext j
  unfold gblk
  rw [View.read_apply]
  show (V c main_arg1 : Vec F S128x128 .f32) (((cfg0.win 1).blk t).view.emb j) = _
  refine congrArg (V c main_arg1 : Vec F S128x128 .f32) (funext fun a => Fin.ext ?_)
  match a with
  | ⟨0, _⟩ =>
    show win0_1.index t (0 : Fin 2) * 128 + 1 * (j 0).val = (j 0).val
    rw [idx1_0]; omega
  | ⟨1, _⟩ =>
    show win0_1.index t (1 : Fin 2) * 128 + 1 * (j 1).val = (j 1).val
    rw [idx1_1]; omega

/-- The chunk's column indices. -/
theorem gCols_apply (t : Fin cfg0.N) (a : Fin 4096) :
    (gblk V c 2 t : Vec F S4096 .i32) (ix1 a)
      = (V c main_v1 : Vec F S1601536 .i32) (ix1 (⟨4096 * (t.val / 49) + a.val, by have h : t.val < 19159 := lt_of_lt_of_eq t.isLt N_0; omega⟩ : Fin 1601536)) := by
  unfold gblk
  rw [View.read_apply]
  show (V c main_v1 : Vec F S1601536 .i32) (((cfg0.win 2).blk t).view.emb (ix1 a)) = _
  refine congrArg (V c main_v1 : Vec F S1601536 .i32) (funext fun ax => Fin.ext ?_)
  match ax with
  | ⟨0, _⟩ =>
    show win0_2.index t (0 : Fin 1) * 4096 + 1 * a.val = 4096 * (t.val / 49) + a.val
    rw [idx2_0]; omega

/-- The chunk's edge values. -/
theorem gVals_apply (t : Fin cfg0.N) (a : Fin 4096) :
    (gblk V c 3 t : Vec F S4096 .f32) (ix1 a)
      = (V c main_v3 : Vec F S1601536 .f32) (ix1 (⟨4096 * (t.val / 49) + a.val, by have h : t.val < 19159 := lt_of_lt_of_eq t.isLt N_0; omega⟩ : Fin 1601536)) := by
  unfold gblk
  rw [View.read_apply]
  show (V c main_v3 : Vec F S1601536 .f32) (((cfg0.win 3).blk t).view.emb (ix1 a)) = _
  refine congrArg (V c main_v3 : Vec F S1601536 .f32) (funext fun ax => Fin.ext ?_)
  match ax with
  | ⟨0, _⟩ =>
    show win0_3.index t (0 : Fin 1) * 4096 + 1 * a.val = 4096 * (t.val / 49) + a.val
    rw [idx3_0]; omega

/-- A message array read through point `t`'s block of the output window. -/
theorem gOut_read (G : Vec F S1601536x128 .f32) (t : Fin cfg0.N) (a : Fin 4096) (b : Fin 128) :
    (((cfg0.win 4).blk t).view.read (Elt F) G : Vec F S4096x128 .f32) (ix2 a b)
      = G (ix2 (⟨4096 * (t.val / 49) + a.val, by have h : t.val < 19159 := lt_of_lt_of_eq t.isLt N_0; omega⟩ : Fin 1601536) b) := by
  rw [View.read_apply]
  show G (((cfg0.win 4).blk t).view.emb (ix2 a b)) = _
  refine congrArg G (funext fun ax => Fin.ext ?_)
  match ax with
  | ⟨0, _⟩ =>
    show win0_4.index t (0 : Fin 2) * 4096 + 1 * a.val = 4096 * (t.val / 49) + a.val
    rw [idx4_0]; omega
  | ⟨1, _⟩ =>
    show win0_4.index t (1 : Fin 2) * 128 + 1 * b.val = b.val
    rw [idx4_1]; omega

/-- The message block is written back exactly after a last node block. -/
theorem gOut_flush_iff (t : Fin cfg0.N) : (cfg0.win 4).flush t = true ↔ t.val % 49 = 48 := by
  have hN : grid0.N = 19159 := N_0
  have ht : t.val < 19159 := lt_of_lt_of_eq t.isLt N_0
  rw [Window.flush_out (cfg0.win 4) rfl t]
  constructor
  · rintro (h | ⟨h, hne⟩)
    · have h' : t.val + 1 = 19159 := h.trans hN
      omega
    · by_contra h48
      refine hne (funext fun a => ?_)
      match a with
      | ⟨0, _⟩ =>
        show win0_4.index ⟨t.val + 1, h⟩ (0 : Fin 2) = win0_4.index t (0 : Fin 2)
        rw [idx4_0, idx4_0]
        show (t.val + 1) / 49 = t.val / 49
        omega
      | ⟨1, _⟩ => rfl
  · intro h48
    by_cases hl : t.val + 1 = grid0.N
    · exact Or.inl hl
    · have hl' : ¬t.val + 1 = 19159 := fun e => hl (e.trans hN.symm)
      have h : t.val + 1 < grid0.N := lt_of_lt_of_eq (by omega) hN.symm
      refine Or.inr ⟨h, fun e => ?_⟩
      have e0 : win0_4.index ⟨t.val + 1, h⟩ (0 : Fin 2) = win0_4.index t (0 : Fin 2) := congrFun e (0 : Fin 2)
      rw [idx4_0, idx4_0] at e0
      have e1 : (t.val + 1) / 49 = t.val / 49 := e0
      omega

/-- Every entry of the message array lies in the block some point writes back: edge `E` in chunk `E / 4096`'s. -/
theorem gOut_cover (i : S1601536x128.Idx) :
    ∃ t : Fin cfg0.N, (cfg0.win 4).flush t = true ∧ i ∈ ((cfg0.win 4).blk t).view.set := by
  have hi0 : (i 0).val < 1601536 := (i 0).isLt
  have hi1 : (i 1).val < 128 := (i 1).isLt
  have hlt : 49 * ((i 0).val / 4096) + 48 < cfg0.N := lt_of_lt_of_eq (by omega) N_0.symm
  refine ⟨⟨49 * ((i 0).val / 4096) + 48, hlt⟩, (gOut_flush_iff _).mpr ?_, ?_⟩
  · show (49 * ((i 0).val / 4096) + 48) % 49 = 48
    omega
  · show i ∈ ((View.whole main_v4).slice (win0_4.rect ⟨49 * ((i 0).val / 4096) + 48, hlt⟩)).set
    rw [View.set_slice_whole, Rect.mem_set_unit]
    intro a
    match a with
    | ⟨0, _⟩ =>
      show win0_4.index ⟨49 * ((i 0).val / 4096) + 48, hlt⟩ (0 : Fin 2) * 4096 ≤ (i 0).val
        ∧ (i 0).val < win0_4.index ⟨49 * ((i 0).val / 4096) + 48, hlt⟩ (0 : Fin 2) * 4096 + 4096
      rw [idx4_0]
      show (49 * ((i 0).val / 4096) + 48) / 49 * 4096 ≤ (i 0).val
        ∧ (i 0).val < (49 * ((i 0).val / 4096) + 48) / 49 * 4096 + 4096
      omega
    | ⟨1, _⟩ =>
      show win0_4.index ⟨49 * ((i 0).val / 4096) + 48, hlt⟩ (1 : Fin 2) * 128 ≤ (i 1).val
        ∧ (i 1).val < win0_4.index ⟨49 * ((i 0).val / 4096) + 48, hlt⟩ (1 : Fin 2) * 128 + 128
      rw [idx4_1]
      omega

end

end Cert.Kernel.Layer

end
-- ==== Proof.Kernel.ScatterBlocks.lean ====
/-
  The scatter region's blocks, in the whole arrays' coordinates.

  Point `t` of the scatter's grid is node block `t / 391`, edge chunk `t % 391` (the grid runs the edge chunks
  fastest). Its block of the message array is the 4096 rows from `4096 (t % 391)`, its block of the padded row
  indices the 4096 entries from there, and its block of the padded result array the 2048 rows from
  `2048 (t / 391)`. The result blocks written back — one per node block, after its last edge chunk — tile the padded
  result array.
-/
import proofs.«408857_j66305705115856_1_alg».proof.Proof.Kernel.Shared
import Idealize.ShloMosaic.Lib.ValueIdx
import Idealize.ShloMosaic.Lib.Pipeline.Value

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b)) (c : Dev nD)

/-- The grid's inner coordinate of point `t` is `t % 391`, its outer one `t / 391`. -/
theorem sInner (t : Fin cfg1.N) : ((grid1.coords t) 1).val = t.val % 391 := by
  exact sInnerCoord t
theorem sOuter (t : Fin cfg1.N) : ((grid1.coords t) 0).val = t.val / 391 := by
  show t.val / grid1.stride 0 % grid1.bound 0 = t.val / 391
  have h1 : grid1.stride 0 = 391 := by decide
  have h2 : grid1.bound 0 = 49 := by decide
  have hN : t.val < 19159 := lt_of_lt_of_eq t.isLt N_1
  rw [h1, h2]; omega

/-! ## The printed index maps at a point: each a grid coordinate, as a number, or zero -/

/-- A grid coordinate passes through the 32-bit word the index map computes with unchanged. -/
private theorem word_val (n : Nat) (hn : n < 19159) : (BitVec.ofNat 32 n).toNat = n := by
  rw [BitVec.toNat_ofNat]; exact Nat.mod_eq_of_lt (by omega)

/-- The message window's block index: the edge chunk, and column block 0. -/
private theorem msgs_index0 (t : Fin cfg1.N) : win1_0.index t (0 : Fin 2) = t.val % 391 := by
  show (BitVec.ofNat 32 ((grid1.coords t) 1).val).toNat = t.val % 391
  rw [sInner t]; exact word_val _ (by omega)
private theorem msgs_index1 (t : Fin cfg1.N) : win1_0.index t (1 : Fin 2) = 0 := rfl

/-- The row-index window's block index: the edge chunk. -/
private theorem rows_index0 (t : Fin cfg1.N) : win1_1.index t (0 : Fin 1) = t.val % 391 := by
  show (BitVec.ofNat 32 ((grid1.coords t) 1).val).toNat = t.val % 391
  rw [sInner t]; exact word_val _ (by omega)

/-- The output window's block index: the node block, and column block 0. -/
private theorem out_index0 (t : Fin cfg1.N) : win1_2.index t (0 : Fin 2) = t.val / 391 := by
  have hN : t.val < 19159 := lt_of_lt_of_eq t.isLt N_1
  show (BitVec.ofNat 32 ((grid1.coords t) 0).val).toNat = t.val / 391
  rw [sOuter t]; exact word_val _ (by omega)
private theorem out_index1 (t : Fin cfg1.N) : win1_2.index t (1 : Fin 2) = 0 := rfl

/-- Two points have the same output block exactly when they are in the same node block. -/
private theorem out_index_eq_iff (t u : Fin cfg1.N) : win1_2.index u = win1_2.index t ↔ u.val / 391 = t.val / 391 := by
  constructor
  · intro e
    have e0 := congrFun e (0 : Fin 2)
    rwa [out_index0, out_index0] at e0
  · intro e
    funext a
    match a with
    | ⟨0, _⟩ => show win1_2.index u (0 : Fin 2) = win1_2.index t (0 : Fin 2); rw [out_index0, out_index0, e]
    | ⟨1, _⟩ => show win1_2.index u (1 : Fin 2) = win1_2.index t (1 : Fin 2); rw [out_index1, out_index1]

/-- An entry of the padded result array is in point `t`'s output block exactly when, on each axis, its coordinate is
    in the block's range. -/
private theorem out_mem_blk (t : Fin cfg1.N) (i : S100352x128.Idx) :
    i ∈ ((cfg1.win 2).blk t).view.set
      ↔ ∀ a : Fin 2, win1_2.index t a * S2048x128.size a ≤ (i a).val ∧ (i a).val < win1_2.index t a * S2048x128.size a + S2048x128.size a := by
  show i ∈ ((View.whole main_v5).slice (win1_2.rect t)).set ↔ _
  rw [View.set_slice_whole, Rect.mem_set_unit]
  exact Iff.rfl

/-- The chunk's messages. -/
theorem sMsgs_apply (t : Fin cfg1.N) (a : Fin 4096) (b : Fin 128) :
    (sblk V c 0 t : Vec F S4096x128 .f32) (ix2 a b)
      = (V c main_v4 : Vec F S1601536x128 .f32) (ix2 (⟨4096 * (t.val % 391) + a.val, by omega⟩ : Fin 1601536) b) := by
  show V c main_v4 (((cfg1.win 0).blk t).view.emb (ix2 a b)) = V c main_v4 _
  refine congrArg (V c main_v4) ?_
  funext x
  apply Fin.ext
  match x with
  | ⟨0, _⟩ =>
    show win1_0.index t (0 : Fin 2) * 4096 + 1 * a.val = 4096 * (t.val % 391) + a.val
    rw [msgs_index0]; omega
  | ⟨1, _⟩ =>
    show win1_0.index t (1 : Fin 2) * 128 + 1 * b.val = b.val
    rw [msgs_index1]; omega

/-- The chunk's row indices. -/
theorem sRows_apply (t : Fin cfg1.N) (a : Fin 4096) :
    (sblk V c 1 t : Vec F S4096 .i32) (ix1 a)
      = (V c main_v2 : Vec F S1601536 .i32) (ix1 (⟨4096 * (t.val % 391) + a.val, by omega⟩ : Fin 1601536)) := by
  show V c main_v2 (((cfg1.win 1).blk t).view.emb (ix1 a)) = V c main_v2 _
  refine congrArg (V c main_v2) ?_
  funext x
  apply Fin.ext
  match x with
  | ⟨0, _⟩ =>
    show win1_1.index t (0 : Fin 1) * 4096 + 1 * a.val = 4096 * (t.val % 391) + a.val
    rw [rows_index0]; omega

/-- A padded result array read through point `t`'s block of the output window. -/
theorem sOut_read (G : Vec F S100352x128 .f32) (t : Fin cfg1.N) (k : Fin 2048) (b : Fin 128) :
    (((cfg1.win 2).blk t).view.read (Elt F) G : Vec F S2048x128 .f32) (ix2 k b)
      = G (ix2 (⟨2048 * (t.val / 391) + k.val, by have h : t.val < 19159 := lt_of_lt_of_eq t.isLt N_1; omega⟩ : Fin 100352) b) := by
  show G (((cfg1.win 2).blk t).view.emb (ix2 k b)) = G _
  refine congrArg G ?_
  funext x
  apply Fin.ext
  match x with
  | ⟨0, _⟩ =>
    show win1_2.index t (0 : Fin 2) * 2048 + 1 * k.val = 2048 * (t.val / 391) + k.val
    rw [out_index0]; omega
  | ⟨1, _⟩ =>
    show win1_2.index t (1 : Fin 2) * 128 + 1 * b.val = b.val
    rw [out_index1]; omega

/-- The result block is written back exactly after a last edge chunk. -/
theorem sOut_flush_iff (t : Fin cfg1.N) : (cfg1.win 2).flush t = true ↔ t.val % 391 = 390 := by
  have hN : t.val < 19159 := lt_of_lt_of_eq t.isLt N_1
  have hG : cfg1.grid.N = 19159 := N_1
  rw [Window.flush_out (cfg1.win 2) rfl t]
  constructor
  · rintro (h | ⟨h, hne⟩)
    · omega
    · have hd : (t.val + 1) / 391 ≠ t.val / 391 := fun e => hne ((out_index_eq_iff t ⟨t.val + 1, h⟩).mpr e)
      omega
  · intro h
    by_cases hl : t.val + 1 = cfg1.grid.N
    · exact Or.inl hl
    · have h' : t.val + 1 < cfg1.grid.N := by omega
      refine Or.inr ⟨h', fun e => ?_⟩
      have hd := (out_index_eq_iff t ⟨t.val + 1, h'⟩).mp e
      have hd' : (t.val + 1) / 391 = t.val / 391 := hd
      omega

/-- Every entry of the padded result array lies in the block some point writes back: row `R` in node block
    `R / 2048`'s. -/
theorem sOut_cover (i : S100352x128.Idx) :
    ∃ t : Fin cfg1.N, (cfg1.win 2).flush t = true ∧ i ∈ ((cfg1.win 2).blk t).view.set := by
  have hi0 : (i 0).val < 100352 := (i 0).isLt
  have hi1 : (i 1).val < 128 := (i 1).isLt
  -- the last edge chunk of the node block that holds row `i 0`
  have hlt : (i 0).val / 2048 * 391 + 390 < cfg1.N := by rw [show cfg1.N = 19159 from N_1]; omega
  refine ⟨⟨(i 0).val / 2048 * 391 + 390, hlt⟩, (sOut_flush_iff _).mpr (by show ((i 0).val / 2048 * 391 + 390) % 391 = 390; omega), ?_⟩
  rw [out_mem_blk]
  intro a
  match a with
  | ⟨0, _⟩ =>
    show win1_2.index _ (0 : Fin 2) * 2048 ≤ (i 0).val ∧ (i 0).val < win1_2.index _ (0 : Fin 2) * 2048 + 2048
    rw [out_index0]
    show ((i 0).val / 2048 * 391 + 390) / 391 * 2048 ≤ (i 0).val ∧ (i 0).val < ((i 0).val / 2048 * 391 + 390) / 391 * 2048 + 2048
    omega
  | ⟨1, _⟩ =>
    show win1_2.index _ (1 : Fin 2) * 128 ≤ (i 1).val ∧ (i 1).val < win1_2.index _ (1 : Fin 2) * 128 + 128
    rw [out_index1]; omega

end

end Cert.Kernel.Layer

end
-- ==== Proof.Kernel.WriteBack.lean ====
/-
  When the output windows' blocks go back to their arrays: the gather's after the last node block of each edge
  chunk, the scatter's after the last edge chunk of each node block, and at no other point.
-/
import proofs.«408857_j66305705115856_1_alg».proof.Proof.Kernel.GatherBlocks
import proofs.«408857_j66305705115856_1_alg».proof.Proof.Kernel.ScatterBlocks

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Away from the last node block the gather's output block is not written back. -/
theorem gOut_noFlush (t : Fin cfg0.N) (h : ¬gLast (grid0.coords t)) : (cfg0.win 4).flush t = false := by
  cases hf : (cfg0.win 4).flush t with
  | false => rfl
  | true => exact absurd ((gLast_iff t).mpr ((gOut_flush_iff t).mp hf)) h

/-- Away from the last edge chunk the scatter's output block is not written back. -/
theorem sOut_noFlush (t : Fin cfg1.N) (h : ¬sLast (grid1.coords t)) : (cfg1.win 2).flush t = false := by
  cases hf : (cfg1.win 2).flush t with
  | false => rfl
  | true => exact absurd ((sLast_iff t).mpr ((sOut_flush_iff t).mp hf)) h

end Cert.Kernel.Layer

end
-- ==== Proof.Kernel.GatherObligation.lean ====
/-
  The gather body's obligation.

  At every point the body is handed the invariant, its four input windows' buffers at their blocks, and the output
  window's buffer at whatever it holds; it must hand back the next invariant and each buffer at what the proof data
  say. By the point's place among its edge chunk's 49 node blocks: at the first, the run that clears the
  accumulator (whatever it held: nothing at all at the very first point, the previous chunk's total afterwards);
  at the last, the run that also writes the accumulator out; in between, the plain run. In each case the
  accumulator comes back at the recursion's value, because what the run's stores leave is one step from what the
  accumulator held. The output window is idle and not written back except at a last block.
-/
import proofs.«408857_j66305705115856_1_alg».proof.Proof.Kernel.GatherData
import proofs.«408857_j66305705115856_1_alg».proof.Proof.Kernel.WriteBack

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The gather body at point `t`, on the buffers the pipeline calls it with. -/
abbrev gBody (t : Fin cfg0.N) : Prog (TpuEff nD τ sig (Elt F) Λ₀ .tc) PUnit :=
  cc0__gather_kernel (grid0.coords t) (gm0 t) (gh0 t) (gm1 t) (gh1 t) (gm2 t) (gh2 t) (gm3 t) (gh3 t) (gm4 t) (gh4 t) gAcc (Memref.isWhole_whole _)

/-- What the body is called with at point `t`, -/
def gPre (c : Dev nD) (t : Fin cfg0.N) : sProp 𝕄 :=
  iprop((gDat V c).Φ t.castSucc ∗ (gDat V c).owesAt () t.castSucc
    ∗ (∃ d, owns (c : Thread nD τ) (gm0 t) fullShare ((gDat V c).before 0 t d))
    ∗ (∃ d, owns (c : Thread nD τ) (gm1 t) fullShare ((gDat V c).before 1 t d))
    ∗ (∃ d, owns (c : Thread nD τ) (gm2 t) fullShare ((gDat V c).before 2 t d))
    ∗ (∃ d, owns (c : Thread nD τ) (gm3 t) fullShare ((gDat V c).before 3 t d))
    ∗ (∃ d, owns (c : Thread nD τ) (gm4 t) fullShare ((gDat V c).before 4 t d)))

/-- and what it returns. -/
def gPost (c : Dev nD) (t : Fin cfg0.N) : sProp 𝕄 :=
  iprop((gDat V c).Φ t.succ ∗ (gDat V c).owesAt () t.succ
    ∗ (gDat V c).leavesExact 0 t ∗ (gDat V c).leavesExact 1 t ∗ (gDat V c).leavesExact 2 t
    ∗ (gDat V c).leavesExact 3 t ∗ (gDat V c).leavesExact 4 t)

/-- An input window's buffer is handed back at its block. -/
theorem gLeaves_in (c : Dev nD) (t : Fin cfg0.N) (w : Fin cfg0.W) (hlive : cfg0.idle w (grid0.coords t) = false) :
    (gDat V c).leavesExact w t = owns (c : Thread nD τ) ((cfg0.win w).stage (cfg0.slots t w)) fullShare ((gDat V c).after w t) := by
  unfold Dat.leavesExact; rw [hlive]

set_option maxHeartbeats 4800000 in
theorem gSound (c : Dev nD) (t : Fin cfg0.N) :
    gPre V c t ⊢ wp frame (wpE (defs₀ (F := F)) Variants.none c none) Set.univ (gBody t) (fun _ => gPost V c t) := by
  unfold gPre gPost gBody
  simp only [gDat_found0, gDat_found1, gDat_found2, gDat_found3]
  rw [show (gDat V c).owesAt () t.succ = (gDat V c).owesAt () t.castSucc from rfl]
  rw [show (gDat V c).Φ t.succ = gInv V c (t.val + 1) t.isLt from rfl, gInv_succ]
  rw [gLeaves_in V c t 0 rfl, gLeaves_in V c t 1 rfl, gLeaves_in V c t 2 rfl, gLeaves_in V c t 3 rfl,
    gDat_after0, gDat_after1, gDat_after2, gDat_after3]
  by_cases h0 : t.val % 49 = 0
  · -- a first block (and so not a last one)
    have hF : gFirst (grid0.coords t) := (gFirst_iff t).mpr h0
    have hL : ¬gLast (grid0.coords t) := fun h => by have := (gLast_iff t).mp h; omega
    rw [Dat.leavesExact_idle (gDat V c) 4 t (gOut_idle t hL) (gOut_noFlush t hL)]
    rw [gAccAt_first V c t h0]
    by_cases hz : t.val = 0
    · rw [gDat_inv_castSucc V c t, gInv_zero V c _ _ hz, gRest_eq]
      iintro ⟨⟨⟨HS, Hoth⟩, Hg⟩, Ho, ⟨%d0, H0⟩, ⟨%d1, H1⟩, ⟨%d2, H2⟩, ⟨%d3, H3⟩, ⟨%d4, H4⟩⟩
      iapply ((gatherFirst c (grid0.coords t) _ _ _ _ _ _ _ _ _ _ _ _ hF hL (gEmb V c t) (gWts V c t) (gCols V c t) (gVals V c t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro
            exact (View.read_writes_eq_canon _ _ _ (gatherFirst_cover c (grid0.coords t) _ _ _ _ _ _ _ _ _ _ _ _ _ _ _ _ hF hL)).trans
              (gatherFirst_acc c (grid0.coords t) _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      iexists _; iexact H4
    · rw [gDat_inv_castSucc V c t, gInv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((gatherFirst c (grid0.coords t) _ _ _ _ _ _ _ _ _ _ _ _ hF hL (gEmb V c t) (gWts V c t) (gCols V c t) (gVals V c t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro
            exact (View.read_writes_eq_canon _ _ _ (gatherFirst_cover c (grid0.coords t) _ _ _ _ _ _ _ _ _ _ _ _ _ _ _ _ hF hL)).trans
              (gatherFirst_acc c (grid0.coords t) _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      iexists _; iexact H4
  · have hF : ¬gFirst (grid0.coords t) := fun h => h0 ((gFirst_iff t).mp h)
    have hz : t.val ≠ 0 := fun e => h0 (by rw [e])
    rw [gAccAt_next V c t h0]
    rw [gDat_inv_castSucc V c t, gInv_pos V c _ _ hz]
    by_cases h48 : t.val % 49 = 48
    · -- a last block
      have hL : gLast (grid0.coords t) := (gLast_iff t).mpr h48
      rw [gLeaves_in V c t 4 (gOut_live t hL), gDat_after4, gAccAt_next V c t h0]
      iintro ⟨⟨⟨HS, Hoth⟩, Hg⟩, Ho, ⟨%d0, H0⟩, ⟨%d1, H1⟩, ⟨%d2, H2⟩, ⟨%d3, H3⟩, ⟨%d4, H4⟩⟩
      iapply ((gatherLast c (grid0.coords t) _ _ _ _ _ _ _ _ _ _ _ _ hF hL (gEmb V c t) (gWts V c t) (gCols V c t) (gVals V c t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro
            exact (View.read_writes_eq_canon _ _ _ (gatherLast_cover c (grid0.coords t) _ _ _ _ _ _ _ _ _ _ _ _ _ _ _ _ _ hF hL)).trans
              (gatherLast_acc c (grid0.coords t) _ _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (gatherLast_outCover c (grid0.coords t) _ _ _ _ _ _ _ _ _ _ _ _ _ _ _ _ _ hF hL)).trans
        (gatherLast_out c (grid0.coords t) _ _ _ _ _ _ _ _ _ _ _ _ _ _ _ _ _ hF hL)
    · -- neither
      have hL : ¬gLast (grid0.coords t) := fun h => h48 ((gLast_iff t).mp h)
      rw [Dat.leavesExact_idle (gDat V c) 4 t (gOut_idle t hL) (gOut_noFlush t hL)]
      iintro ⟨⟨⟨HS, Hoth⟩, Hg⟩, Ho, ⟨%d0, H0⟩, ⟨%d1, H1⟩, ⟨%d2, H2⟩, ⟨%d3, H3⟩, ⟨%d4, H4⟩⟩
      iapply ((gatherMid c (grid0.coords t) _ _ _ _ _ _ _ _ _ _ _ _ hF hL (gEmb V c t) (gWts V c t) (gCols V c t) (gVals V c t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro
            exact (View.read_writes_eq_canon _ _ _ (gatherMid_cover c (grid0.coords t) _ _ _ _ _ _ _ _ _ _ _ _ _ _ _ _ _ hF hL)).trans
              (gatherMid_acc c (grid0.coords t) _ _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation for the gather pipeline, at every point. -/
theorem gObligation (c : Dev nD) : BodyObligation (gDat (F := F) V c) (defs₀ (F := F)) Variants.none () Set.univ := fun t => by
  rw [bigSep_W0, bigSep_W0]
  exact gSound V c t

/-- The launch's resting invariant is the invariant before the first point. -/
theorem gIn (c : Dev nD) : Pipeline.ΦA spec0 c ⊢ (gDat V c).Φ 0 := by
  rw [show (gDat V c).Φ 0 = gInv V c 0 (Nat.zero_le _) from rfl, gInv_zero V c 0 _ rfl]

/-- After the last point the invariant gives the resting one back: the accumulator's contents are forgotten. -/
theorem gOut (c : Dev nD) : (gDat V c).Φ (Fin.last cfg0.N) ⊢ Pipeline.ΦA spec0 c := by
  rw [show (gDat V c).Φ (Fin.last cfg0.N) = gInv V c (Fin.last cfg0.N).val (Nat.le_of_lt_succ (Fin.last cfg0.N).isLt) from rfl,
    gInv_pos V c _ _ (by rw [Fin.val_last]; have : cfg0.N = 19159 := N_0; omega), gRest_eq]
  iintro ⟨⟨HS, Hoth⟩, Hg⟩
  isplitl [HS Hoth]
  · isplitl [HS]
    · iexists _; iexact HS
    iexact Hoth
  iexact Hg

end

end Cert.Kernel.Layer

end
-- ==== Proof.Kernel.ScatterFirst.lean ====
/-
  The scatter body at the first edge chunk of a node block (and not the last): it clears the accumulator, whatever
  it held, and adds the first chunk's contribution. The two input buffers and the output window's buffer come back
  as they were; the accumulator comes back with the pieces the body stored, which are the witness.
-/
import proofs.«408857_j66305705115856_1_alg».proof.Proof.Kernel.Shared

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def scatterFirst (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole) (hF : sFirst i) (hL : ¬sLast i)
    (y0 : Vec F S4096x128 .f32) (y1 : Vec F S4096 .i32) :
    { LS : List (View.Piece (Elt F) S2048x128 .f32) //
      ∀ (yi : Vec F S2048x128 .f32) (E : Set ℕ) (K : PUnit → sProp 𝕄),
        iprop(owns (c : Thread nD τ) arg2 fullShare y0 ∗ owns (c : Thread nD τ) arg3 fullShare y1 ∗ owns (c : Thread nD τ) arg4 fullShare yi ∗ (∃ d, owns (c : Thread nD τ) arg5 fullShare d)
            ∗ (iprop(owns (c : Thread nD τ) arg2 fullShare y0 ∗ owns (c : Thread nD τ) arg3 fullShare y1 ∗ owns (c : Thread nD τ) arg4 fullShare yi ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun yi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Layer

end
-- ==== Proof.Kernel.ScatterMid.lean ====
/-
  The scatter body at an edge chunk that is neither the first nor the last of its node block: it adds the chunk's
  contribution to the accumulator as the point before left it. Everything else comes back as it was.
-/
import proofs.«408857_j66305705115856_1_alg».proof.Proof.Kernel.ScatterFirst

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def scatterMid (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole) (hF : ¬sFirst i) (hL : ¬sLast i)
    (y0 : Vec F S4096x128 .f32) (y1 : Vec F S4096 .i32) (ys : Vec F S2048x128 .f32) :
    { LS : List (View.Piece (Elt F) S2048x128 .f32) //
      ∀ (yi : Vec F S2048x128 .f32) (E : Set ℕ) (K : PUnit → sProp 𝕄),
        iprop(owns (c : Thread nD τ) arg2 fullShare y0 ∗ owns (c : Thread nD τ) arg3 fullShare y1 ∗ owns (c : Thread nD τ) arg4 fullShare yi ∗ owns (c : Thread nD τ) arg5 fullShare ys
            ∗ (iprop(owns (c : Thread nD τ) arg2 fullShare y0 ∗ owns (c : Thread nD τ) arg3 fullShare y1 ∗ owns (c : Thread nD τ) arg4 fullShare yi ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun yi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Layer

end
-- ==== Proof.Kernel.ScatterLast.lean ====
/-
  The scatter body at the last edge chunk of a node block (and not the first): it adds the chunk's contribution to
  the accumulator as the point before left it, then stores the leaky rectifier of the accumulator into the output
  window's buffer. Both come back with the pieces stored into them.
-/
import proofs.«408857_j66305705115856_1_alg».proof.Proof.Kernel.ScatterMid

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def scatterLast (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole) (hF : ¬sFirst i) (hL : sLast i)
    (y0 : Vec F S4096x128 .f32) (y1 : Vec F S4096 .i32) (ys : Vec F S2048x128 .f32) :
    Σ' (L : List (View.Piece (Elt F) S2048x128 .f32)), { LS : List (View.Piece (Elt F) S2048x128 .f32) //
      ∀ (E : Set ℕ) (K : PUnit → sProp 𝕄),
        iprop(owns (c : Thread nD τ) arg2 fullShare y0 ∗ owns (c : Thread nD τ) arg3 fullShare y1 ∗ (∃ d, owns (c : Thread nD τ) arg4 fullShare d) ∗ owns (c : Thread nD τ) arg5 fullShare ys
            ∗ (iprop(owns (c : Thread nD τ) arg2 fullShare y0 ∗ owns (c : Thread nD τ) arg3 fullShare y1 ∗ (∃ f, arg4.view.loc (c : Thread nD τ) ↦[arg4.view.set]{fullShare} arg4.view.writes (Elt F) f L) ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Layer

end
-- ==== Proof.Kernel.ScatterData.lean ====
/-
  The scatter region, point by point.

  Along a node block's 391 edge chunks the accumulator is cleared at the first chunk and then gains one chunk's
  contribution per point, so after point `n` it holds a recursion in the points' blocks alone: the step function of
  the body applied to the chunk's row indices and messages at `n` and to the accumulator after `n - 1`, or to the
  cleared accumulator where `n` is a first chunk. At a last chunk the output window's buffer receives the leaky
  rectifier of the accumulator. First: what each of the three runs leaves in a buffer it stored into is the payload
  of its last store there. Then the recursion, the region's invariant, the proof data and the body's obligation.
-/
import proofs.«408857_j66305705115856_1_alg».proof.Proof.Kernel.ScatterLast
import Idealize.ShloMosaic.Lib.Pipeline.Value

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the runs leave -/

section Pieces
variable (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole)
  (y0 : Vec F S4096x128 .f32) (y1 : Vec F S4096 .i32)

/-- The first-chunk run's stores cover the accumulator. -/
theorem scatterFirst_cover (hF : sFirst i) (hL : ¬sLast i) (y : S2048x128.Idx) :
    ∃ pc ∈ (scatterFirst c i arg2 harg2 arg3 harg3 arg4 harg4 arg5 harg5 hF hL y0 y1).1, y ∈ pc.1.set :=
  View.cover_of_tiledL _ S2048x128.size (by sl_kernel_rfl) y

/-- They leave one step from the cleared accumulator. -/
theorem scatterFirst_acc (hF : sFirst i) (hL : ¬sLast i) :
    View.canon (scatterFirst c i arg2 harg2 arg3 harg3 arg4 harg4 arg5 harg5 hF hL y0 y1).1 = k1_pay2 i y1 y0 (k1_pay1 (F := F)) := by
  unfold scatterFirst; dsimp only; sl_unfold_words
  rw [View.canon_cons_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

variable (ys : Vec F S2048x128 .f32)

/-- A middle run's stores cover the accumulator. -/
theorem scatterMid_cover (hF : ¬sFirst i) (hL : ¬sLast i) (y : S2048x128.Idx) :
    ∃ pc ∈ (scatterMid c i arg2 harg2 arg3 harg3 arg4 harg4 arg5 harg5 hF hL y0 y1 ys).1, y ∈ pc.1.set :=
  View.cover_of_tiledL _ S2048x128.size (by sl_kernel_rfl) y

/-- They leave one step from what the accumulator held. -/
theorem scatterMid_acc (hF : ¬sFirst i) (hL : ¬sLast i) :
    View.canon (scatterMid c i arg2 harg2 arg3 harg3 arg4 harg4 arg5 harg5 hF hL y0 y1 ys).1 = k1_pay2 i y1 y0 ys := by
  unfold scatterMid; dsimp only; sl_unfold_words
  rw [View.canon_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

/-- The last-chunk run's stores cover the accumulator … -/
theorem scatterLast_cover (hF : ¬sFirst i) (hL : sLast i) (y : S2048x128.Idx) :
    ∃ pc ∈ (scatterLast c i arg2 harg2 arg3 harg3 arg4 harg4 arg5 harg5 hF hL y0 y1 ys).2.1, y ∈ pc.1.set :=
  View.cover_of_tiledL _ S2048x128.size (by sl_kernel_rfl) y

/-- … and the output window's buffer. -/
theorem scatterLast_outCover (hF : ¬sFirst i) (hL : sLast i) (y : S2048x128.Idx) :
    ∃ pc ∈ (scatterLast c i arg2 harg2 arg3 harg3 arg4 harg4 arg5 harg5 hF hL y0 y1 ys).1, y ∈ pc.1.set :=
  View.cover_of_tiledL _ S2048x128.size (by sl_kernel_rfl) y

/-- In the accumulator they leave one step from what it held, … -/
theorem scatterLast_acc (hF : ¬sFirst i) (hL : sLast i) :
    View.canon (scatterLast c i arg2 harg2 arg3 harg3 arg4 harg4 arg5 harg5 hF hL y0 y1 ys).2.1 = k1_pay2 i y1 y0 ys := by
  unfold scatterLast; dsimp only; sl_unfold_words
  rw [View.canon_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

/-- … and in the output window's buffer the leaky rectifier of that. -/
theorem scatterLast_out (hF : ¬sFirst i) (hL : sLast i) :
    View.canon (scatterLast c i arg2 harg2 arg3 harg3 arg4 harg4 arg5 harg5 hF hL y0 y1 ys).1 = k1_pay3 (k1_pay2 i y1 y0 ys) := by
  unfold scatterLast; dsimp only; sl_unfold_words
  rw [View.canon_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

end Pieces

/-! ## The accumulator, point by point -/

section Data
variable (V : (c : Dev nD) → (b : Ref sig .tc) → Buf (Elt F) ((c : Thread nD τ).loc b))

/-- The chunk's messages and row indices at a point, at their literal types. -/
abbrev sMsgs (c : Dev nD) (t : Fin cfg1.N) : Vec F S4096x128 .f32 := sblk V c 0 t
abbrev sRows (c : Dev nD) (t : Fin cfg1.N) : Vec F S4096 .i32 := sblk V c 1 t

/-- What the accumulator holds after point `n`. -/
def sAccAt (c : Dev nD) : (n : ℕ) → n < cfg1.N → Vec F S2048x128 .f32
  | 0, hn => k1_pay2 (grid1.coords ⟨0, hn⟩) (sRows V c ⟨0, hn⟩) (sMsgs V c ⟨0, hn⟩) (k1_pay1 (F := F))
  | n + 1, hn => k1_pay2 (grid1.coords ⟨n + 1, hn⟩) (sRows V c ⟨n + 1, hn⟩) (sMsgs V c ⟨n + 1, hn⟩)
      (if (n + 1) % 391 = 0 then k1_pay1 (F := F) else sAccAt c n (Nat.lt_of_succ_lt hn))

/-- At a first chunk: one step from the cleared accumulator. -/
theorem sAccAt_first (c : Dev nD) (t : Fin cfg1.N) (h : t.val % 391 = 0) :
    sAccAt V c t.val t.isLt = k1_pay2 (grid1.coords t) (sRows V c t) (sMsgs V c t) (k1_pay1 (F := F)) := by
  obtain ⟨n, hn⟩ := t
  cases n with
  | zero => rfl
  | succ n => simp only [sAccAt]; rw [if_pos h]

/-- Elsewhere: one step from what the point before left. -/
theorem sAccAt_next (c : Dev nD) (t : Fin cfg1.N) (h : ¬t.val % 391 = 0) :
    sAccAt V c t.val t.isLt = k1_pay2 (grid1.coords t) (sRows V c t) (sMsgs V c t)
      (sAccAt V c (t.val - 1) (Nat.lt_of_le_of_lt (Nat.sub_le _ _) t.isLt)) := by
  obtain ⟨n, hn⟩ := t
  cases n with
  | zero => exact absurd (Nat.zero_mod _) h
  | succ n => simp only [sAccAt]; rw [if_neg h]; rfl

/-- The region's invariant before position `n`: at the start the resting one; after point `n - 1` the accumulator at
    what that point left, the other scratch space and the generator register as they come. -/
def sInv (c : Dev nD) : (n : ℕ) → n ≤ cfg1.N → sProp 𝕄
  | 0, _ => Pipeline.ΦA spec1 c
  | n + 1, hn => iprop(iprop(owns (c : Thread nD τ) sAcc fullShare (sAccAt V c n hn) ∗ sOthers (F := F) c) ∗ (∃ r, prngReg c r))

theorem sInv_zero (c : Dev nD) (n : ℕ) (h : n ≤ cfg1.N) (hz : n = 0) : sInv V c n h = Pipeline.ΦA spec1 c := by
  subst hz; rfl
theorem sInv_succ (c : Dev nD) (n : ℕ) (hn : n < cfg1.N) :
    sInv V c (n + 1) hn = iprop(iprop(owns (c : Thread nD τ) sAcc fullShare (sAccAt V c n hn) ∗ sOthers (F := F) c) ∗ (∃ r, prngReg c r)) := rfl
theorem sInv_pos (c : Dev nD) (n : ℕ) (h : n ≤ cfg1.N) (hz : n ≠ 0) :
    sInv V c n h = iprop(iprop(owns (c : Thread nD τ) sAcc fullShare (sAccAt V c (n - 1) (by omega)) ∗ sOthers (F := F) c) ∗ (∃ r, prngReg c r)) := by
  cases n with
  | zero => exact absurd rfl hz
  | succ n => rfl

/-- The scatter pipeline's proof data on core `c`: the arrays as the region finds them; each input window's buffer
    at its block after every point; the output window's at the rectified accumulator; the invariant above; nothing
    owed; full shares. -/
def sDat (c : Dev nD) : Dat τ (Elt F) Unit ℕ (UR sig nD τ) ℕ cfg1 c where
  A w := V c (Pipeline.arrRef spec1 w)
  after w t := match w with
    | ⟨0, _⟩ => sblk V c 0 t
    | ⟨1, _⟩ => sblk V c 1 t
    | ⟨2, _⟩ => k1_pay3 (sAccAt V c t.val t.isLt)
  Φ t := sInv V c t.val (Nat.le_of_lt_succ t.isLt)
  q _ := fullShare
  owed _ := 0

theorem sDat_A (c : Dev nD) (w : Fin cfg1.W) : (sDat V c).A w = V c (Pipeline.arrRef spec1 w) := by
  dsimp only [sDat]
theorem sDat_inv_castSucc (c : Dev nD) (t : Fin cfg1.N) :
    (sDat V c).Φ t.castSucc = sInv V c t.val (Nat.le_of_lt t.isLt) := by
  dsimp only [sDat]; simp only [Fin.coe_castSucc]
theorem sDat_after0 (c : Dev nD) (t : Fin cfg1.N) : (sDat V c).after 0 t = sblk V c 0 t := by dsimp only [sDat]
theorem sDat_after1 (c : Dev nD) (t : Fin cfg1.N) : (sDat V c).after 1 t = sblk V c 1 t := by dsimp only [sDat]
theorem sDat_after2 (c : Dev nD) (t : Fin cfg1.N) :
    (sDat V c).after 2 t = k1_pay3 (sAccAt V c t.val t.isLt) := by dsimp only [sDat]

theorem sDat_found0 (c : Dev nD) (t : Fin cfg1.N) (d) : (sDat V c).before 0 t d = sblk V c 0 t :=
  sfound0_of V (sDat V c) (sDat_A V c 0) (sDat_after0 V c) t d
theorem sDat_found1 (c : Dev nD) (t : Fin cfg1.N) (d) : (sDat V c).before 1 t d = sblk V c 1 t :=
  sfound1_of V (sDat V c) (sDat_A V c 1) (sDat_after1 V c) t d

end Data

end Cert.Kernel.Layer

end
-- ==== Proof.Kernel.ScatterObligation.lean ====
/-
  The scatter body's obligation.

  At every point the body is handed the invariant, its two input windows' buffers at their blocks, and the output
  window's buffer at whatever it holds; it must hand back the next invariant and each buffer at what the proof data
  say. By the point's place among its node block's 391 edge chunks: at the first, the run that clears the
  accumulator (whatever it held); at the last, the run that also writes the rectified accumulator out; in
  between, the plain run. In each case the accumulator comes back at the recursion's value. The output window is
  idle and not written back except at a last chunk.
-/
import proofs.«408857_j66305705115856_1_alg».proof.Proof.Kernel.ScatterData
import proofs.«408857_j66305705115856_1_alg».proof.Proof.Kernel.WriteBack

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The scatter body at point `t`, on the buffers the pipeline calls it with. -/
abbrev sBody (t : Fin cfg1.N) : Prog (TpuEff nD τ sig (Elt F) Λ₀ .tc) PUnit :=
  cc1__scatter_kernel (grid1.coords t) (sm0 t) (sh0 t) (sm1 t) (sh1 t) (sm2 t) (sh2 t) sAcc (Memref.isWhole_whole _)

/-- What the body is called with at point `t`, -/
def sPre (c : Dev nD) (t : Fin cfg1.N) : sProp 𝕄 :=
  iprop((sDat V c).Φ t.castSucc ∗ (sDat V c).owesAt () t.castSucc
    ∗ (∃ d, owns (c : Thread nD τ) (sm0 t) fullShare ((sDat V c).before 0 t d))
    ∗ (∃ d, owns (c : Thread nD τ) (sm1 t) fullShare ((sDat V c).before 1 t d))
    ∗ (∃ d, owns (c : Thread nD τ) (sm2 t) fullShare ((sDat V c).before 2 t d)))

/-- and what it returns. -/
def sPost (c : Dev nD) (t : Fin cfg1.N) : sProp 𝕄 :=
  iprop((sDat V c).Φ t.succ ∗ (sDat V c).owesAt () t.succ
    ∗ (sDat V c).leavesExact 0 t ∗ (sDat V c).leavesExact 1 t ∗ (sDat V c).leavesExact 2 t)

/-- A window the body stores into or only reads at the point is handed back at what the data say. -/
theorem sLeaves_in (c : Dev nD) (t : Fin cfg1.N) (w : Fin cfg1.W) (hlive : cfg1.idle w (grid1.coords t) = false) :
    (sDat V c).leavesExact w t = owns (c : Thread nD τ) ((cfg1.win w).stage (cfg1.slots t w)) fullShare ((sDat V c).after w t) := by
  unfold Dat.leavesExact; rw [hlive]

set_option maxHeartbeats 4800000 in
theorem sSound (c : Dev nD) (t : Fin cfg1.N) :
    sPre V c t ⊢ wp frame (wpE (defs₀ (F := F)) Variants.none c none) Set.univ (sBody t) (fun _ => sPost V c t) := by
  unfold sPre sPost sBody
  simp only [sDat_found0, sDat_found1]
  rw [show (sDat V c).owesAt () t.succ = (sDat V c).owesAt () t.castSucc from rfl]
  rw [show (sDat V c).Φ t.succ = sInv V c (t.val + 1) t.isLt from rfl, sInv_succ]
  rw [sLeaves_in V c t 0 rfl, sLeaves_in V c t 1 rfl, sDat_after0, sDat_after1]
  by_cases h0 : t.val % 391 = 0
  · -- a first chunk (and so not a last one)
    have hF : sFirst (grid1.coords t) := (sFirst_iff t).mpr h0
    have hL : ¬sLast (grid1.coords t) := fun h => by have := (sLast_iff t).mp h; omega
    rw [Dat.leavesExact_idle (sDat V c) 2 t (sOut_idle t hL) (sOut_noFlush t hL)]
    rw [sAccAt_first V c t h0]
    by_cases hz : t.val = 0
    · rw [sDat_inv_castSucc V c t, sInv_zero V c _ _ hz, sRest_eq]
      iintro ⟨⟨⟨HS, Hoth⟩, Hg⟩, Ho, ⟨%d0, H0⟩, ⟨%d1, H1⟩, ⟨%d2, H2⟩⟩
      iapply ((scatterFirst c (grid1.coords t) _ _ _ _ _ _ _ _ hF hL (sMsgs V c t) (sRows V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro
            exact (View.read_writes_eq_canon _ _ _ (scatterFirst_cover c (grid1.coords t) _ _ _ _ _ _ _ _ _ _ hF hL)).trans
              (scatterFirst_acc c (grid1.coords t) _ _ _ _ _ _ _ _ _ _ hF hL)
          iexact Hoth
        iexact Hg
      isplitl [Ho]; · iexact Ho
      isplitl [H0]; · iexact H0
      isplitl [H1]; · iexact H1
      iexists _; iexact H2
    · rw [sDat_inv_castSucc V c t, sInv_pos V c _ _ hz]
      iintro ⟨⟨⟨HS, Hoth⟩, Hg⟩, Ho, ⟨%d0, H0⟩, ⟨%d1, H1⟩, ⟨%d2, H2⟩⟩
      iapply ((scatterFirst c (grid1.coords t) _ _ _ _ _ _ _ _ hF hL (sMsgs V c t) (sRows V c t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro
            exact (View.read_writes_eq_canon _ _ _ (scatterFirst_cover c (grid1.coords t) _ _ _ _ _ _ _ _ _ _ hF hL)).trans
              (scatterFirst_acc c (grid1.coords t) _ _ _ _ _ _ _ _ _ _ hF hL)
          iexact Hoth
        iexact Hg
      isplitl [Ho]; · iexact Ho
      isplitl [H0]; · iexact H0
      isplitl [H1]; · iexact H1
      iexists _; iexact H2
  · have hF : ¬sFirst (grid1.coords t) := fun h => h0 ((sFirst_iff t).mp h)
    have hz : t.val ≠ 0 := fun e => h0 (by rw [e])
    rw [sAccAt_next V c t h0]
    rw [sDat_inv_castSucc V c t, sInv_pos V c _ _ hz]
    by_cases h390 : t.val % 391 = 390
    · -- a last chunk
      have hL : sLast (grid1.coords t) := (sLast_iff t).mpr h390
      rw [sLeaves_in V c t 2 (sOut_live t hL), sDat_after2, sAccAt_next V c t h0]
      iintro ⟨⟨⟨HS, Hoth⟩, Hg⟩, Ho, ⟨%d0, H0⟩, ⟨%d1, H1⟩, ⟨%d2, H2⟩⟩
      iapply ((scatterLast c (grid1.coords t) _ _ _ _ _ _ _ _ hF hL (sMsgs V c t) (sRows V c t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro
            exact (View.read_writes_eq_canon _ _ _ (scatterLast_cover c (grid1.coords t) _ _ _ _ _ _ _ _ _ _ _ hF hL)).trans
              (scatterLast_acc c (grid1.coords t) _ _ _ _ _ _ _ _ _ _ _ hF hL)
          iexact Hoth
        iexact Hg
      isplitl [Ho]; · iexact Ho
      isplitl [H0]; · iexact H0
      isplitl [H1]; · iexact H1
      unfold owns; iexists _; isplitr
      swap; · iexact H2
      ipureintro
      exact (View.read_writes_eq_canon _ _ _ (scatterLast_outCover c (grid1.coords t) _ _ _ _ _ _ _ _ _ _ _ hF hL)).trans
        (scatterLast_out c (grid1.coords t) _ _ _ _ _ _ _ _ _ _ _ hF hL)
    · -- neither
      have hL : ¬sLast (grid1.coords t) := fun h => h390 ((sLast_iff t).mp h)
      rw [Dat.leavesExact_idle (sDat V c) 2 t (sOut_idle t hL) (sOut_noFlush t hL)]
      iintro ⟨⟨⟨HS, Hoth⟩, Hg⟩, Ho, ⟨%d0, H0⟩, ⟨%d1, H1⟩, ⟨%d2, H2⟩⟩
      iapply ((scatterMid c (grid1.coords t) _ _ _ _ _ _ _ _ hF hL (sMsgs V c t) (sRows V c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro
            exact (View.read_writes_eq_canon _ _ _ (scatterMid_cover c (grid1.coords t) _ _ _ _ _ _ _ _ _ _ _ hF hL)).trans
              (scatterMid_acc c (grid1.coords t) _ _ _ _ _ _ _ _ _ _ _ hF hL)
          iexact Hoth
        iexact Hg
      isplitl [Ho]; · iexact Ho
      isplitl [H0]; · iexact H0
      isplitl [H1]; · iexact H1
      iexists _; iexact H2

/-- The library's body obligation for the scatter pipeline, at every point. -/
theorem sObligation (c : Dev nD) : BodyObligation (sDat (F := F) V c) (defs₀ (F := F)) Variants.none () Set.univ := fun t => by
  rw [bigSep_W1, bigSep_W1]
  exact sSound V c t

/-- The launch's resting invariant is the invariant before the first point. -/
theorem sIn (c : Dev nD) : Pipeline.ΦA spec1 c ⊢ (sDat V c).Φ 0 := by
  rw [show (sDat V c).Φ 0 = sInv V c 0 (Nat.zero_le _) from rfl, sInv_zero V c 0 _ rfl]

/-- After the last point the invariant gives the resting one back: the accumulator's contents are forgotten. -/
theorem sOut (c : Dev nD) : (sDat V c).Φ (Fin.last cfg1.N) ⊢ Pipeline.ΦA spec1 c := by
  rw [show (sDat V c).Φ (Fin.last cfg1.N) = sInv V c (Fin.last cfg1.N).val (Nat.le_of_lt_succ (Fin.last cfg1.N).isLt) from rfl,
    sInv_pos V c _ _ (by rw [Fin.val_last]; have : cfg1.N = 19159 := N_1; omega), sRest_eq]
  iintro ⟨⟨HS, Hoth⟩, Hg⟩
  isplitl [HS Hoth]
  · isplitl [HS]
    · iexists _; iexact HS
    iexact Hoth
  iexact Hg

end

end Cert.Kernel.Layer

end
-- ==== Proof.Kernel.Frame.lean ====
/-
  The frame: the program runs to its end, faults nowhere, and leaves its five argument arrays as launched.

  The host side — the pads before the two regions, the slice after them, the chaining of the thread states — is the
  generated conditional frame; what it asks for is, per region, a record that the region can be entered from the
  buffers' contents before it and left at their contents after it. Between the regions every unscoped buffer is
  held at its contents, beside the generator register at some state and the core owing nothing. The gather region
  is entered with the message array at whatever it holds and leaves it at the fold of its 391 write-backs; the
  scatter region reads that array and leaves the padded result array at the fold of its 49 write-backs; each
  region's arrays are split out of the unscoped buffers at entry and put back at exit, its scratch space and the
  generator register pass into its invariant and out again, and no argument array is an output of either.
-/
import proofs.«408857_j66305705115856_1_alg».proof.Proof.Kernel.GatherObligation
import proofs.«408857_j66305705115856_1_alg».proof.Proof.Kernel.ScatterObligation
import proofs.«408857_j66305705115856_1_alg».proof.Proof.Gen.Kernel.Regions
import Idealize.ShloMosaic.Lib.Pipeline.RegionsLoop
import Idealize.ShloMosaic.Lib.Pipeline.FrameSuffix

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- The buffers as the gather region finds them: the launch contents after the four pads. -/
abbrev gEntry : (c : Dev nD) → (b : Ref sig .tc) → Buf (Elt F) ((c : Thread nD τ).loc b) := fun c b => Gen.V8 m c b

/-- What the gather region leaves in the message array: the fold of its write-backs. -/
def gLeft (c : Dev nD) : Buf (Elt F) ((c : Thread nD τ).loc main_v4) := (gDat (gEntry m) c).arrAt 4 cfg0.N

/-- The buffers as the scatter region finds them: as the gather found them, the message array at what it left. -/
abbrev afterGather (c : Dev nD) : Valuation τ sig (Elt F) := Function.update (Gen.V8 m c) main_v4 (gLeft m c)
abbrev sEntry : (c : Dev nD) → (b : Ref sig .tc) → Buf (Elt F) ((c : Thread nD τ).loc b) := fun c b => afterGather m c b

/-- What the scatter region leaves in the padded result array: the fold of its write-backs. -/
def sLeft (c : Dev nD) : Buf (Elt F) ((c : Thread nD τ).loc main_v5) := (sDat (sEntry m) c).arrAt 2 cfg1.N

/-- What the regions leave in the buffers they may change. -/
def left : Gen.Outs (F := F) := fun _ r c =>
  if h : r = main_v4 then h ▸ gLeft m c else if h' : r = main_v5 then h' ▸ sLeft m c else Gen.V0 m c r

theorem left_v4 (J : ℕ) (c : Dev nD) : left m J main_v4 c = gLeft m c := by
  unfold left; rw [dif_pos rfl]
theorem left_v5 (J : ℕ) (c : Dev nD) : left m J main_v5 c = sLeft m c := by
  unfold left; rw [dif_neg (by decide), dif_pos rfl]

theorem afterGather_eq (c : Dev nD) : Gen.V9 m (left m) c = afterGather m c := by
  unfold Gen.V9 afterGather; rw [left_v4]

/-! ## The proof data and what rides beside the buffers -/

/-- Each pipeline's proof data at its region's entry contents. -/
def pdats : (p : Fin 2) → (c : Dev nD) → Dat τ (Elt F) Unit ℕ (UR sig nD τ) ℕ (cfgs p) c
  | ⟨0, _⟩ => fun c => gDat (gEntry m) c
  | ⟨1, _⟩ => fun c => sDat (sEntry m) c

abbrev noLevels : GSem nD τ sig → Finset Unit := fun _ => ∅
abbrev noLevel : GSem nD τ sig → Unit → ℕ := fun _ _ => 0

/-- Beside the buffers, through every item: the generator register at some state, the core owing nothing. -/
abbrev riding (c : Dev nD) : sProp 𝕄 :=
  iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The gather region's record -/

/-- At the gather's exit its arrays hold: the inputs what they held, the message array the fold of the write-backs. -/
theorem gExit_arrays (c : Dev nD) (w : Fin cfg0.W) :
    (pdats m 0 c).arrAt w cfg0.N = (fun b : Ref sig .tc => Gen.V9 m (left m) c b) (Pipeline.arrRef spec0 w) := by
  rw [afterGather_eq]
  match w with
  | ⟨0, _⟩ => exact ((pdats m 0 c).arrAt_in 0 rfl _).trans ((gDat_A (gEntry m) c 0).trans (Function.update_of_ne (StableHlo.devRef_ne_of_ne (by decide)) _ _).symm)
  | ⟨1, _⟩ => exact ((pdats m 0 c).arrAt_in 1 rfl _).trans ((gDat_A (gEntry m) c 1).trans (Function.update_of_ne (StableHlo.devRef_ne_of_ne (by decide)) _ _).symm)
  | ⟨2, _⟩ => exact ((pdats m 0 c).arrAt_in 2 rfl _).trans ((gDat_A (gEntry m) c 2).trans (Function.update_of_ne (StableHlo.devRef_ne_of_ne (by decide)) _ _).symm)
  | ⟨3, _⟩ => exact ((pdats m 0 c).arrAt_in 3 rfl _).trans ((gDat_A (gEntry m) c 3).trans (Function.update_of_ne (StableHlo.devRef_ne_of_ne (by decide)) _ _).symm)
  | ⟨4, _⟩ =>
    show gLeft m c = Function.update (Gen.V8 m c) (Proc.devRef .tc main_v4) (gLeft m c) (Proc.devRef .tc main_v4)
    exact (Function.update_self (Proc.devRef .tc main_v4 : DevRef τ sig) (gLeft m c) (Gen.V8 m c)).symm

/-- Every other buffer holds what it held. -/
theorem gExit_rest (c : Dev nD) : ∀ b : Ref sig .tc, b ∉ Finset.univ.image (Pipeline.arrRef spec0) →
    (fun b : Ref sig .tc => Gen.V9 m (left m) c b) b = gEntry m c b := fun b hb => by
  rw [afterGather_eq]
  exact Function.update_of_ne (StableHlo.devRef_ne_of_ne fun e => hb (Finset.mem_image.mpr ⟨4, Finset.mem_univ _, e.symm⟩)) _ _

set_option backward.isDefEq.respectTransparency.types false in
def gRegion : Pipeline.RegionSeg (pcfgs (F := F)) Gen.adm (pdats m) () defs₀ Variants.none noLevels noLevel 0 where
  win := launch0.win.to₀
  block_pos := launch0.block_pos
  stage_whole := launch0.stage_whole
  K := PEmpty
  osem k := k.elim
  ho := Pipeline.OwnSemFacts.none _
  hbody c := (gObligation (gEntry m) c).loose
  hwaits := Pipeline.hwaits_of_owed_zero _ _ _ _ noLevels noLevel 0 fun _ _ => rfl
  pre c := iprop(StableHlo.held (c : Thread nD τ) (Pipeline.ucRefs τ sig) (Gen.V8 m c) ∗ riding (F := F) c)
  post c := iprop(StableHlo.held (c : Thread nD τ) (Pipeline.ucRefs τ sig) (Gen.V9 m (left m) c) ∗ riding (F := F) c)
  X c := iprop(∃ r, prngReg c r)
  Y c := iprop(∃ r, prngReg c r)
  Z c := Pipeline.unscopedRest (Ix := Unit) (Name := ℕ) (U := UR sig nD τ) (Lvl := ℕ) spec0 c (gEntry m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (gEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (gOut (gEntry m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (gEntry m c) (fun b : Ref sig .tc => Gen.V9 m (left m) c b) ((pdats m 0 c).arrAt · cfg0.N) (gExit_arrays m c) (gExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The scatter region's record -/

/-- At the scatter's exit its arrays hold: the inputs what they held, the padded result the fold of the write-backs. -/
theorem sExit_arrays (c : Dev nD) (w : Fin cfg1.W) :
    (pdats m 1 c).arrAt w cfg1.N = (fun b : Ref sig .tc => Gen.V10 m (left m) c b) (Pipeline.arrRef spec1 w) := by
  unfold Gen.V10; rw [afterGather_eq, left_v5]
  match w with
  | ⟨0, _⟩ => exact ((pdats m 1 c).arrAt_in 0 rfl _).trans ((sDat_A (sEntry m) c 0).trans (Function.update_of_ne (StableHlo.devRef_ne_of_ne (by decide)) _ _).symm)
  | ⟨1, _⟩ => exact ((pdats m 1 c).arrAt_in 1 rfl _).trans ((sDat_A (sEntry m) c 1).trans (Function.update_of_ne (StableHlo.devRef_ne_of_ne (by decide)) _ _).symm)
  | ⟨2, _⟩ =>
    show sLeft m c = Function.update (afterGather m c) (Proc.devRef .tc main_v5) (sLeft m c) (Proc.devRef .tc main_v5)
    exact (Function.update_self (Proc.devRef .tc main_v5 : DevRef τ sig) (sLeft m c) (afterGather m c)).symm

/-- Every other buffer holds what it held. -/
theorem sExit_rest (c : Dev nD) : ∀ b : Ref sig .tc, b ∉ Finset.univ.image (Pipeline.arrRef spec1) →
    (fun b : Ref sig .tc => Gen.V10 m (left m) c b) b = sEntry m c b := fun b hb => by
  unfold Gen.V10; rw [afterGather_eq]
  exact Function.update_of_ne (StableHlo.devRef_ne_of_ne fun e => hb (Finset.mem_image.mpr ⟨2, Finset.mem_univ _, e.symm⟩)) _ _

set_option backward.isDefEq.respectTransparency.types false in
def sRegion : Pipeline.RegionSeg (pcfgs (F := F)) Gen.adm (pdats m) () defs₀ Variants.none noLevels noLevel 1 where
  win := launch1.win.to₀
  block_pos := launch1.block_pos
  stage_whole := launch1.stage_whole
  K := PEmpty
  osem k := k.elim
  ho := Pipeline.OwnSemFacts.none _
  hbody c := (sObligation (sEntry m) c).loose
  hwaits := Pipeline.hwaits_of_owed_zero _ _ _ _ noLevels noLevel 1 fun _ _ => rfl
  pre c := iprop(StableHlo.held (c : Thread nD τ) (Pipeline.ucRefs τ sig) (Gen.V9 m (left m) c) ∗ riding (F := F) c)
  post c := iprop(StableHlo.held (c : Thread nD τ) (Pipeline.ucRefs τ sig) (Gen.V10 m (left m) c) ∗ riding (F := F) c)
  X c := iprop(∃ r, prngReg c r)
  Y c := iprop(∃ r, prngReg c r)
  Z c := Pipeline.unscopedRest (Ix := Unit) (Name := ℕ) (U := UR sig nD τ) (Lvl := ℕ) spec1 c (sEntry m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (sEntry m c) fun _ => rfl
    rw [Pipeline.unscopedBufs_held] at hsplit
    rw [afterGather_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (sOut (sEntry m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (sEntry m c) (fun b : Ref sig .tc => Gen.V10 m (left m) c b) ((pdats m 1 c).arrAt · cfg1.N) (sExit_arrays m c) (sExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's pieces and the frame -/

/-- The launch's ghost state: the pipelines' cells and tokens, nothing else. -/
theorem launchGhost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's generator register is at a state and the core owes nothing. -/
theorem launchRiding :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noLevels noLevel)
      ⊢ (|={Set.univ}=> bigSep Finset.univ (fun c : Dev nD => riding (F := F) c) : sProp 𝕄) := by
  refine Pipeline.initEach noLevels noLevel fun c => ?_
  iintro ⟨⟨-, HO, -, Hp, -⟩, -⟩
  imodintro
  isplitl [Hp]; · iexists _; iexact Hp
  iexists ∅; iexact HO

set_option backward.isDefEq.respectTransparency.types false in
/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none noLevels noLevel (fun _ _ => rfl) ρ (left m) (pdats m)
    (0 : Dev nD → CellTallies nD τ sig Unit) (fun _ => (BI.emp : sProp 𝕄))
    (initOf (Pipeline.cells cfgs cellOf_inj) (Pipeline.launchToks cfgs cellOf_inj)) (launchGhost (F := F))
    (fun _ c => riding (F := F) c) (launchRiding ρ)
    (fun c => by iintro ⟨-, HO⟩; iexact HO)
    (gRegion m) (fun c => .rfl) (fun c => .rfl)
    (sRegion m) (fun c => .rfl) (fun c => .rfl)

end Cert.Kernel.Layer

end
-- ==== Proof.KernelIdeal.Shared.lean ====
/-
  What both kernels' point-by-point arguments share.

  The gather kernel runs on a grid of 391 edge chunks by 49 node blocks, the scatter kernel on 49 node blocks by
  391 edge chunks; in both the inner axis is the one a scratch accumulator is carried along. A point's position
  along the inner axis decides what the body does: at the first inner position it clears the accumulator, at the
  last it writes the accumulator out to the output window, and in between (and at both ends) it adds one block's
  contribution. Stated here: each window's block of its array at a point; that an input window's buffer holds that
  block whenever the body runs, refetched there or not (its block index has not moved since the fetch); the two
  positions as conditions on the point's number; that the output window is left alone and not written back except at
  the last inner position; the buffers the body is called with; and the region's resting invariant with the
  accumulator's buffer named apart from the other scratch space.
-/
import proofs.«408857_j66305705115856_1_alg».proof.Proof.Gen.KernelIdeal.Launch
import proofs.«408857_j66305705115856_1_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-! ## The gather region's windows -/

/-- Window `w`'s block at point `t`, read off its array as the gather region finds it. -/
def gblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gather's window of node rows holds its block at every point, refetched there or not. -/
theorem gfound0_of {c : Dev nD} (dat : Dat τ (Elt F) Unit ℕ (UR sig nD τ) ℕ cfg0 c)
    (hA : dat.A 0 = V c (Pipeline.arrRef spec0 0)) (hafter : ∀ t, dat.after 0 t = gblk V c 0 t)
    (t : Fin cfg0.N) (d) : dat.before 0 t d = gblk V c 0 t :=
  (dat.before_in_eq_fetched 0 rfl (fun _ => rfl) (fun _ _ _ => rfl) (fun t => by rw [hafter]; unfold Dat.blockOf gblk; rw [hA]; try rfl) t d).trans
    (by unfold Dat.fetched Dat.blockOf gblk; rw [hA]; try rfl)

/-- The gather's window of weights holds its block at every point, refetched there or not. -/
theorem gfound1_of {c : Dev nD} (dat : Dat τ (Elt F) Unit ℕ (UR sig nD τ) ℕ cfg0 c)
    (hA : dat.A 1 = V c (Pipeline.arrRef spec0 1)) (hafter : ∀ t, dat.after 1 t = gblk V c 1 t)
    (t : Fin cfg0.N) (d) : dat.before 1 t d = gblk V c 1 t :=
  (dat.before_in_eq_fetched 1 rfl (fun _ => rfl) (fun _ _ _ => rfl) (fun t => by rw [hafter]; unfold Dat.blockOf gblk; rw [hA]; try rfl) t d).trans
    (by unfold Dat.fetched Dat.blockOf gblk; rw [hA]; try rfl)

/-- The gather's window of column indices holds its block at every point, refetched there or not. -/
theorem gfound2_of {c : Dev nD} (dat : Dat τ (Elt F) Unit ℕ (UR sig nD τ) ℕ cfg0 c)
    (hA : dat.A 2 = V c (Pipeline.arrRef spec0 2)) (hafter : ∀ t, dat.after 2 t = gblk V c 2 t)
    (t : Fin cfg0.N) (d) : dat.before 2 t d = gblk V c 2 t :=
  (dat.before_in_eq_fetched 2 rfl (fun _ => rfl) (fun _ _ _ => rfl) (fun t => by rw [hafter]; unfold Dat.blockOf gblk; rw [hA]; try rfl) t d).trans
    (by unfold Dat.fetched Dat.blockOf gblk; rw [hA]; try rfl)

/-- The gather's window of edge values holds its block at every point, refetched there or not. -/
theorem gfound3_of {c : Dev nD} (dat : Dat τ (Elt F) Unit ℕ (UR sig nD τ) ℕ cfg0 c)
    (hA : dat.A 3 = V c (Pipeline.arrRef spec0 3)) (hafter : ∀ t, dat.after 3 t = gblk V c 3 t)
    (t : Fin cfg0.N) (d) : dat.before 3 t d = gblk V c 3 t :=
  (dat.before_in_eq_fetched 3 rfl (fun _ => rfl) (fun _ _ _ => rfl) (fun t => by rw [hafter]; unfold Dat.blockOf gblk; rw [hA]; try rfl) t d).trans
    (by unfold Dat.fetched Dat.blockOf gblk; rw [hA]; try rfl)

/-! ## The scatter region's windows -/

/-- Window `w`'s block at point `t`, read off its array as the scatter region finds it. -/
def sblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scatter's window of messages holds its block at every point, refetched there or not. -/
theorem sfound0_of {c : Dev nD} (dat : Dat τ (Elt F) Unit ℕ (UR sig nD τ) ℕ cfg1 c)
    (hA : dat.A 0 = V c (Pipeline.arrRef spec1 0)) (hafter : ∀ t, dat.after 0 t = sblk V c 0 t)
    (t : Fin cfg1.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- The scatter's window of row indices holds its block at every point, refetched there or not. -/
theorem sfound1_of {c : Dev nD} (dat : Dat τ (Elt F) Unit ℕ (UR sig nD τ) ℕ cfg1 c)
    (hA : dat.A 1 = V c (Pipeline.arrRef spec1 1)) (hafter : ∀ t, dat.after 1 t = sblk V c 1 t)
    (t : Fin cfg1.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

end Blocks

/-! ## Where a point stands along the inner axis

A point's coordinate on an axis is its number divided by the axis's stride, modulo the axis's bound; the inner
axis has stride 1, so the inner coordinate is the point's number modulo the inner bound, and each condition below
is a condition on that one coordinate, decided over its 49 (or 391) values. -/

theorem gInnerCoord (t : Fin cfg0.N) : ((grid0.coords t) 1).val = t.val % 49 := by
  show t.val / grid0.stride 1 % grid0.bound 1 = t.val % 49
  have h1 : grid0.stride 1 = 1 := by decide
  have h2 : grid0.bound 1 = 49 := by decide
  rw [h1, h2, Nat.div_one]

theorem sInnerCoord (t : Fin cfg1.N) : ((grid1.coords t) 1).val = t.val % 391 := by
  show t.val / grid1.stride 1 % grid1.bound 1 = t.val % 391
  have h1 : grid1.stride 1 = 1 := by decide
  have h2 : grid1.bound 1 = 391 := by decide
  rw [h1, h2, Nat.div_one]

/-- The gather body clears its accumulator: the point is at the first node block. -/
abbrev gFirst (i : grid0.Coords) : Prop := (Scalar.cmpi .ne (Scalar.extui (Scalar.cmpi .eq (BitVec.ofNat 32 (i 1).val) 0#32)) 0#32) = 1#1
/-- That is every 49th point, from point 0. -/
theorem gFirst_iff (t : Fin cfg0.N) : gFirst (grid0.coords t) ↔ t.val % 49 = 0 := by
  rw [← gInnerCoord t]
  exact (by decide : ∀ n : Fin 49, ((Scalar.cmpi .ne (Scalar.extui (Scalar.cmpi .eq (BitVec.ofNat 32 n.val) 0#32)) 0#32) = 1#1) ↔ n.val = 0) ((grid0.coords t) 1)
/-- The gather body writes its accumulator out: the point is at the last node block. -/
abbrev gLast (i : grid0.Coords) : Prop := k0_cond2 i = 1#1
/-- That is every 49th point, from point 48. -/
theorem gLast_iff (t : Fin cfg0.N) : gLast (grid0.coords t) ↔ t.val % 49 = 48 := by
  rw [← gInnerCoord t]
  exact (by decide : ∀ n : Fin 49, ((Scalar.cmpi .ne (Scalar.extui (Scalar.cmpi .eq (BitVec.ofNat 32 n.val) 48#32)) 0#32) = 1#1) ↔ n.val = 48) ((grid0.coords t) 1)

/-- The scatter body clears its accumulator: the point is at the first edge chunk. -/
abbrev sFirst (i : grid1.Coords) : Prop := (Scalar.cmpi .ne (Scalar.extui (Scalar.cmpi .eq (BitVec.ofNat 32 (i 1).val) 0#32)) 0#32) = 1#1
/-- That is every 391st point, from point 0. -/
theorem sFirst_iff (t : Fin cfg1.N) : sFirst (grid1.coords t) ↔ t.val % 391 = 0 := by
  rw [← sInnerCoord t]
  exact (by decide : ∀ n : Fin 391, ((Scalar.cmpi .ne (Scalar.extui (Scalar.cmpi .eq (BitVec.ofNat 32 n.val) 0#32)) 0#32) = 1#1) ↔ n.val = 0) ((grid1.coords t) 1)
/-- The scatter body writes its accumulator out: the point is at the last edge chunk. -/
abbrev sLast (i : grid1.Coords) : Prop := k1_cond2 i = 1#1
/-- That is every 391st point, from point 390. -/
theorem sLast_iff (t : Fin cfg1.N) : sLast (grid1.coords t) ↔ t.val % 391 = 390 := by
  rw [← sInnerCoord t]
  exact (by decide : ∀ n : Fin 391, ((Scalar.cmpi .ne (Scalar.extui (Scalar.cmpi .eq (BitVec.ofNat 32 n.val) 390#32)) 0#32) = 1#1) ↔ n.val = 390) ((grid1.coords t) 1)

/-! ## The output windows between write-outs -/

/-- Away from the last node block the gather's output window is left as found: the window is idle exactly where the
    write-out's condition fails; -/
theorem gOut_idle (t : Fin cfg0.N) (h : ¬gLast (grid0.coords t)) : cfg0.idle 4 (grid0.coords t) = true := by
  have h' : ¬(k0_cond2 (grid0.coords t) = 1#1) := h
  show (!(k0_cond2 (grid0.coords t) == 1#1)) = true
  simp [h']
/-- at the last node block the body stores into it. -/
theorem gOut_live (t : Fin cfg0.N) (h : gLast (grid0.coords t)) : cfg0.idle 4 (grid0.coords t) = false := by
  have h' : k0_cond2 (grid0.coords t) = 1#1 := h
  show (!(k0_cond2 (grid0.coords t) == 1#1)) = false
  simp [h']

/-- Away from the last edge chunk the scatter's output window is left as found; -/
theorem sOut_idle (t : Fin cfg1.N) (h : ¬sLast (grid1.coords t)) : cfg1.idle 2 (grid1.coords t) = true := by
  have h' : ¬(k1_cond2 (grid1.coords t) = 1#1) := h
  show (!(k1_cond2 (grid1.coords t) == 1#1)) = true
  simp [h']
/-- at the last edge chunk the body stores into it. -/
theorem sOut_live (t : Fin cfg1.N) (h : sLast (grid1.coords t)) : cfg1.idle 2 (grid1.coords t) = false := by
  have h' : k1_cond2 (grid1.coords t) = 1#1 := h
  show (!(k1_cond2 (grid1.coords t) == 1#1)) = false
  simp [h']

/-! ## The buffers the bodies are called with -/

abbrev gm0 (t : Fin cfg0.N) : Memref sig .tc .vmem S2048x128 .f32 := win0_0.stage (cfg0.slots t 0)
abbrev gh0 (t : Fin cfg0.N) : (gm0 t).IsWhole := hstage0_0 ((cfg0.slots t 0).cast nbuf0_0)
abbrev gm1 (t : Fin cfg0.N) : Memref sig .tc .vmem S128x128 .f32 := win0_1.stage (cfg0.slots t 1)
abbrev gh1 (t : Fin cfg0.N) : (gm1 t).IsWhole := hstage0_1 ((cfg0.slots t 1).cast nbuf0_1)
abbrev gm2 (t : Fin cfg0.N) : Memref sig .tc .vmem S4096 .i32 := win0_2.stage (cfg0.slots t 2)
abbrev gh2 (t : Fin cfg0.N) : (gm2 t).IsWhole := hstage0_2 ((cfg0.slots t 2).cast nbuf0_2)
abbrev gm3 (t : Fin cfg0.N) : Memref sig .tc .vmem S4096 .f32 := win0_3.stage (cfg0.slots t 3)
abbrev gh3 (t : Fin cfg0.N) : (gm3 t).IsWhole := hstage0_3 ((cfg0.slots t 3).cast nbuf0_3)
abbrev gm4 (t : Fin cfg0.N) : Memref sig .tc .vmem S4096x128 .f32 := win0_4.stage (cfg0.slots t 4)
abbrev gh4 (t : Fin cfg0.N) : (gm4 t).IsWhole := hstage0_4 ((cfg0.slots t 4).cast nbuf0_4)
/-- The gather's accumulator: a whole scratch buffer of the kernel's own. -/
abbrev gAcc : Memref sig .tc .vmem S4096x128 .f32 := Memref.whole cc0_scratch0
/-- One staging buffer of the gather's output window, through which its contents are stated. -/
abbrev gOutView : View sig .tc .vmem S4096x128 .f32 := (Memref.whole cc0_stg4_0 : Memref sig .tc .vmem S4096x128 .f32).view

abbrev sm0 (t : Fin cfg1.N) : Memref sig .tc .vmem S4096x128 .f32 := win1_0.stage (cfg1.slots t 0)
abbrev sh0 (t : Fin cfg1.N) : (sm0 t).IsWhole := hstage1_0 ((cfg1.slots t 0).cast nbuf1_0)
abbrev sm1 (t : Fin cfg1.N) : Memref sig .tc .vmem S4096 .i32 := win1_1.stage (cfg1.slots t 1)
abbrev sh1 (t : Fin cfg1.N) : (sm1 t).IsWhole := hstage1_1 ((cfg1.slots t 1).cast nbuf1_1)
abbrev sm2 (t : Fin cfg1.N) : Memref sig .tc .vmem S2048x128 .f32 := win1_2.stage (cfg1.slots t 2)
abbrev sh2 (t : Fin cfg1.N) : (sm2 t).IsWhole := hstage1_2 ((cfg1.slots t 2).cast nbuf1_2)
/-- The scatter's accumulator: a whole scratch buffer of the kernel's own. -/
abbrev sAcc : Memref sig .tc .vmem S2048x128 .f32 := Memref.whole cc1_scratch0
/-- One staging buffer of the scatter's output window, through which its contents are stated. -/
abbrev sOutView : View sig .tc .vmem S2048x128 .f32 := (Memref.whole cc1_stg2_0 : Memref sig .tc .vmem S2048x128 .f32).view

/-! ## Whole-buffer accesses start at the origin -/

theorem origin2 : (![0, 0] : Fin 2 → ℕ) = fun _ => 0 := by funext a; fin_cases a <;> rfl
theorem origin1 : (![0] : Fin 1 → ℕ) = fun _ => 0 := by funext a; fin_cases a; rfl

/-! ## The resting invariant with the accumulator named -/

/-- The core's scratch space other than the gather's accumulator and its windows' buffers, at some contents. -/
abbrev gOthers (c : Dev nD) : sProp 𝕄 :=
  Pipeline.scopedRestBut (Ix := Unit) (Name := ℕ) (U := UR sig nD τ) (Lvl := ℕ) (Val := Elt F) spec0 c [cc0_scratch0]
/-- The core's scratch space other than the scatter's accumulator and its windows' buffers, at some contents. -/
abbrev sOthers (c : Dev nD) : sProp 𝕄 :=
  Pipeline.scopedRestBut (Ix := Unit) (Name := ℕ) (U := UR sig nD τ) (Lvl := ℕ) (Val := Elt F) spec1 c [cc1_scratch0]

/-- The gather region's resting invariant: its accumulator at some contents, every other scratch buffer of the
    core at some contents, the generator register at some state. -/
theorem gRest_eq (c : Dev nD) :
    (Pipeline.ΦA spec0 c : sProp 𝕄)
      = iprop(iprop((∃ d, owns (c : Thread nD τ) gAcc fullShare d) ∗ gOthers (F := F) c) ∗ (∃ r, prngReg c r)) := by
  unfold Pipeline.ΦA
  rw [Pipeline.scopedRest_split_of_list spec0 c [cc0_scratch0] (by decide) (by decide)]
  simp only [bigSepL_singleton, gAcc, owns_whole]; try rfl

/-- The scatter region's resting invariant, likewise. -/
theorem sRest_eq (c : Dev nD) :
    (Pipeline.ΦA spec1 c : sProp 𝕄)
      = iprop(iprop((∃ d, owns (c : Thread nD τ) sAcc fullShare d) ∗ sOthers (F := F) c) ∗ (∃ r, prngReg c r)) := by
  unfold Pipeline.ΦA
  rw [Pipeline.scopedRest_split_of_list spec1 c [cc1_scratch0] (by decide) (by decide)]
  simp only [bigSepL_singleton, sAcc, owns_whole]; try rfl

end Cert.KernelIdeal.Layer

end
-- ==== Proof.KernelIdeal.GatherFirst.lean ====
/-
  The gather body at the first node block of an edge chunk (and not the last): it clears the accumulator, whatever
  it held, and adds the first block's contribution. The four input buffers and the output window's buffer come
  back as they were; the accumulator comes back with the pieces the body stored, which are the witness.
-/
import proofs.«408857_j66305705115856_1_alg».proof.Proof.KernelIdeal.Shared

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def gatherFirst (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole) (hF : gFirst i) (hL : ¬gLast i)
    (x0 : Vec F S2048x128 .f32) (x1 : Vec F S128x128 .f32) (x2 : Vec F S4096 .i32) (x3 : Vec F S4096 .f32) :
    { LS : List (View.Piece (Elt F) S4096x128 .f32) //
      ∀ (xi : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Layer

end
-- ==== Proof.KernelIdeal.GatherMid.lean ====
/-
  The gather body at a node block that is neither the first nor the last of its edge chunk: it adds the block's
  contribution to the accumulator as the point before left it. Everything else comes back as it was.
-/
import proofs.«408857_j66305705115856_1_alg».proof.Proof.KernelIdeal.GatherFirst

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def gatherMid (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole) (hF : ¬gFirst i) (hL : ¬gLast i)
    (x0 : Vec F S2048x128 .f32) (x1 : Vec F S128x128 .f32) (x2 : Vec F S4096 .i32) (x3 : Vec F S4096 .f32) (xs : Vec F S4096x128 .f32) :
    { LS : List (View.Piece (Elt F) S4096x128 .f32) //
      ∀ (xi : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, fun xi E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Layer

end
-- ==== Proof.KernelIdeal.GatherLast.lean ====
/-
  The gather body at the last node block of an edge chunk (and not the first): it adds the block's contribution to
  the accumulator as the point before left it, then stores the accumulator, each row scaled by its edge's value,
  into the output window's buffer. Both come back with the pieces stored into them.
-/
import proofs.«408857_j66305705115856_1_alg».proof.Proof.KernelIdeal.GatherMid

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def gatherLast (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole) (hF : ¬gFirst i) (hL : gLast i)
    (x0 : Vec F S2048x128 .f32) (x1 : Vec F S128x128 .f32) (x2 : Vec F S4096 .i32) (x3 : Vec F S4096 .f32) (xs : Vec F S4096x128 .f32) :
    Σ' (L : List (View.Piece (Elt F) S4096x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ (∃ f, arg7.view.loc (c : Thread nD τ) ↦[arg7.view.set]{fullShare} arg7.view.writes (Elt F) f LS)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Layer

end
-- ==== Proof.KernelIdeal.GatherData.lean ====
/-
  The gather region, point by point.

  Along an edge chunk's 49 node blocks the accumulator is cleared at the first block and then gains one block's
  contribution per point, so after point `n` it holds a recursion in the points' blocks alone: the step function of
  the body applied to the blocks at `n` and to the accumulator after `n - 1`, or to the cleared accumulator where
  `n` is a first block. At a last block the output window's buffer receives the accumulator scaled by the chunk's
  edge values. First: what each of the three runs leaves in a buffer it stored into is the payload of its last
  store there, a pure function of the blocks. Then the recursion, the region's invariant (before the first point
  the resting one; after point `n` the accumulator at the recursion's value), the proof data and the obligation
  that the body, run at any point from what the data say it finds, leaves what they say it leaves.
-/
import proofs.«408857_j66305705115856_1_alg».proof.Proof.KernelIdeal.GatherLast
import Idealize.ShloMosaic.Lib.Pipeline.Value

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the runs leave -/

section Pieces
variable (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S4096 .i32) (harg4 : arg4.IsWhole) (arg5 : Memref sig .tc .vmem S4096 .f32) (harg5 : arg5.IsWhole) (arg6 : Memref sig .tc .vmem S4096x128 .f32) (harg6 : arg6.IsWhole) (arg7 : Memref sig .tc .vmem S4096x128 .f32) (harg7 : arg7.IsWhole)
  (x0 : Vec F S2048x128 .f32) (x1 : Vec F S128x128 .f32) (x2 : Vec F S4096 .i32) (x3 : Vec F S4096 .f32)

/-- The first-block run's stores cover the accumulator. -/
theorem gatherFirst_cover (hF : gFirst i) (hL : ¬gLast i) (y : S4096x128.Idx) :
    ∃ pc ∈ (gatherFirst c i arg2 harg2 arg3 harg3 arg4 harg4 arg5 harg5 arg6 harg6 arg7 harg7 hF hL x0 x1 x2 x3).1, y ∈ pc.1.set :=
  View.cover_of_tiledL _ S4096x128.size (by sl_kernel_rfl) y

/-- They leave one step from the cleared accumulator. -/
theorem gatherFirst_acc (hF : gFirst i) (hL : ¬gLast i) :
    View.canon (gatherFirst c i arg2 harg2 arg3 harg3 arg4 harg4 arg5 harg5 arg6 harg6 arg7 harg7 hF hL x0 x1 x2 x3).1 = k0_pay2 i x0 x1 x2 (k0_pay1 (F := F)) := by
  unfold gatherFirst; dsimp only; sl_unfold_words
  rw [View.canon_cons_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

variable (xs : Vec F S4096x128 .f32)

/-- A middle run's stores cover the accumulator. -/
theorem gatherMid_cover (hF : ¬gFirst i) (hL : ¬gLast i) (y : S4096x128.Idx) :
    ∃ pc ∈ (gatherMid c i arg2 harg2 arg3 harg3 arg4 harg4 arg5 harg5 arg6 harg6 arg7 harg7 hF hL x0 x1 x2 x3 xs).1, y ∈ pc.1.set :=
  View.cover_of_tiledL _ S4096x128.size (by sl_kernel_rfl) y

/-- They leave one step from what the accumulator held. -/
theorem gatherMid_acc (hF : ¬gFirst i) (hL : ¬gLast i) :
    View.canon (gatherMid c i arg2 harg2 arg3 harg3 arg4 harg4 arg5 harg5 arg6 harg6 arg7 harg7 hF hL x0 x1 x2 x3 xs).1 = k0_pay2 i x0 x1 x2 xs := by
  unfold gatherMid; dsimp only; sl_unfold_words
  rw [View.canon_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

/-- The last-block run's stores cover the accumulator … -/
theorem gatherLast_cover (hF : ¬gFirst i) (hL : gLast i) (y : S4096x128.Idx) :
    ∃ pc ∈ (gatherLast c i arg2 harg2 arg3 harg3 arg4 harg4 arg5 harg5 arg6 harg6 arg7 harg7 hF hL x0 x1 x2 x3 xs).2.1, y ∈ pc.1.set :=
  View.cover_of_tiledL _ S4096x128.size (by sl_kernel_rfl) y

/-- … and the output window's buffer. -/
theorem gatherLast_outCover (hF : ¬gFirst i) (hL : gLast i) (y : S4096x128.Idx) :
    ∃ pc ∈ (gatherLast c i arg2 harg2 arg3 harg3 arg4 harg4 arg5 harg5 arg6 harg6 arg7 harg7 hF hL x0 x1 x2 x3 xs).1, y ∈ pc.1.set :=
  View.cover_of_tiledL _ S4096x128.size (by sl_kernel_rfl) y

/-- In the accumulator they leave one step from what it held, … -/
theorem gatherLast_acc (hF : ¬gFirst i) (hL : gLast i) :
    View.canon (gatherLast c i arg2 harg2 arg3 harg3 arg4 harg4 arg5 harg5 arg6 harg6 arg7 harg7 hF hL x0 x1 x2 x3 xs).2.1 = k0_pay2 i x0 x1 x2 xs := by
  unfold gatherLast; dsimp only; sl_unfold_words
  rw [View.canon_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

/-- … and in the output window's buffer that, each row scaled by its edge's value. -/
theorem gatherLast_out (hF : ¬gFirst i) (hL : gLast i) :
    View.canon (gatherLast c i arg2 harg2 arg3 harg3 arg4 harg4 arg5 harg5 arg6 harg6 arg7 harg7 hF hL x0 x1 x2 x3 xs).1 = k0_pay3 (k0_pay2 i x0 x1 x2 xs) x3 := by
  unfold gatherLast; dsimp only; sl_unfold_words
  rw [View.canon_unit_zero (S := S4096x128) origin2]
  simp only [View.readAt_eq_ld, harg2.read_unread, harg3.read_unread, harg4.read_unread, harg5.read_unread, harg7.read_unread,
    View.ld_unit_zero (S := S2048x128) origin2, View.ld_unit_zero (S := S128x128) origin2, View.ld_unit_zero (S := S4096) origin1,
    View.ld_unit_zero (S := S4096x128) origin2, View.readCov_unit_zero (S := S4096x128) _ origin2]

end Pieces

/-! ## The accumulator, point by point -/

section Data
variable (V : (c : Dev nD) → (b : Ref sig .tc) → Buf (Elt F) ((c : Thread nD τ).loc b))

/-- The node block's rows, the weights, the chunk's column indices and its edge values at a point, at their literal types. -/
abbrev gEmb (c : Dev nD) (t : Fin cfg0.N) : Vec F S2048x128 .f32 := gblk V c 0 t
abbrev gWts (c : Dev nD) (t : Fin cfg0.N) : Vec F S128x128 .f32 := gblk V c 1 t
abbrev gCols (c : Dev nD) (t : Fin cfg0.N) : Vec F S4096 .i32 := gblk V c 2 t
abbrev gVals (c : Dev nD) (t : Fin cfg0.N) : Vec F S4096 .f32 := gblk V c 3 t

/-- What the accumulator holds after point `n`. -/
def gAccAt (c : Dev nD) : (n : ℕ) → n < cfg0.N → Vec F S4096x128 .f32
  | 0, hn => k0_pay2 (grid0.coords ⟨0, hn⟩) (gEmb V c ⟨0, hn⟩) (gWts V c ⟨0, hn⟩) (gCols V c ⟨0, hn⟩) (k0_pay1 (F := F))
  | n + 1, hn => k0_pay2 (grid0.coords ⟨n + 1, hn⟩) (gEmb V c ⟨n + 1, hn⟩) (gWts V c ⟨n + 1, hn⟩) (gCols V c ⟨n + 1, hn⟩)
      (if (n + 1) % 49 = 0 then k0_pay1 (F := F) else gAccAt c n (Nat.lt_of_succ_lt hn))

/-- At a first block: one step from the cleared accumulator. -/
theorem gAccAt_first (c : Dev nD) (t : Fin cfg0.N) (h : t.val % 49 = 0) :
    gAccAt V c t.val t.isLt = k0_pay2 (grid0.coords t) (gEmb V c t) (gWts V c t) (gCols V c t) (k0_pay1 (F := F)) := by
  obtain ⟨n, hn⟩ := t
  cases n with
  | zero => rfl
  | succ n => simp only [gAccAt]; rw [if_pos h]

/-- Elsewhere: one step from what the point before left. -/
theorem gAccAt_next (c : Dev nD) (t : Fin cfg0.N) (h : ¬t.val % 49 = 0) :
    gAccAt V c t.val t.isLt = k0_pay2 (grid0.coords t) (gEmb V c t) (gWts V c t) (gCols V c t)
      (gAccAt V c (t.val - 1) (Nat.lt_of_le_of_lt (Nat.sub_le _ _) t.isLt)) := by
  obtain ⟨n, hn⟩ := t
  cases n with
  | zero => exact absurd (Nat.zero_mod _) h
  | succ n => simp only [gAccAt]; rw [if_neg h]; rfl

/-- The region's invariant before position `n`: at the start the resting one; after point `n - 1` the accumulator at
    what that point left, the other scratch space and the generator register as they come. -/
def gInv (c : Dev nD) : (n : ℕ) → n ≤ cfg0.N → sProp 𝕄
  | 0, _ => Pipeline.ΦA spec0 c
  | n + 1, hn => iprop(iprop(owns (c : Thread nD τ) gAcc fullShare (gAccAt V c n hn) ∗ gOthers (F := F) c) ∗ (∃ r, prngReg c r))

theorem gInv_zero (c : Dev nD) (n : ℕ) (h : n ≤ cfg0.N) (hz : n = 0) : gInv V c n h = Pipeline.ΦA spec0 c := by
  subst hz; rfl
theorem gInv_succ (c : Dev nD) (n : ℕ) (hn : n < cfg0.N) :
    gInv V c (n + 1) hn = iprop(iprop(owns (c : Thread nD τ) gAcc fullShare (gAccAt V c n hn) ∗ gOthers (F := F) c) ∗ (∃ r, prngReg c r)) := rfl
theorem gInv_pos (c : Dev nD) (n : ℕ) (h : n ≤ cfg0.N) (hz : n ≠ 0) :
    gInv V c n h = iprop(iprop(owns (c : Thread nD τ) gAcc fullShare (gAccAt V c (n - 1) (by omega)) ∗ gOthers (F := F) c) ∗ (∃ r, prngReg c r)) := by
  cases n with
  | zero => exact absurd rfl hz
  | succ n => rfl

/-- The gather pipeline's proof data on core `c`: the arrays as the region finds them; each input window's buffer
    at its block after every point; the output window's at the scaled accumulator; the invariant above; nothing
    owed; full shares. -/
def gDat (c : Dev nD) : Dat τ (Elt F) Unit ℕ (UR sig nD τ) ℕ cfg0 c where
  A w := V c (Pipeline.arrRef spec0 w)
  after w t := match w with
    | ⟨0, _⟩ => gblk V c 0 t
    | ⟨1, _⟩ => gblk V c 1 t
    | ⟨2, _⟩ => gblk V c 2 t
    | ⟨3, _⟩ => gblk V c 3 t
    | ⟨4, _⟩ => k0_pay3 (gAccAt V c t.val t.isLt) (gVals V c t)
  Φ t := gInv V c t.val (Nat.le_of_lt_succ t.isLt)
  q _ := fullShare
  owed _ := 0

theorem gDat_A (c : Dev nD) (w : Fin cfg0.W) : (gDat V c).A w = V c (Pipeline.arrRef spec0 w) := by
  dsimp only [gDat]
theorem gDat_inv_castSucc (c : Dev nD) (t : Fin cfg0.N) :
    (gDat V c).Φ t.castSucc = gInv V c t.val (Nat.le_of_lt t.isLt) := by
  dsimp only [gDat]; simp only [Fin.coe_castSucc]
theorem gDat_after0 (c : Dev nD) (t : Fin cfg0.N) : (gDat V c).after 0 t = gblk V c 0 t := by dsimp only [gDat]
theorem gDat_after1 (c : Dev nD) (t : Fin cfg0.N) : (gDat V c).after 1 t = gblk V c 1 t := by dsimp only [gDat]
theorem gDat_after2 (c : Dev nD) (t : Fin cfg0.N) : (gDat V c).after 2 t = gblk V c 2 t := by dsimp only [gDat]
theorem gDat_after3 (c : Dev nD) (t : Fin cfg0.N) : (gDat V c).after 3 t = gblk V c 3 t := by dsimp only [gDat]
theorem gDat_after4 (c : Dev nD) (t : Fin cfg0.N) :
    (gDat V c).after 4 t = k0_pay3 (gAccAt V c t.val t.isLt) (gVals V c t) := by dsimp only [gDat]

theorem gDat_found0 (c : Dev nD) (t : Fin cfg0.N) (d) : (gDat V c).before 0 t d = gblk V c 0 t :=
  gfound0_of V (gDat V c) (gDat_A V c 0) (gDat_after0 V c) t d
theorem gDat_found1 (c : Dev nD) (t : Fin cfg0.N) (d) : (gDat V c).before 1 t d = gblk V c 1 t :=
  gfound1_of V (gDat V c) (gDat_A V c 1) (gDat_after1 V c) t d
theorem gDat_found2 (c : Dev nD) (t : Fin cfg0.N) (d) : (gDat V c).before 2 t d = gblk V c 2 t :=
  gfound2_of V (gDat V c) (gDat_A V c 2) (gDat_after2 V c) t d
theorem gDat_found3 (c : Dev nD) (t : Fin cfg0.N) (d) : (gDat V c).before 3 t d = gblk V c 3 t :=
  gfound3_of V (gDat V c) (gDat_A V c 3) (gDat_after3 V c) t d

end Data

end Cert.KernelIdeal.Layer

end
-- ==== Proof.KernelIdeal.GatherBlocks.lean ====
/-
  The gather region's blocks, in the whole arrays' coordinates.

  Point `t` of the gather's grid is edge chunk `t / 49`, node block `t % 49` (the grid runs the node blocks
  fastest). Its block of the padded node table is the 2048 rows from `2048 (t % 49)`; its block of the weights is
  the whole matrix; its blocks of the padded column indices and edge values are the 4096 entries from
  `4096 (t / 49)`; and its block of the message array is the 4096 rows from `4096 (t / 49)`. The message blocks
  written back — one per edge chunk, after its last node block — tile the message array.
-/
import proofs.«408857_j66305705115856_1_alg».proof.Proof.KernelIdeal.Shared
import Idealize.ShloMosaic.Lib.ValueIdx
import Idealize.ShloMosaic.Lib.Pipeline.Value

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b)) (c : Dev nD)

/-- The grid's inner coordinate of point `t` is `t % 49`, its outer one `t / 49`. -/
theorem gInner (t : Fin cfg0.N) : ((grid0.coords t) 1).val = t.val % 49 := by
  show t.val / grid0.stride 1 % grid0.bound 1 = t.val % 49
  have h1 : grid0.stride 1 = 1 := by decide
  have h2 : grid0.bound 1 = 49 := by decide
  rw [h1, h2, Nat.div_one]
theorem gOuter (t : Fin cfg0.N) : ((grid0.coords t) 0).val = t.val / 49 := by
  show t.val / grid0.stride 0 % grid0.bound 0 = t.val / 49
  have h1 : grid0.stride 0 = 49 := by decide
  have h2 : grid0.bound 0 = 391 := by decide
  have hN : t.val < 19159 := lt_of_lt_of_eq t.isLt N_0
  rw [h1, h2]
  omega

/-! The printed index maps at point `t`: a grid coordinate is below `2³²`, so its word reads back as itself. -/

/-- The node table's block index: the node block, and column block 0. -/
private theorem idx0_0 (t : Fin cfg0.N) : win0_0.index t (0 : Fin 2) = t.val % 49 := by
  show (BitVec.ofNat 32 ((grid0.coords t) 1).val).toNat = t.val % 49
  rw [BitVec.toNat_ofNat, gInner]
  omega
private theorem idx0_1 (t : Fin cfg0.N) : win0_0.index t (1 : Fin 2) = 0 := rfl
/-- The weights' block index: block (0, 0). -/
private theorem idx1_0 (t : Fin cfg0.N) : win0_1.index t (0 : Fin 2) = 0 := rfl
private theorem idx1_1 (t : Fin cfg0.N) : win0_1.index t (1 : Fin 2) = 0 := rfl
/-- The column indices' block index: the edge chunk. -/
private theorem idx2_0 (t : Fin cfg0.N) : win0_2.index t (0 : Fin 1) = t.val / 49 := by
  have hN : t.val < 19159 := lt_of_lt_of_eq t.isLt N_0
  show (BitVec.ofNat 32 ((grid0.coords t) 0).val).toNat = t.val / 49
  rw [BitVec.toNat_ofNat, gOuter]
  omega
/-- The edge values' block index: the edge chunk. -/
private theorem idx3_0 (t : Fin cfg0.N) : win0_3.index t (0 : Fin 1) = t.val / 49 := by
  have hN : t.val < 19159 := lt_of_lt_of_eq t.isLt N_0
  show (BitVec.ofNat 32 ((grid0.coords t) 0).val).toNat = t.val / 49
  rw [BitVec.toNat_ofNat, gOuter]
  omega
/-- The message array's block index: the edge chunk, and column block 0. -/
private theorem idx4_0 (t : Fin cfg0.N) : win0_4.index t (0 : Fin 2) = t.val / 49 := by
  have hN : t.val < 19159 := lt_of_lt_of_eq t.isLt N_0
  show (BitVec.ofNat 32 ((grid0.coords t) 0).val).toNat = t.val / 49
  rw [BitVec.toNat_ofNat, gOuter]
  omega
private theorem idx4_1 (t : Fin cfg0.N) : win0_4.index t (1 : Fin 2) = 0 := rfl

/-- The node block's rows. -/
theorem gEmb_apply (t : Fin cfg0.N) (k : Fin 2048) (d : Fin 128) :
    (gblk V c 0 t : Vec F S2048x128 .f32) (ix2 k d)
      = (V c main_v0 : Vec F S100352x128 .f32) (ix2 (⟨2048 * (t.val % 49) + k.val, by omega⟩ : Fin 100352) d) := by
  unfold gblk
  rw [View.read_apply]
  show (V c main_v0 : Vec F S100352x128 .f32) (((cfg0.win 0).blk t).view.emb (ix2 k d)) = _
  refine congrArg (V c main_v0 : Vec F S100352x128 .f32) (funext fun a => Fin.ext ?_)
  match a with
  | ⟨0, _⟩ =>
    show win0_0.index t (0 : Fin 2) * 2048 + 1 * k.val = 2048 * (t.val % 49) + k.val
    rw [idx0_0]; omega
  | ⟨1, _⟩ =>
    show win0_0.index t (1 : Fin 2) * 128 + 1 * d.val = d.val
    rw [idx0_1]; omega

/-- The weights' block is the whole matrix. -/
theorem gWts_eq (t : Fin cfg0.N) : (gblk V c 1 t : Vec F S128x128 .f32) = (V c main_arg1 : Vec F S128x128 .f32) := by
  funext j
  unfold gblk
  rw [View.read_apply]
  show (V c main_arg1 : Vec F S128x128 .f32) (((cfg0.win 1).blk t).view.emb j) = _
  refine congrArg (V c main_arg1 : Vec F S128x128 .f32) (funext fun a => Fin.ext ?_)
  match a with
  | ⟨0, _⟩ =>
    show win0_1.index t (0 : Fin 2) * 128 + 1 * (j 0).val = (j 0).val
    rw [idx1_0]; omega
  | ⟨1, _⟩ =>
    show win0_1.index t (1 : Fin 2) * 128 + 1 * (j 1).val = (j 1).val
    rw [idx1_1]; omega

/-- The chunk's column indices. -/
theorem gCols_apply (t : Fin cfg0.N) (a : Fin 4096) :
    (gblk V c 2 t : Vec F S4096 .i32) (ix1 a)
      = (V c main_v1 : Vec F S1601536 .i32) (ix1 (⟨4096 * (t.val / 49) + a.val, by have h : t.val < 19159 := lt_of_lt_of_eq t.isLt N_0; omega⟩ : Fin 1601536)) := by
  unfold gblk
  rw [View.read_apply]
  show (V c main_v1 : Vec F S1601536 .i32) (((cfg0.win 2).blk t).view.emb (ix1 a)) = _
  refine congrArg (V c main_v1 : Vec F S1601536 .i32) (funext fun ax => Fin.ext ?_)
  match ax with
  | ⟨0, _⟩ =>
    show win0_2.index t (0 : Fin 1) * 4096 + 1 * a.val = 4096 * (t.val / 49) + a.val
    rw [idx2_0]; omega

/-- The chunk's edge values. -/
theorem gVals_apply (t : Fin cfg0.N) (a : Fin 4096) :
    (gblk V c 3 t : Vec F S4096 .f32) (ix1 a)
      = (V c main_v3 : Vec F S1601536 .f32) (ix1 (⟨4096 * (t.val / 49) + a.val, by have h : t.val < 19159 := lt_of_lt_of_eq t.isLt N_0; omega⟩ : Fin 1601536)) := by
  unfold gblk
  rw [View.read_apply]
  show (V c main_v3 : Vec F S1601536 .f32) (((cfg0.win 3).blk t).view.emb (ix1 a)) = _
  refine congrArg (V c main_v3 : Vec F S1601536 .f32) (funext fun ax => Fin.ext ?_)
  match ax with
  | ⟨0, _⟩ =>
    show win0_3.index t (0 : Fin 1) * 4096 + 1 * a.val = 4096 * (t.val / 49) + a.val
    rw [idx3_0]; omega

/-- A message array read through point `t`'s block of the output window. -/
theorem gOut_read (G : Vec F S1601536x128 .f32) (t : Fin cfg0.N) (a : Fin 4096) (b : Fin 128) :
    (((cfg0.win 4).blk t).view.read (Elt F) G : Vec F S4096x128 .f32) (ix2 a b)
      = G (ix2 (⟨4096 * (t.val / 49) + a.val, by have h : t.val < 19159 := lt_of_lt_of_eq t.isLt N_0; omega⟩ : Fin 1601536) b) := by
  rw [View.read_apply]
  show G (((cfg0.win 4).blk t).view.emb (ix2 a b)) = _
  refine congrArg G (funext fun ax => Fin.ext ?_)
  match ax with
  | ⟨0, _⟩ =>
    show win0_4.index t (0 : Fin 2) * 4096 + 1 * a.val = 4096 * (t.val / 49) + a.val
    rw [idx4_0]; omega
  | ⟨1, _⟩ =>
    show win0_4.index t (1 : Fin 2) * 128 + 1 * b.val = b.val
    rw [idx4_1]; omega

/-- The message block is written back exactly after a last node block. -/
theorem gOut_flush_iff (t : Fin cfg0.N) : (cfg0.win 4).flush t = true ↔ t.val % 49 = 48 := by
  have hN : grid0.N = 19159 := N_0
  have ht : t.val < 19159 := lt_of_lt_of_eq t.isLt N_0
  rw [Window.flush_out (cfg0.win 4) rfl t]
  constructor
  · rintro (h | ⟨h, hne⟩)
    · have h' : t.val + 1 = 19159 := h.trans hN
      omega
    · by_contra h48
      refine hne (funext fun a => ?_)
      match a with
      | ⟨0, _⟩ =>
        show win0_4.index ⟨t.val + 1, h⟩ (0 : Fin 2) = win0_4.index t (0 : Fin 2)
        rw [idx4_0, idx4_0]
        show (t.val + 1) / 49 = t.val / 49
        omega
      | ⟨1, _⟩ => rfl
  · intro h48
    by_cases hl : t.val + 1 = grid0.N
    · exact Or.inl hl
    · have hl' : ¬t.val + 1 = 19159 := fun e => hl (e.trans hN.symm)
      have h : t.val + 1 < grid0.N := lt_of_lt_of_eq (by omega) hN.symm
      refine Or.inr ⟨h, fun e => ?_⟩
      have e0 : win0_4.index ⟨t.val + 1, h⟩ (0 : Fin 2) = win0_4.index t (0 : Fin 2) := congrFun e (0 : Fin 2)
      rw [idx4_0, idx4_0] at e0
      have e1 : (t.val + 1) / 49 = t.val / 49 := e0
      omega

/-- Every entry of the message array lies in the block some point writes back: edge `E` in chunk `E / 4096`'s. -/
theorem gOut_cover (i : S1601536x128.Idx) :
    ∃ t : Fin cfg0.N, (cfg0.win 4).flush t = true ∧ i ∈ ((cfg0.win 4).blk t).view.set := by
  have hi0 : (i 0).val < 1601536 := (i 0).isLt
  have hi1 : (i 1).val < 128 := (i 1).isLt
  have hlt : 49 * ((i 0).val / 4096) + 48 < cfg0.N := lt_of_lt_of_eq (by omega) N_0.symm
  refine ⟨⟨49 * ((i 0).val / 4096) + 48, hlt⟩, (gOut_flush_iff _).mpr ?_, ?_⟩
  · show (49 * ((i 0).val / 4096) + 48) % 49 = 48
    omega
  · show i ∈ ((View.whole main_v4).slice (win0_4.rect ⟨49 * ((i 0).val / 4096) + 48, hlt⟩)).set
    rw [View.set_slice_whole, Rect.mem_set_unit]
    intro a
    match a with
    | ⟨0, _⟩ =>
      show win0_4.index ⟨49 * ((i 0).val / 4096) + 48, hlt⟩ (0 : Fin 2) * 4096 ≤ (i 0).val
        ∧ (i 0).val < win0_4.index ⟨49 * ((i 0).val / 4096) + 48, hlt⟩ (0 : Fin 2) * 4096 + 4096
      rw [idx4_0]
      show (49 * ((i 0).val / 4096) + 48) / 49 * 4096 ≤ (i 0).val
        ∧ (i 0).val < (49 * ((i 0).val / 4096) + 48) / 49 * 4096 + 4096
      omega
    | ⟨1, _⟩ =>
      show win0_4.index ⟨49 * ((i 0).val / 4096) + 48, hlt⟩ (1 : Fin 2) * 128 ≤ (i 1).val
        ∧ (i 1).val < win0_4.index ⟨49 * ((i 0).val / 4096) + 48, hlt⟩ (1 : Fin 2) * 128 + 128
      rw [idx4_1]
      omega

end

end Cert.KernelIdeal.Layer

end
-- ==== Proof.KernelIdeal.ScatterBlocks.lean ====
/-
  The scatter region's blocks, in the whole arrays' coordinates.

  Point `t` of the scatter's grid is node block `t / 391`, edge chunk `t % 391` (the grid runs the edge chunks
  fastest). Its block of the message array is the 4096 rows from `4096 (t % 391)`, its block of the padded row
  indices the 4096 entries from there, and its block of the padded result array the 2048 rows from
  `2048 (t / 391)`. The result blocks written back — one per node block, after its last edge chunk — tile the padded
  result array.
-/
import proofs.«408857_j66305705115856_1_alg».proof.Proof.KernelIdeal.Shared
import Idealize.ShloMosaic.Lib.ValueIdx
import Idealize.ShloMosaic.Lib.Pipeline.Value

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b)) (c : Dev nD)

/-- The grid's inner coordinate of point `t` is `t % 391`, its outer one `t / 391`. -/
theorem sInner (t : Fin cfg1.N) : ((grid1.coords t) 1).val = t.val % 391 := by
  exact sInnerCoord t
theorem sOuter (t : Fin cfg1.N) : ((grid1.coords t) 0).val = t.val / 391 := by
  show t.val / grid1.stride 0 % grid1.bound 0 = t.val / 391
  have h1 : grid1.stride 0 = 391 := by decide
  have h2 : grid1.bound 0 = 49 := by decide
  have hN : t.val < 19159 := lt_of_lt_of_eq t.isLt N_1
  rw [h1, h2]; omega

/-! ## The printed index maps at a point: each a grid coordinate, as a number, or zero -/

/-- A grid coordinate passes through the 32-bit word the index map computes with unchanged. -/
private theorem word_val (n : Nat) (hn : n < 19159) : (BitVec.ofNat 32 n).toNat = n := by
  rw [BitVec.toNat_ofNat]; exact Nat.mod_eq_of_lt (by omega)

/-- The message window's block index: the edge chunk, and column block 0. -/
private theorem msgs_index0 (t : Fin cfg1.N) : win1_0.index t (0 : Fin 2) = t.val % 391 := by
  show (BitVec.ofNat 32 ((grid1.coords t) 1).val).toNat = t.val % 391
  rw [sInner t]; exact word_val _ (by omega)
private theorem msgs_index1 (t : Fin cfg1.N) : win1_0.index t (1 : Fin 2) = 0 := rfl

/-- The row-index window's block index: the edge chunk. -/
private theorem rows_index0 (t : Fin cfg1.N) : win1_1.index t (0 : Fin 1) = t.val % 391 := by
  show (BitVec.ofNat 32 ((grid1.coords t) 1).val).toNat = t.val % 391
  rw [sInner t]; exact word_val _ (by omega)

/-- The output window's block index: the node block, and column block 0. -/
private theorem out_index0 (t : Fin cfg1.N) : win1_2.index t (0 : Fin 2) = t.val / 391 := by
  have hN : t.val < 19159 := lt_of_lt_of_eq t.isLt N_1
  show (BitVec.ofNat 32 ((grid1.coords t) 0).val).toNat = t.val / 391
  rw [sOuter t]; exact word_val _ (by omega)
private theorem out_index1 (t : Fin cfg1.N) : win1_2.index t (1 : Fin 2) = 0 := rfl

/-- Two points have the same output block exactly when they are in the same node block. -/
private theorem out_index_eq_iff (t u : Fin cfg1.N) : win1_2.index u = win1_2.index t ↔ u.val / 391 = t.val / 391 := by
  constructor
  · intro e
    have e0 := congrFun e (0 : Fin 2)
    rwa [out_index0, out_index0] at e0
  · intro e
    funext a
    match a with
    | ⟨0, _⟩ => show win1_2.index u (0 : Fin 2) = win1_2.index t (0 : Fin 2); rw [out_index0, out_index0, e]
    | ⟨1, _⟩ => show win1_2.index u (1 : Fin 2) = win1_2.index t (1 : Fin 2); rw [out_index1, out_index1]

/-- An entry of the padded result array is in point `t`'s output block exactly when, on each axis, its coordinate is
    in the block's range. -/
private theorem out_mem_blk (t : Fin cfg1.N) (i : S100352x128.Idx) :
    i ∈ ((cfg1.win 2).blk t).view.set
      ↔ ∀ a : Fin 2, win1_2.index t a * S2048x128.size a ≤ (i a).val ∧ (i a).val < win1_2.index t a * S2048x128.size a + S2048x128.size a := by
  show i ∈ ((View.whole main_v5).slice (win1_2.rect t)).set ↔ _
  rw [View.set_slice_whole, Rect.mem_set_unit]
  exact Iff.rfl

/-- The chunk's messages. -/
theorem sMsgs_apply (t : Fin cfg1.N) (a : Fin 4096) (b : Fin 128) :
    (sblk V c 0 t : Vec F S4096x128 .f32) (ix2 a b)
      = (V c main_v4 : Vec F S1601536x128 .f32) (ix2 (⟨4096 * (t.val % 391) + a.val, by omega⟩ : Fin 1601536) b) := by
  show V c main_v4 (((cfg1.win 0).blk t).view.emb (ix2 a b)) = V c main_v4 _
  refine congrArg (V c main_v4) ?_
  funext x
  apply Fin.ext
  match x with
  | ⟨0, _⟩ =>
    show win1_0.index t (0 : Fin 2) * 4096 + 1 * a.val = 4096 * (t.val % 391) + a.val
    rw [msgs_index0]; omega
  | ⟨1, _⟩ =>
    show win1_0.index t (1 : Fin 2) * 128 + 1 * b.val = b.val
    rw [msgs_index1]; omega

/-- The chunk's row indices. -/
theorem sRows_apply (t : Fin cfg1.N) (a : Fin 4096) :
    (sblk V c 1 t : Vec F S4096 .i32) (ix1 a)
      = (V c main_v2 : Vec F S1601536 .i32) (ix1 (⟨4096 * (t.val % 391) + a.val, by omega⟩ : Fin 1601536)) := by
  show V c main_v2 (((cfg1.win 1).blk t).view.emb (ix1 a)) = V c main_v2 _
  refine congrArg (V c main_v2) ?_
  funext x
  apply Fin.ext
  match x with
  | ⟨0, _⟩ =>
    show win1_1.index t (0 : Fin 1) * 4096 + 1 * a.val = 4096 * (t.val % 391) + a.val
    rw [rows_index0]; omega

/-- A padded result array read through point `t`'s block of the output window. -/
theorem sOut_read (G : Vec F S100352x128 .f32) (t : Fin cfg1.N) (k : Fin 2048) (b : Fin 128) :
    (((cfg1.win 2).blk t).view.read (Elt F) G : Vec F S2048x128 .f32) (ix2 k b)
      = G (ix2 (⟨2048 * (t.val / 391) + k.val, by have h : t.val < 19159 := lt_of_lt_of_eq t.isLt N_1; omega⟩ : Fin 100352) b) := by
  show G (((cfg1.win 2).blk t).view.emb (ix2 k b)) = G _
  refine congrArg G ?_
  funext x
  apply Fin.ext
  match x with
  | ⟨0, _⟩ =>
    show win1_2.index t (0 : Fin 2) * 2048 + 1 * k.val = 2048 * (t.val / 391) + k.val
    rw [out_index0]; omega
  | ⟨1, _⟩ =>
    show win1_2.index t (1 : Fin 2) * 128 + 1 * b.val = b.val
    rw [out_index1]; omega

/-- The result block is written back exactly after a last edge chunk. -/
theorem sOut_flush_iff (t : Fin cfg1.N) : (cfg1.win 2).flush t = true ↔ t.val % 391 = 390 := by
  have hN : t.val < 19159 := lt_of_lt_of_eq t.isLt N_1
  have hG : cfg1.grid.N = 19159 := N_1
  rw [Window.flush_out (cfg1.win 2) rfl t]
  constructor
  · rintro (h | ⟨h, hne⟩)
    · omega
    · have hd : (t.val + 1) / 391 ≠ t.val / 391 := fun e => hne ((out_index_eq_iff t ⟨t.val + 1, h⟩).mpr e)
      omega
  · intro h
    by_cases hl : t.val + 1 = cfg1.grid.N
    · exact Or.inl hl
    · have h' : t.val + 1 < cfg1.grid.N := by omega
      refine Or.inr ⟨h', fun e => ?_⟩
      have hd := (out_index_eq_iff t ⟨t.val + 1, h'⟩).mp e
      have hd' : (t.val + 1) / 391 = t.val / 391 := hd
      omega

/-- Every entry of the padded result array lies in the block some point writes back: row `R` in node block
    `R / 2048`'s. -/
theorem sOut_cover (i : S100352x128.Idx) :
    ∃ t : Fin cfg1.N, (cfg1.win 2).flush t = true ∧ i ∈ ((cfg1.win 2).blk t).view.set := by
  have hi0 : (i 0).val < 100352 := (i 0).isLt
  have hi1 : (i 1).val < 128 := (i 1).isLt
  -- the last edge chunk of the node block that holds row `i 0`
  have hlt : (i 0).val / 2048 * 391 + 390 < cfg1.N := by rw [show cfg1.N = 19159 from N_1]; omega
  refine ⟨⟨(i 0).val / 2048 * 391 + 390, hlt⟩, (sOut_flush_iff _).mpr (by show ((i 0).val / 2048 * 391 + 390) % 391 = 390; omega), ?_⟩
  rw [out_mem_blk]
  intro a
  match a with
  | ⟨0, _⟩ =>
    show win1_2.index _ (0 : Fin 2) * 2048 ≤ (i 0).val ∧ (i 0).val < win1_2.index _ (0 : Fin 2) * 2048 + 2048
    rw [out_index0]
    show ((i 0).val / 2048 * 391 + 390) / 391 * 2048 ≤ (i 0).val ∧ (i 0).val < ((i 0).val / 2048 * 391 + 390) / 391 * 2048 + 2048
    omega
  | ⟨1, _⟩ =>
    show win1_2.index _ (1 : Fin 2) * 128 ≤ (i 1).val ∧ (i 1).val < win1_2.index _ (1 : Fin 2) * 128 + 128
    rw [out_index1]; omega

end

end Cert.KernelIdeal.Layer

end
-- ==== Proof.KernelIdeal.WriteBack.lean ====
/-
  When the output windows' blocks go back to their arrays: the gather's after the last node block of each edge
  chunk, the scatter's after the last edge chunk of each node block, and at no other point.
-/
import proofs.«408857_j66305705115856_1_alg».proof.Proof.KernelIdeal.GatherBlocks
import proofs.«408857_j66305705115856_1_alg».proof.Proof.KernelIdeal.ScatterBlocks

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Away from the last node block the gather's output block is not written back. -/
theorem gOut_noFlush (t : Fin cfg0.N) (h : ¬gLast (grid0.coords t)) : (cfg0.win 4).flush t = false := by
  cases hf : (cfg0.win 4).flush t with
  | false => rfl
  | true => exact absurd ((gLast_iff t).mpr ((gOut_flush_iff t).mp hf)) h

/-- Away from the last edge chunk the scatter's output block is not written back. -/
theorem sOut_noFlush (t : Fin cfg1.N) (h : ¬sLast (grid1.coords t)) : (cfg1.win 2).flush t = false := by
  cases hf : (cfg1.win 2).flush t with
  | false => rfl
  | true => exact absurd ((sLast_iff t).mpr ((sOut_flush_iff t).mp hf)) h

end Cert.KernelIdeal.Layer

end
-- ==== Proof.KernelIdeal.GatherObligation.lean ====
/-
  The gather body's obligation.

  At every point the body is handed the invariant, its four input windows' buffers at their blocks, and the output
  window's buffer at whatever it holds; it must hand back the next invariant and each buffer at what the proof data
  say. By the point's place among its edge chunk's 49 node blocks: at the first, the run that clears the
  accumulator (whatever it held: nothing at all at the very first point, the previous chunk's total afterwards);
  at the last, the run that also writes the accumulator out; in between, the plain run. In each case the
  accumulator comes back at the recursion's value, because what the run's stores leave is one step from what the
  accumulator held. The output window is idle and not written back except at a last block.
-/
import proofs.«408857_j66305705115856_1_alg».proof.Proof.KernelIdeal.GatherData
import proofs.«408857_j66305705115856_1_alg».proof.Proof.KernelIdeal.WriteBack

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The gather body at point `t`, on the buffers the pipeline calls it with. -/
abbrev gBody (t : Fin cfg0.N) : Prog (TpuEff nD τ sig (Elt F) Λ₀ .tc) PUnit :=
  cc0__gather_kernel (grid0.coords t) (gm0 t) (gh0 t) (gm1 t) (gh1 t) (gm2 t) (gh2 t) (gm3 t) (gh3 t) (gm4 t) (gh4 t) gAcc (Memref.isWhole_whole _)

/-- What the body is called with at point `t`, -/
def gPre (c : Dev nD) (t : Fin cfg0.N) : sProp 𝕄 :=
  iprop((gDat V c).Φ t.castSucc ∗ (gDat V c).owesAt () t.castSucc
    ∗ (∃ d, owns (c : Thread nD τ) (gm0 t) fullShare ((gDat V c).before 0 t d))
    ∗ (∃ d, owns (c : Thread nD τ) (gm1 t) fullShare ((gDat V c).before 1 t d))
    ∗ (∃ d, owns (c : Thread nD τ) (gm2 t) fullShare ((gDat V c).before 2 t d))
    ∗ (∃ d, owns (c : Thread nD τ) (gm3 t) fullShare ((gDat V c).before 3 t d))
    ∗ (∃ d, owns (c : Thread nD τ) (gm4 t) fullShare ((gDat V c).before 4 t d)))

/-- and what it returns. -/
def gPost (c : Dev nD) (t : Fin cfg0.N) : sProp 𝕄 :=
  iprop((gDat V c).Φ t.succ ∗ (gDat V c).owesAt () t.succ
    ∗ (gDat V c).leavesExact 0 t ∗ (gDat V c).leavesExact 1 t ∗ (gDat V c).leavesExact 2 t
    ∗ (gDat V c).leavesExact 3 t ∗ (gDat V c).leavesExact 4 t)

/-- An input window's buffer is handed back at its block. -/
theorem gLeaves_in (c : Dev nD) (t : Fin cfg0.N) (w : Fin cfg0.W) (hlive : cfg0.idle w (grid0.coords t) = false) :
    (gDat V c).leavesExact w t = owns (c : Thread nD τ) ((cfg0.win w).stage (cfg0.slots t w)) fullShare ((gDat V c).after w t) := by
  unfold Dat.leavesExact; rw [hlive]

set_option maxHeartbeats 4800000 in
theorem gSound (c : Dev nD) (t : Fin cfg0.N) :
    gPre V c t ⊢ wp frame (wpE (defs₀ (F := F)) Variants.none c none) Set.univ (gBody t) (fun _ => gPost V c t) := by
  unfold gPre gPost gBody
  simp only [gDat_found0, gDat_found1, gDat_found2, gDat_found3]
  rw [show (gDat V c).owesAt () t.succ = (gDat V c).owesAt () t.castSucc from rfl]
  rw [show (gDat V c).Φ t.succ = gInv V c (t.val + 1) t.isLt from rfl, gInv_succ]
  rw [gLeaves_in V c t 0 rfl, gLeaves_in V c t 1 rfl, gLeaves_in V c t 2 rfl, gLeaves_in V c t 3 rfl,
    gDat_after0, gDat_after1, gDat_after2, gDat_after3]
  by_cases h0 : t.val % 49 = 0
  · -- a first block (and so not a last one)
    have hF : gFirst (grid0.coords t) := (gFirst_iff t).mpr h0
    have hL : ¬gLast (grid0.coords t) := fun h => by have := (gLast_iff t).mp h; omega
    rw [Dat.leavesExact_idle (gDat V c) 4 t (gOut_idle t hL) (gOut_noFlush t hL)]
    rw [gAccAt_first V c t h0]
    by_cases hz : t.val = 0
    · rw [gDat_inv_castSucc V c t, gInv_zero V c _ _ hz, gRest_eq]
      iintro ⟨⟨⟨HS, Hoth⟩, Hg⟩, Ho, ⟨%d0, H0⟩, ⟨%d1, H1⟩, ⟨%d2, H2⟩, ⟨%d3, H3⟩, ⟨%d4, H4⟩⟩
      iapply ((gatherFirst c (grid0.coords t) _ _ _ _ _ _ _ _ _ _ _ _ hF hL (gEmb V c t) (gWts V c t) (gCols V c t) (gVals V c t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro
            exact (View.read_writes_eq_canon _ _ _ (gatherFirst_cover c (grid0.coords t) _ _ _ _ _ _ _ _ _ _ _ _ _ _ _ _ hF hL)).trans
              (gatherFirst_acc c (grid0.coords t) _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      iexists _; iexact H4
    · rw [gDat_inv_castSucc V c t, gInv_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((gatherFirst c (grid0.coords t) _ _ _ _ _ _ _ _ _ _ _ _ hF hL (gEmb V c t) (gWts V c t) (gCols V c t) (gVals V c t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro
            exact (View.read_writes_eq_canon _ _ _ (gatherFirst_cover c (grid0.coords t) _ _ _ _ _ _ _ _ _ _ _ _ _ _ _ _ hF hL)).trans
              (gatherFirst_acc c (grid0.coords t) _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      iexists _; iexact H4
  · have hF : ¬gFirst (grid0.coords t) := fun h => h0 ((gFirst_iff t).mp h)
    have hz : t.val ≠ 0 := fun e => h0 (by rw [e])
    rw [gAccAt_next V c t h0]
    rw [gDat_inv_castSucc V c t, gInv_pos V c _ _ hz]
    by_cases h48 : t.val % 49 = 48
    · -- a last block
      have hL : gLast (grid0.coords t) := (gLast_iff t).mpr h48
      rw [gLeaves_in V c t 4 (gOut_live t hL), gDat_after4, gAccAt_next V c t h0]
      iintro ⟨⟨⟨HS, Hoth⟩, Hg⟩, Ho, ⟨%d0, H0⟩, ⟨%d1, H1⟩, ⟨%d2, H2⟩, ⟨%d3, H3⟩, ⟨%d4, H4⟩⟩
      iapply ((gatherLast c (grid0.coords t) _ _ _ _ _ _ _ _ _ _ _ _ hF hL (gEmb V c t) (gWts V c t) (gCols V c t) (gVals V c t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro
            exact (View.read_writes_eq_canon _ _ _ (gatherLast_cover c (grid0.coords t) _ _ _ _ _ _ _ _ _ _ _ _ _ _ _ _ _ hF hL)).trans
              (gatherLast_acc c (grid0.coords t) _ _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (gatherLast_outCover c (grid0.coords t) _ _ _ _ _ _ _ _ _ _ _ _ _ _ _ _ _ hF hL)).trans
        (gatherLast_out c (grid0.coords t) _ _ _ _ _ _ _ _ _ _ _ _ _ _ _ _ _ hF hL)
    · -- neither
      have hL : ¬gLast (grid0.coords t) := fun h => h48 ((gLast_iff t).mp h)
      rw [Dat.leavesExact_idle (gDat V c) 4 t (gOut_idle t hL) (gOut_noFlush t hL)]
      iintro ⟨⟨⟨HS, Hoth⟩, Hg⟩, Ho, ⟨%d0, H0⟩, ⟨%d1, H1⟩, ⟨%d2, H2⟩, ⟨%d3, H3⟩, ⟨%d4, H4⟩⟩
      iapply ((gatherMid c (grid0.coords t) _ _ _ _ _ _ _ _ _ _ _ _ hF hL (gEmb V c t) (gWts V c t) (gCols V c t) (gVals V c t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro
            exact (View.read_writes_eq_canon _ _ _ (gatherMid_cover c (grid0.coords t) _ _ _ _ _ _ _ _ _ _ _ _ _ _ _ _ _ hF hL)).trans
              (gatherMid_acc c (grid0.coords t) _ _ _ _ _ _ _ _ _ _ _ _ _ _ _ _ _ hF hL)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation for the gather pipeline, at every point. -/
theorem gObligation (c : Dev nD) : BodyObligation (gDat (F := F) V c) (defs₀ (F := F)) Variants.none () Set.univ := fun t => by
  rw [bigSep_W0, bigSep_W0]
  exact gSound V c t

/-- The launch's resting invariant is the invariant before the first point. -/
theorem gIn (c : Dev nD) : Pipeline.ΦA spec0 c ⊢ (gDat V c).Φ 0 := by
  rw [show (gDat V c).Φ 0 = gInv V c 0 (Nat.zero_le _) from rfl, gInv_zero V c 0 _ rfl]

/-- After the last point the invariant gives the resting one back: the accumulator's contents are forgotten. -/
theorem gOut (c : Dev nD) : (gDat V c).Φ (Fin.last cfg0.N) ⊢ Pipeline.ΦA spec0 c := by
  rw [show (gDat V c).Φ (Fin.last cfg0.N) = gInv V c (Fin.last cfg0.N).val (Nat.le_of_lt_succ (Fin.last cfg0.N).isLt) from rfl,
    gInv_pos V c _ _ (by rw [Fin.val_last]; have : cfg0.N = 19159 := N_0; omega), gRest_eq]
  iintro ⟨⟨HS, Hoth⟩, Hg⟩
  isplitl [HS Hoth]
  · isplitl [HS]
    · iexists _; iexact HS
    iexact Hoth
  iexact Hg

end

end Cert.KernelIdeal.Layer

end
-- ==== Proof.KernelIdeal.ScatterFirst.lean ====
/-
  The scatter body at the first edge chunk of a node block (and not the last): it clears the accumulator, whatever
  it held, and adds the first chunk's contribution. The two input buffers and the output window's buffer come back
  as they were; the accumulator comes back with the pieces the body stored, which are the witness.
-/
import proofs.«408857_j66305705115856_1_alg».proof.Proof.KernelIdeal.Shared

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def scatterFirst (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole) (hF : sFirst i) (hL : ¬sLast i)
    (y0 : Vec F S4096x128 .f32) (y1 : Vec F S4096 .i32) :
    { LS : List (View.Piece (Elt F) S2048x128 .f32) //
      ∀ (yi : Vec F S2048x128 .f32) (E : Set ℕ) (K : PUnit → sProp 𝕄),
        iprop(owns (c : Thread nD τ) arg2 fullShare y0 ∗ owns (c : Thread nD τ) arg3 fullShare y1 ∗ owns (c : Thread nD τ) arg4 fullShare yi ∗ (∃ d, owns (c : Thread nD τ) arg5 fullShare d)
            ∗ (iprop(owns (c : Thread nD τ) arg2 fullShare y0 ∗ owns (c : Thread nD τ) arg3 fullShare y1 ∗ owns (c : Thread nD τ) arg4 fullShare yi ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun yi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Layer

end
-- ==== Proof.KernelIdeal.ScatterMid.lean ====
/-
  The scatter body at an edge chunk that is neither the first nor the last of its node block: it adds the chunk's
  contribution to the accumulator as the point before left it. Everything else comes back as it was.
-/
import proofs.«408857_j66305705115856_1_alg».proof.Proof.KernelIdeal.ScatterFirst

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def scatterMid (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole) (hF : ¬sFirst i) (hL : ¬sLast i)
    (y0 : Vec F S4096x128 .f32) (y1 : Vec F S4096 .i32) (ys : Vec F S2048x128 .f32) :
    { LS : List (View.Piece (Elt F) S2048x128 .f32) //
      ∀ (yi : Vec F S2048x128 .f32) (E : Set ℕ) (K : PUnit → sProp 𝕄),
        iprop(owns (c : Thread nD τ) arg2 fullShare y0 ∗ owns (c : Thread nD τ) arg3 fullShare y1 ∗ owns (c : Thread nD τ) arg4 fullShare yi ∗ owns (c : Thread nD τ) arg5 fullShare ys
            ∗ (iprop(owns (c : Thread nD τ) arg2 fullShare y0 ∗ owns (c : Thread nD τ) arg3 fullShare y1 ∗ owns (c : Thread nD τ) arg4 fullShare yi ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, fun yi E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Layer

end
-- ==== Proof.KernelIdeal.ScatterLast.lean ====
/-
  The scatter body at the last edge chunk of a node block (and not the first): it adds the chunk's contribution to
  the accumulator as the point before left it, then stores the leaky rectifier of the accumulator into the output
  window's buffer. Both come back with the pieces stored into them.
-/
import proofs.«408857_j66305705115856_1_alg».proof.Proof.KernelIdeal.ScatterMid

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def scatterLast (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole) (hF : ¬sFirst i) (hL : sLast i)
    (y0 : Vec F S4096x128 .f32) (y1 : Vec F S4096 .i32) (ys : Vec F S2048x128 .f32) :
    Σ' (L : List (View.Piece (Elt F) S2048x128 .f32)), { LS : List (View.Piece (Elt F) S2048x128 .f32) //
      ∀ (E : Set ℕ) (K : PUnit → sProp 𝕄),
        iprop(owns (c : Thread nD τ) arg2 fullShare y0 ∗ owns (c : Thread nD τ) arg3 fullShare y1 ∗ (∃ d, owns (c : Thread nD τ) arg4 fullShare d) ∗ owns (c : Thread nD τ) arg5 fullShare ys
            ∗ (iprop(owns (c : Thread nD τ) arg2 fullShare y0 ∗ owns (c : Thread nD τ) arg3 fullShare y1 ∗ (∃ f, arg4.view.loc (c : Thread nD τ) ↦[arg4.view.set]{fullShare} arg4.view.writes (Elt F) f L) ∗ (∃ f, arg5.view.loc (c : Thread nD τ) ↦[arg5.view.set]{fullShare} arg5.view.writes (Elt F) f LS)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Layer

end
-- ==== Proof.KernelIdeal.ScatterData.lean ====
/-
  The scatter region, point by point.

  Along a node block's 391 edge chunks the accumulator is cleared at the first chunk and then gains one chunk's
  contribution per point, so after point `n` it holds a recursion in the points' blocks alone: the step function of
  the body applied to the chunk's row indices and messages at `n` and to the accumulator after `n - 1`, or to the
  cleared accumulator where `n` is a first chunk. At a last chunk the output window's buffer receives the leaky
  rectifier of the accumulator. First: what each of the three runs leaves in a buffer it stored into is the payload
  of its last store there. Then the recursion, the region's invariant, the proof data and the body's obligation.
-/
import proofs.«408857_j66305705115856_1_alg».proof.Proof.KernelIdeal.ScatterLast
import Idealize.ShloMosaic.Lib.Pipeline.Value

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the runs leave -/

section Pieces
variable (c : Dev nD) (i : grid1.Coords) (arg2 : Memref sig .tc .vmem S4096x128 .f32) (harg2 : arg2.IsWhole) (arg3 : Memref sig .tc .vmem S4096 .i32) (harg3 : arg3.IsWhole) (arg4 : Memref sig .tc .vmem S2048x128 .f32) (harg4 : arg4.IsWhole) (arg5 : Memref sig .tc .vmem S2048x128 .f32) (harg5 : arg5.IsWhole)
  (y0 : Vec F S4096x128 .f32) (y1 : Vec F S4096 .i32)

/-- The first-chunk run's stores cover the accumulator. -/
theorem scatterFirst_cover (hF : sFirst i) (hL : ¬sLast i) (y : S2048x128.Idx) :
    ∃ pc ∈ (scatterFirst c i arg2 harg2 arg3 harg3 arg4 harg4 arg5 harg5 hF hL y0 y1).1, y ∈ pc.1.set :=
  View.cover_of_tiledL _ S2048x128.size (by sl_kernel_rfl) y

/-- They leave one step from the cleared accumulator. -/
theorem scatterFirst_acc (hF : sFirst i) (hL : ¬sLast i) :
    View.canon (scatterFirst c i arg2 harg2 arg3 harg3 arg4 harg4 arg5 harg5 hF hL y0 y1).1 = k1_pay2 i y1 y0 (k1_pay1 (F := F)) := by
  unfold scatterFirst; dsimp only; sl_unfold_words
  rw [View.canon_cons_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

variable (ys : Vec F S2048x128 .f32)

/-- A middle run's stores cover the accumulator. -/
theorem scatterMid_cover (hF : ¬sFirst i) (hL : ¬sLast i) (y : S2048x128.Idx) :
    ∃ pc ∈ (scatterMid c i arg2 harg2 arg3 harg3 arg4 harg4 arg5 harg5 hF hL y0 y1 ys).1, y ∈ pc.1.set :=
  View.cover_of_tiledL _ S2048x128.size (by sl_kernel_rfl) y

/-- They leave one step from what the accumulator held. -/
theorem scatterMid_acc (hF : ¬sFirst i) (hL : ¬sLast i) :
    View.canon (scatterMid c i arg2 harg2 arg3 harg3 arg4 harg4 arg5 harg5 hF hL y0 y1 ys).1 = k1_pay2 i y1 y0 ys := by
  unfold scatterMid; dsimp only; sl_unfold_words
  rw [View.canon_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

/-- The last-chunk run's stores cover the accumulator … -/
theorem scatterLast_cover (hF : ¬sFirst i) (hL : sLast i) (y : S2048x128.Idx) :
    ∃ pc ∈ (scatterLast c i arg2 harg2 arg3 harg3 arg4 harg4 arg5 harg5 hF hL y0 y1 ys).2.1, y ∈ pc.1.set :=
  View.cover_of_tiledL _ S2048x128.size (by sl_kernel_rfl) y

/-- … and the output window's buffer. -/
theorem scatterLast_outCover (hF : ¬sFirst i) (hL : sLast i) (y : S2048x128.Idx) :
    ∃ pc ∈ (scatterLast c i arg2 harg2 arg3 harg3 arg4 harg4 arg5 harg5 hF hL y0 y1 ys).1, y ∈ pc.1.set :=
  View.cover_of_tiledL _ S2048x128.size (by sl_kernel_rfl) y

/-- In the accumulator they leave one step from what it held, … -/
theorem scatterLast_acc (hF : ¬sFirst i) (hL : sLast i) :
    View.canon (scatterLast c i arg2 harg2 arg3 harg3 arg4 harg4 arg5 harg5 hF hL y0 y1 ys).2.1 = k1_pay2 i y1 y0 ys := by
  unfold scatterLast; dsimp only; sl_unfold_words
  rw [View.canon_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

/-- … and in the output window's buffer the leaky rectifier of that. -/
theorem scatterLast_out (hF : ¬sFirst i) (hL : sLast i) :
    View.canon (scatterLast c i arg2 harg2 arg3 harg3 arg4 harg4 arg5 harg5 hF hL y0 y1 ys).1 = k1_pay3 (k1_pay2 i y1 y0 ys) := by
  unfold scatterLast; dsimp only; sl_unfold_words
  rw [View.canon_unit_zero (S := S2048x128) origin2]
  simp only [View.readAt_eq_ld, harg2.read_unread, harg3.read_unread, harg5.read_unread,
    View.ld_unit_zero (S := S4096x128) origin2, View.ld_unit_zero (S := S4096) origin1, View.ld_unit_zero (S := S2048x128) origin2,
    View.readCov_unit_zero (S := S2048x128) _ origin2]

end Pieces

/-! ## The accumulator, point by point -/

section Data
variable (V : (c : Dev nD) → (b : Ref sig .tc) → Buf (Elt F) ((c : Thread nD τ).loc b))

/-- The chunk's messages and row indices at a point, at their literal types. -/
abbrev sMsgs (c : Dev nD) (t : Fin cfg1.N) : Vec F S4096x128 .f32 := sblk V c 0 t
abbrev sRows (c : Dev nD) (t : Fin cfg1.N) : Vec F S4096 .i32 := sblk V c 1 t

/-- What the accumulator holds after point `n`. -/
def sAccAt (c : Dev nD) : (n : ℕ) → n < cfg1.N → Vec F S2048x128 .f32
  | 0, hn => k1_pay2 (grid1.coords ⟨0, hn⟩) (sRows V c ⟨0, hn⟩) (sMsgs V c ⟨0, hn⟩) (k1_pay1 (F := F))
  | n + 1, hn => k1_pay2 (grid1.coords ⟨n + 1, hn⟩) (sRows V c ⟨n + 1, hn⟩) (sMsgs V c ⟨n + 1, hn⟩)
      (if (n + 1) % 391 = 0 then k1_pay1 (F := F) else sAccAt c n (Nat.lt_of_succ_lt hn))

/-- At a first chunk: one step from the cleared accumulator. -/
theorem sAccAt_first (c : Dev nD) (t : Fin cfg1.N) (h : t.val % 391 = 0) :
    sAccAt V c t.val t.isLt = k1_pay2 (grid1.coords t) (sRows V c t) (sMsgs V c t) (k1_pay1 (F := F)) := by
  obtain ⟨n, hn⟩ := t
  cases n with
  | zero => rfl
  | succ n => simp only [sAccAt]; rw [if_pos h]

/-- Elsewhere: one step from what the point before left. -/
theorem sAccAt_next (c : Dev nD) (t : Fin cfg1.N) (h : ¬t.val % 391 = 0) :
    sAccAt V c t.val t.isLt = k1_pay2 (grid1.coords t) (sRows V c t) (sMsgs V c t)
      (sAccAt V c (t.val - 1) (Nat.lt_of_le_of_lt (Nat.sub_le _ _) t.isLt)) := by
  obtain ⟨n, hn⟩ := t
  cases n with
  | zero => exact absurd (Nat.zero_mod _) h
  | succ n => simp only [sAccAt]; rw [if_neg h]; rfl

/-- The region's invariant before position `n`: at the start the resting one; after point `n - 1` the accumulator at
    what that point left, the other scratch space and the generator register as they come. -/
def sInv (c : Dev nD) : (n : ℕ) → n ≤ cfg1.N → sProp 𝕄
  | 0, _ => Pipeline.ΦA spec1 c
  | n + 1, hn => iprop(iprop(owns (c : Thread nD τ) sAcc fullShare (sAccAt V c n hn) ∗ sOthers (F := F) c) ∗ (∃ r, prngReg c r))

theorem sInv_zero (c : Dev nD) (n : ℕ) (h : n ≤ cfg1.N) (hz : n = 0) : sInv V c n h = Pipeline.ΦA spec1 c := by
  subst hz; rfl
theorem sInv_succ (c : Dev nD) (n : ℕ) (hn : n < cfg1.N) :
    sInv V c (n + 1) hn = iprop(iprop(owns (c : Thread nD τ) sAcc fullShare (sAccAt V c n hn) ∗ sOthers (F := F) c) ∗ (∃ r, prngReg c r)) := rfl
theorem sInv_pos (c : Dev nD) (n : ℕ) (h : n ≤ cfg1.N) (hz : n ≠ 0) :
    sInv V c n h = iprop(iprop(owns (c : Thread nD τ) sAcc fullShare (sAccAt V c (n - 1) (by omega)) ∗ sOthers (F := F) c) ∗ (∃ r, prngReg c r)) := by
  cases n with
  | zero => exact absurd rfl hz
  | succ n => rfl

/-- The scatter pipeline's proof data on core `c`: the arrays as the region finds them; each input window's buffer
    at its block after every point; the output window's at the rectified accumulator; the invariant above; nothing
    owed; full shares. -/
def sDat (c : Dev nD) : Dat τ (Elt F) Unit ℕ (UR sig nD τ) ℕ cfg1 c where
  A w := V c (Pipeline.arrRef spec1 w)
  after w t := match w with
    | ⟨0, _⟩ => sblk V c 0 t
    | ⟨1, _⟩ => sblk V c 1 t
    | ⟨2, _⟩ => k1_pay3 (sAccAt V c t.val t.isLt)
  Φ t := sInv V c t.val (Nat.le_of_lt_succ t.isLt)
  q _ := fullShare
  owed _ := 0

theorem sDat_A (c : Dev nD) (w : Fin cfg1.W) : (sDat V c).A w = V c (Pipeline.arrRef spec1 w) := by
  dsimp only [sDat]
theorem sDat_inv_castSucc (c : Dev nD) (t : Fin cfg1.N) :
    (sDat V c).Φ t.castSucc = sInv V c t.val (Nat.le_of_lt t.isLt) := by
  dsimp only [sDat]; simp only [Fin.coe_castSucc]
theorem sDat_after0 (c : Dev nD) (t : Fin cfg1.N) : (sDat V c).after 0 t = sblk V c 0 t := by dsimp only [sDat]
theorem sDat_after1 (c : Dev nD) (t : Fin cfg1.N) : (sDat V c).after 1 t = sblk V c 1 t := by dsimp only [sDat]
theorem sDat_after2 (c : Dev nD) (t : Fin cfg1.N) :
    (sDat V c).after 2 t = k1_pay3 (sAccAt V c t.val t.isLt) := by dsimp only [sDat]

theorem sDat_found0 (c : Dev nD) (t : Fin cfg1.N) (d) : (sDat V c).before 0 t d = sblk V c 0 t :=
  sfound0_of V (sDat V c) (sDat_A V c 0) (sDat_after0 V c) t d
theorem sDat_found1 (c : Dev nD) (t : Fin cfg1.N) (d) : (sDat V c).before 1 t d = sblk V c 1 t :=
  sfound1_of V (sDat V c) (sDat_A V c 1) (sDat_after1 V c) t d

end Data

end Cert.KernelIdeal.Layer

end
-- ==== Proof.KernelIdeal.ScatterObligation.lean ====
/-
  The scatter body's obligation.

  At every point the body is handed the invariant, its two input windows' buffers at their blocks, and the output
  window's buffer at whatever it holds; it must hand back the next invariant and each buffer at what the proof data
  say. By the point's place among its node block's 391 edge chunks: at the first, the run that clears the
  accumulator (whatever it held); at the last, the run that also writes the rectified accumulator out; in
  between, the plain run. In each case the accumulator comes back at the recursion's value. The output window is
  idle and not written back except at a last chunk.
-/
import proofs.«408857_j66305705115856_1_alg».proof.Proof.KernelIdeal.ScatterData
import proofs.«408857_j66305705115856_1_alg».proof.Proof.KernelIdeal.WriteBack

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The scatter body at point `t`, on the buffers the pipeline calls it with. -/
abbrev sBody (t : Fin cfg1.N) : Prog (TpuEff nD τ sig (Elt F) Λ₀ .tc) PUnit :=
  cc1__scatter_kernel (grid1.coords t) (sm0 t) (sh0 t) (sm1 t) (sh1 t) (sm2 t) (sh2 t) sAcc (Memref.isWhole_whole _)

/-- What the body is called with at point `t`, -/
def sPre (c : Dev nD) (t : Fin cfg1.N) : sProp 𝕄 :=
  iprop((sDat V c).Φ t.castSucc ∗ (sDat V c).owesAt () t.castSucc
    ∗ (∃ d, owns (c : Thread nD τ) (sm0 t) fullShare ((sDat V c).before 0 t d))
    ∗ (∃ d, owns (c : Thread nD τ) (sm1 t) fullShare ((sDat V c).before 1 t d))
    ∗ (∃ d, owns (c : Thread nD τ) (sm2 t) fullShare ((sDat V c).before 2 t d)))

/-- and what it returns. -/
def sPost (c : Dev nD) (t : Fin cfg1.N) : sProp 𝕄 :=
  iprop((sDat V c).Φ t.succ ∗ (sDat V c).owesAt () t.succ
    ∗ (sDat V c).leavesExact 0 t ∗ (sDat V c).leavesExact 1 t ∗ (sDat V c).leavesExact 2 t)

/-- A window the body stores into or only reads at the point is handed back at what the data say. -/
theorem sLeaves_in (c : Dev nD) (t : Fin cfg1.N) (w : Fin cfg1.W) (hlive : cfg1.idle w (grid1.coords t) = false) :
    (sDat V c).leavesExact w t = owns (c : Thread nD τ) ((cfg1.win w).stage (cfg1.slots t w)) fullShare ((sDat V c).after w t) := by
  unfold Dat.leavesExact; rw [hlive]

set_option maxHeartbeats 4800000 in
theorem sSound (c : Dev nD) (t : Fin cfg1.N) :
    sPre V c t ⊢ wp frame (wpE (defs₀ (F := F)) Variants.none c none) Set.univ (sBody t) (fun _ => sPost V c t) := by
  unfold sPre sPost sBody
  simp only [sDat_found0, sDat_found1]
  rw [show (sDat V c).owesAt () t.succ = (sDat V c).owesAt () t.castSucc from rfl]
  rw [show (sDat V c).Φ t.succ = sInv V c (t.val + 1) t.isLt from rfl, sInv_succ]
  rw [sLeaves_in V c t 0 rfl, sLeaves_in V c t 1 rfl, sDat_after0, sDat_after1]
  by_cases h0 : t.val % 391 = 0
  · -- a first chunk (and so not a last one)
    have hF : sFirst (grid1.coords t) := (sFirst_iff t).mpr h0
    have hL : ¬sLast (grid1.coords t) := fun h => by have := (sLast_iff t).mp h; omega
    rw [Dat.leavesExact_idle (sDat V c) 2 t (sOut_idle t hL) (sOut_noFlush t hL)]
    rw [sAccAt_first V c t h0]
    by_cases hz : t.val = 0
    · rw [sDat_inv_castSucc V c t, sInv_zero V c _ _ hz, sRest_eq]
      iintro ⟨⟨⟨HS, Hoth⟩, Hg⟩, Ho, ⟨%d0, H0⟩, ⟨%d1, H1⟩, ⟨%d2, H2⟩⟩
      iapply ((scatterFirst c (grid1.coords t) _ _ _ _ _ _ _ _ hF hL (sMsgs V c t) (sRows V c t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro
            exact (View.read_writes_eq_canon _ _ _ (scatterFirst_cover c (grid1.coords t) _ _ _ _ _ _ _ _ _ _ hF hL)).trans
              (scatterFirst_acc c (grid1.coords t) _ _ _ _ _ _ _ _ _ _ hF hL)
          iexact Hoth
        iexact Hg
      isplitl [Ho]; · iexact Ho
      isplitl [H0]; · iexact H0
      isplitl [H1]; · iexact H1
      iexists _; iexact H2
    · rw [sDat_inv_castSucc V c t, sInv_pos V c _ _ hz]
      iintro ⟨⟨⟨HS, Hoth⟩, Hg⟩, Ho, ⟨%d0, H0⟩, ⟨%d1, H1⟩, ⟨%d2, H2⟩⟩
      iapply ((scatterFirst c (grid1.coords t) _ _ _ _ _ _ _ _ hF hL (sMsgs V c t) (sRows V c t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro
            exact (View.read_writes_eq_canon _ _ _ (scatterFirst_cover c (grid1.coords t) _ _ _ _ _ _ _ _ _ _ hF hL)).trans
              (scatterFirst_acc c (grid1.coords t) _ _ _ _ _ _ _ _ _ _ hF hL)
          iexact Hoth
        iexact Hg
      isplitl [Ho]; · iexact Ho
      isplitl [H0]; · iexact H0
      isplitl [H1]; · iexact H1
      iexists _; iexact H2
  · have hF : ¬sFirst (grid1.coords t) := fun h => h0 ((sFirst_iff t).mp h)
    have hz : t.val ≠ 0 := fun e => h0 (by rw [e])
    rw [sAccAt_next V c t h0]
    rw [sDat_inv_castSucc V c t, sInv_pos V c _ _ hz]
    by_cases h390 : t.val % 391 = 390
    · -- a last chunk
      have hL : sLast (grid1.coords t) := (sLast_iff t).mpr h390
      rw [sLeaves_in V c t 2 (sOut_live t hL), sDat_after2, sAccAt_next V c t h0]
      iintro ⟨⟨⟨HS, Hoth⟩, Hg⟩, Ho, ⟨%d0, H0⟩, ⟨%d1, H1⟩, ⟨%d2, H2⟩⟩
      iapply ((scatterLast c (grid1.coords t) _ _ _ _ _ _ _ _ hF hL (sMsgs V c t) (sRows V c t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro
            exact (View.read_writes_eq_canon _ _ _ (scatterLast_cover c (grid1.coords t) _ _ _ _ _ _ _ _ _ _ _ hF hL)).trans
              (scatterLast_acc c (grid1.coords t) _ _ _ _ _ _ _ _ _ _ _ hF hL)
          iexact Hoth
        iexact Hg
      isplitl [Ho]; · iexact Ho
      isplitl [H0]; · iexact H0
      isplitl [H1]; · iexact H1
      unfold owns; iexists _; isplitr
      swap; · iexact H2
      ipureintro
      exact (View.read_writes_eq_canon _ _ _ (scatterLast_outCover c (grid1.coords t) _ _ _ _ _ _ _ _ _ _ _ hF hL)).trans
        (scatterLast_out c (grid1.coords t) _ _ _ _ _ _ _ _ _ _ _ hF hL)
    · -- neither
      have hL : ¬sLast (grid1.coords t) := fun h => h390 ((sLast_iff t).mp h)
      rw [Dat.leavesExact_idle (sDat V c) 2 t (sOut_idle t hL) (sOut_noFlush t hL)]
      iintro ⟨⟨⟨HS, Hoth⟩, Hg⟩, Ho, ⟨%d0, H0⟩, ⟨%d1, H1⟩, ⟨%d2, H2⟩⟩
      iapply ((scatterMid c (grid1.coords t) _ _ _ _ _ _ _ _ hF hL (sMsgs V c t) (sRows V c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro
            exact (View.read_writes_eq_canon _ _ _ (scatterMid_cover c (grid1.coords t) _ _ _ _ _ _ _ _ _ _ _ hF hL)).trans
              (scatterMid_acc c (grid1.coords t) _ _ _ _ _ _ _ _ _ _ _ hF hL)
          iexact Hoth
        iexact Hg
      isplitl [Ho]; · iexact Ho
      isplitl [H0]; · iexact H0
      isplitl [H1]; · iexact H1
      iexists _; iexact H2

/-- The library's body obligation for the scatter pipeline, at every point. -/
theorem sObligation (c : Dev nD) : BodyObligation (sDat (F := F) V c) (defs₀ (F := F)) Variants.none () Set.univ := fun t => by
  rw [bigSep_W1, bigSep_W1]
  exact sSound V c t

/-- The launch's resting invariant is the invariant before the first point. -/
theorem sIn (c : Dev nD) : Pipeline.ΦA spec1 c ⊢ (sDat V c).Φ 0 := by
  rw [show (sDat V c).Φ 0 = sInv V c 0 (Nat.zero_le _) from rfl, sInv_zero V c 0 _ rfl]

/-- After the last point the invariant gives the resting one back: the accumulator's contents are forgotten. -/
theorem sOut (c : Dev nD) : (sDat V c).Φ (Fin.last cfg1.N) ⊢ Pipeline.ΦA spec1 c := by
  rw [show (sDat V c).Φ (Fin.last cfg1.N) = sInv V c (Fin.last cfg1.N).val (Nat.le_of_lt_succ (Fin.last cfg1.N).isLt) from rfl,
    sInv_pos V c _ _ (by rw [Fin.val_last]; have : cfg1.N = 19159 := N_1; omega), sRest_eq]
  iintro ⟨⟨HS, Hoth⟩, Hg⟩
  isplitl [HS Hoth]
  · isplitl [HS]
    · iexists _; iexact HS
    iexact Hoth
  iexact Hg

end

end Cert.KernelIdeal.Layer

end
-- ==== Proof.KernelIdeal.Frame.lean ====
/-
  The frame: the program runs to its end, faults nowhere, and leaves its five argument arrays as launched.

  The host side — the pads before the two regions, the slice after them, the chaining of the thread states — is the
  generated conditional frame; what it asks for is, per region, a record that the region can be entered from the
  buffers' contents before it and left at their contents after it. Between the regions every unscoped buffer is
  held at its contents, beside the generator register at some state and the core owing nothing. The gather region
  is entered with the message array at whatever it holds and leaves it at the fold of its 391 write-backs; the
  scatter region reads that array and leaves the padded result array at the fold of its 49 write-backs; each
  region's arrays are split out of the unscoped buffers at entry and put back at exit, its scratch space and the
  generator register pass into its invariant and out again, and no argument array is an output of either.
-/
import proofs.«408857_j66305705115856_1_alg».proof.Proof.KernelIdeal.GatherObligation
import proofs.«408857_j66305705115856_1_alg».proof.Proof.KernelIdeal.ScatterObligation
import proofs.«408857_j66305705115856_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- The buffers as the gather region finds them: the launch contents after the four pads. -/
abbrev gEntry : (c : Dev nD) → (b : Ref sig .tc) → Buf (Elt F) ((c : Thread nD τ).loc b) := fun c b => Gen.V8 m c b

/-- What the gather region leaves in the message array: the fold of its write-backs. -/
def gLeft (c : Dev nD) : Buf (Elt F) ((c : Thread nD τ).loc main_v4) := (gDat (gEntry m) c).arrAt 4 cfg0.N

/-- The buffers as the scatter region finds them: as the gather found them, the message array at what it left. -/
abbrev afterGather (c : Dev nD) : Valuation τ sig (Elt F) := Function.update (Gen.V8 m c) main_v4 (gLeft m c)
abbrev sEntry : (c : Dev nD) → (b : Ref sig .tc) → Buf (Elt F) ((c : Thread nD τ).loc b) := fun c b => afterGather m c b

/-- What the scatter region leaves in the padded result array: the fold of its write-backs. -/
def sLeft (c : Dev nD) : Buf (Elt F) ((c : Thread nD τ).loc main_v5) := (sDat (sEntry m) c).arrAt 2 cfg1.N

/-- What the regions leave in the buffers they may change. -/
def left : Gen.Outs (F := F) := fun _ r c =>
  if h : r = main_v4 then h ▸ gLeft m c else if h' : r = main_v5 then h' ▸ sLeft m c else Gen.V0 m c r

theorem left_v4 (J : ℕ) (c : Dev nD) : left m J main_v4 c = gLeft m c := by
  unfold left; rw [dif_pos rfl]
theorem left_v5 (J : ℕ) (c : Dev nD) : left m J main_v5 c = sLeft m c := by
  unfold left; rw [dif_neg (by decide), dif_pos rfl]

theorem afterGather_eq (c : Dev nD) : Gen.V9 m (left m) c = afterGather m c := by
  unfold Gen.V9 afterGather; rw [left_v4]

/-! ## The proof data and what rides beside the buffers -/

/-- Each pipeline's proof data at its region's entry contents. -/
def pdats : (p : Fin 2) → (c : Dev nD) → Dat τ (Elt F) Unit ℕ (UR sig nD τ) ℕ (cfgs p) c
  | ⟨0, _⟩ => fun c => gDat (gEntry m) c
  | ⟨1, _⟩ => fun c => sDat (sEntry m) c

abbrev noLevels : GSem nD τ sig → Finset Unit := fun _ => ∅
abbrev noLevel : GSem nD τ sig → Unit → ℕ := fun _ _ => 0

/-- Beside the buffers, through every item: the generator register at some state, the core owing nothing. -/
abbrev riding (c : Dev nD) : sProp 𝕄 :=
  iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The gather region's record -/

/-- At the gather's exit its arrays hold: the inputs what they held, the message array the fold of the write-backs. -/
theorem gExit_arrays (c : Dev nD) (w : Fin cfg0.W) :
    (pdats m 0 c).arrAt w cfg0.N = (fun b : Ref sig .tc => Gen.V9 m (left m) c b) (Pipeline.arrRef spec0 w) := by
  rw [afterGather_eq]
  match w with
  | ⟨0, _⟩ => exact ((pdats m 0 c).arrAt_in 0 rfl _).trans ((gDat_A (gEntry m) c 0).trans (Function.update_of_ne (StableHlo.devRef_ne_of_ne (by decide)) _ _).symm)
  | ⟨1, _⟩ => exact ((pdats m 0 c).arrAt_in 1 rfl _).trans ((gDat_A (gEntry m) c 1).trans (Function.update_of_ne (StableHlo.devRef_ne_of_ne (by decide)) _ _).symm)
  | ⟨2, _⟩ => exact ((pdats m 0 c).arrAt_in 2 rfl _).trans ((gDat_A (gEntry m) c 2).trans (Function.update_of_ne (StableHlo.devRef_ne_of_ne (by decide)) _ _).symm)
  | ⟨3, _⟩ => exact ((pdats m 0 c).arrAt_in 3 rfl _).trans ((gDat_A (gEntry m) c 3).trans (Function.update_of_ne (StableHlo.devRef_ne_of_ne (by decide)) _ _).symm)
  | ⟨4, _⟩ =>
    show gLeft m c = Function.update (Gen.V8 m c) (Proc.devRef .tc main_v4) (gLeft m c) (Proc.devRef .tc main_v4)
    exact (Function.update_self (Proc.devRef .tc main_v4 : DevRef τ sig) (gLeft m c) (Gen.V8 m c)).symm

/-- Every other buffer holds what it held. -/
theorem gExit_rest (c : Dev nD) : ∀ b : Ref sig .tc, b ∉ Finset.univ.image (Pipeline.arrRef spec0) →
    (fun b : Ref sig .tc => Gen.V9 m (left m) c b) b = gEntry m c b := fun b hb => by
  rw [afterGather_eq]
  exact Function.update_of_ne (StableHlo.devRef_ne_of_ne fun e => hb (Finset.mem_image.mpr ⟨4, Finset.mem_univ _, e.symm⟩)) _ _

set_option backward.isDefEq.respectTransparency.types false in
def gRegion : Pipeline.RegionSeg (pcfgs (F := F)) Gen.adm (pdats m) () defs₀ Variants.none noLevels noLevel 0 where
  win := launch0.win.to₀
  block_pos := launch0.block_pos
  stage_whole := launch0.stage_whole
  K := PEmpty
  osem k := k.elim
  ho := Pipeline.OwnSemFacts.none _
  hbody c := (gObligation (gEntry m) c).loose
  hwaits := Pipeline.hwaits_of_owed_zero _ _ _ _ noLevels noLevel 0 fun _ _ => rfl
  pre c := iprop(StableHlo.held (c : Thread nD τ) (Pipeline.ucRefs τ sig) (Gen.V8 m c) ∗ riding (F := F) c)
  post c := iprop(StableHlo.held (c : Thread nD τ) (Pipeline.ucRefs τ sig) (Gen.V9 m (left m) c) ∗ riding (F := F) c)
  X c := iprop(∃ r, prngReg c r)
  Y c := iprop(∃ r, prngReg c r)
  Z c := Pipeline.unscopedRest (Ix := Unit) (Name := ℕ) (U := UR sig nD τ) (Lvl := ℕ) spec0 c (gEntry m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (gEntry m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (gOut (gEntry m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (gEntry m c) (fun b : Ref sig .tc => Gen.V9 m (left m) c b) ((pdats m 0 c).arrAt · cfg0.N) (gExit_arrays m c) (gExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The scatter region's record -/

/-- At the scatter's exit its arrays hold: the inputs what they held, the padded result the fold of the write-backs. -/
theorem sExit_arrays (c : Dev nD) (w : Fin cfg1.W) :
    (pdats m 1 c).arrAt w cfg1.N = (fun b : Ref sig .tc => Gen.V10 m (left m) c b) (Pipeline.arrRef spec1 w) := by
  unfold Gen.V10; rw [afterGather_eq, left_v5]
  match w with
  | ⟨0, _⟩ => exact ((pdats m 1 c).arrAt_in 0 rfl _).trans ((sDat_A (sEntry m) c 0).trans (Function.update_of_ne (StableHlo.devRef_ne_of_ne (by decide)) _ _).symm)
  | ⟨1, _⟩ => exact ((pdats m 1 c).arrAt_in 1 rfl _).trans ((sDat_A (sEntry m) c 1).trans (Function.update_of_ne (StableHlo.devRef_ne_of_ne (by decide)) _ _).symm)
  | ⟨2, _⟩ =>
    show sLeft m c = Function.update (afterGather m c) (Proc.devRef .tc main_v5) (sLeft m c) (Proc.devRef .tc main_v5)
    exact (Function.update_self (Proc.devRef .tc main_v5 : DevRef τ sig) (sLeft m c) (afterGather m c)).symm

/-- Every other buffer holds what it held. -/
theorem sExit_rest (c : Dev nD) : ∀ b : Ref sig .tc, b ∉ Finset.univ.image (Pipeline.arrRef spec1) →
    (fun b : Ref sig .tc => Gen.V10 m (left m) c b) b = sEntry m c b := fun b hb => by
  unfold Gen.V10; rw [afterGather_eq]
  exact Function.update_of_ne (StableHlo.devRef_ne_of_ne fun e => hb (Finset.mem_image.mpr ⟨2, Finset.mem_univ _, e.symm⟩)) _ _

set_option backward.isDefEq.respectTransparency.types false in
def sRegion : Pipeline.RegionSeg (pcfgs (F := F)) Gen.adm (pdats m) () defs₀ Variants.none noLevels noLevel 1 where
  win := launch1.win.to₀
  block_pos := launch1.block_pos
  stage_whole := launch1.stage_whole
  K := PEmpty
  osem k := k.elim
  ho := Pipeline.OwnSemFacts.none _
  hbody c := (sObligation (sEntry m) c).loose
  hwaits := Pipeline.hwaits_of_owed_zero _ _ _ _ noLevels noLevel 1 fun _ _ => rfl
  pre c := iprop(StableHlo.held (c : Thread nD τ) (Pipeline.ucRefs τ sig) (Gen.V9 m (left m) c) ∗ riding (F := F) c)
  post c := iprop(StableHlo.held (c : Thread nD τ) (Pipeline.ucRefs τ sig) (Gen.V10 m (left m) c) ∗ riding (F := F) c)
  X c := iprop(∃ r, prngReg c r)
  Y c := iprop(∃ r, prngReg c r)
  Z c := Pipeline.unscopedRest (Ix := Unit) (Name := ℕ) (U := UR sig nD τ) (Lvl := ℕ) spec1 c (sEntry m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (sEntry m c) fun _ => rfl
    rw [Pipeline.unscopedBufs_held] at hsplit
    rw [afterGather_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (sOut (sEntry m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (sEntry m c) (fun b : Ref sig .tc => Gen.V10 m (left m) c b) ((pdats m 1 c).arrAt · cfg1.N) (sExit_arrays m c) (sExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's pieces and the frame -/

/-- The launch's ghost state: the pipelines' cells and tokens, nothing else. -/
theorem launchGhost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's generator register is at a state and the core owes nothing. -/
theorem launchRiding :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts noLevels noLevel)
      ⊢ (|={Set.univ}=> bigSep Finset.univ (fun c : Dev nD => riding (F := F) c) : sProp 𝕄) := by
  refine Pipeline.initEach noLevels noLevel fun c => ?_
  iintro ⟨⟨-, HO, -, Hp, -⟩, -⟩
  imodintro
  isplitl [Hp]; · iexists _; iexact Hp
  iexists ∅; iexact HO

set_option backward.isDefEq.respectTransparency.types false in
/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none noLevels noLevel (fun _ _ => rfl) ρ (left m) (pdats m)
    (0 : Dev nD → CellTallies nD τ sig Unit) (fun _ => (BI.emp : sProp 𝕄))
    (initOf (Pipeline.cells cfgs cellOf_inj) (Pipeline.launchToks cfgs cellOf_inj)) (launchGhost (F := F))
    (fun _ c => riding (F := F) c) (launchRiding ρ)
    (fun c => by iintro ⟨-, HO⟩; iexact HO)
    (gRegion m) (fun c => .rfl) (fun c => .rfl)
    (sRegion m) (fun c => .rfl) (fun c => .rfl)

end Cert.KernelIdeal.Layer

end
-- ==== Proof.KernelIdeal.Run.lean ====
/-
  The idealized program's run, with its result named.

  The same launch as the frame's — the pads, the gather region, the scatter region, the slice, over the same
  thread states — read at the end not only at the argument arrays but also at the result array: after the slice it
  holds what the last valuation says, the first 100 000 rows of what the scatter region left.
-/
import proofs.«408857_j66305705115856_1_alg».proof.Proof.KernelIdeal.Frame

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What rides beside the buffers, the same at every item. -/
abbrev ridingAll : Fin 3 → Dev nD → sProp 𝕄 := fun _ c => riding (F := Ideal) c

set_option backward.isDefEq.respectTransparency.types false in
/-- Every weakly fair execution terminates with the result array at the last valuation's contents and the
    argument arrays as launched. -/
theorem run_result : θ_run defs (onTc (τ := τ) (main (F := Ideal))) ⟨m, fun _ => 0, ρ⟩ (fun r => ∀ c : Dev nD,
      r.2.mem ((c.tc : Thread nD τ).loc main_v6) = Gen.V11 m (left m) c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := Ideal)) Gen.adm (pdats m) () cellOf_inj emb₁ defs₀ Variants.none noLevels noLevel m ρ main
    (Gen.segs m (left m) Variants.none noLevels noLevel (ridingAll) () (pdats m) (gRegion m) (sRegion m))
    (fun c Q => by
      rewrite [main_chain c, Seg.run_eq_chain,
        show (Gen.segs m (left m) Variants.none noLevels noLevel (ridingAll) () (pdats m) (gRegion m) (sRegion m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) (launchGhost (F := Ideal))
    (T₀ := fun c => iprop(StableHlo.held (c : Thread nD τ) (Pipeline.ucRefs τ sig) (Gen.V0 m c) ∗ riding (F := Ideal) c))
    (Tₙ := fun c => StableHlo.held (c : Thread nD τ) (Pipeline.ucRefs τ sig) (Gen.V11 m (left m) c))
    (hch := fun c => ⟨.rfl, .rfl, .rfl, .rfl, .rfl, .rfl, .rfl, .rfl, .rfl, .rfl, .rfl,
      sep_mono .rfl (by iintro ⟨-, HO⟩; iexact HO)⟩)
    (hinit := ?_)
    (QY := fun c s => s.mem ((c.tc : Thread nD τ).loc main_v6) = Gen.V11 m (left m) c main_v6
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers held at the launch contents; the rest rides
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (launchRiding (F := Ideal) ρ) $$ [Hr Hla] with HE
    · isplitl [Hr]; · iexact Hr
      iexact Hla
    imodintro
    rw [bigSep_sep' Finset.univ (fun c : Dev nD => StableHlo.held (c : Thread nD τ) (Pipeline.ucRefs τ sig) (Gen.V0 m c))
      (fun c : Dev nD => riding (F := Ideal) c)]
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (Gen.V11 m (left m) c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (Gen.V11_main_arg0 m (left m) c),
        (h (Proc.devRef .tc main_arg1) (Finset.mem_filter.mpr ⟨StableHlo.devRef_mem_tcRefs main_arg1, by decide⟩)).trans (Gen.V11_main_arg1 m (left m) c),
        (h (Proc.devRef .tc main_arg2) (Finset.mem_filter.mpr ⟨StableHlo.devRef_mem_tcRefs main_arg2, by decide⟩)).trans (Gen.V11_main_arg2 m (left m) c),
        (h (Proc.devRef .tc main_arg3) (Finset.mem_filter.mpr ⟨StableHlo.devRef_mem_tcRefs main_arg3, by decide⟩)).trans (Gen.V11_main_arg3 m (left m) c),
        (h (Proc.devRef .tc main_arg4) (Finset.mem_filter.mpr ⟨StableHlo.devRef_mem_tcRefs main_arg4, by decide⟩)).trans (Gen.V11_main_arg4 m (left m) c)⟩
    · iexact HSI

end Cert.KernelIdeal.Layer

end
-- ==== Proof.KernelIdeal.GatherStep.lean ====
/-
  The gather body's arithmetic on the extended reals, one entry at a time.

  At node block `n` the body forms the block's transformed rows (the block times `Wᵀ`), compares each of the
  chunk's 4096 column indices, less the block's first node `2048 n`, with the positions `0 … 2047`, and multiplies
  the resulting matrix of ones and zeros by the transformed rows: row `a` of the product is the transformed row of
  the node that edge `a` reads from when that node lies in this block, and zero otherwise. The product is added to
  the accumulator. Subtraction of words wraps, but a position below 100352 is named by exactly one word, so the
  comparison holds exactly when the column index, read signed, is `2048 n + k`. The format changes are the
  identity here. At the last block each accumulator row is multiplied by its edge's value.
-/
import proofs.«408857_j66305705115856_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Layer

open Idealize.ShloMosaic Idealize.ShloMosaic.ValueIdx
open Cert.KernelIdeal Cert.KernelIdeal.Gen

/-! ## Words

A node position below `49 · 2048 = 100352` is far below `2³¹`, so exactly one 32-bit word names it, and that word reads
the same signed and unsigned. Hence the wrapping difference `w − 2048 n` is the word of `k < 2048` exactly when `w`,
read signed, is `2048 n + k`. -/

/-- The wrapped difference of a word and a block's first node is a position in the block exactly when the word, read
    signed, is that node. -/
private theorem word_sub_eq_iff (w : BitVec 32) (n k : ℕ) (hn : n < 49) (hk : k < 2048) :
    w - BitVec.ofNat 32 n * 2048#32 = BitVec.ofNat 32 k ↔ w.toInt = ((2048 * n + k : ℕ) : ℤ) := by
  have hw : w.toNat < 2 ^ 32 := w.isLt
  rw [← BitVec.toNat_inj, BitVec.toInt_eq_toNat_cond]
  simp only [BitVec.toNat_sub, BitVec.toNat_mul, BitVec.toNat_ofNat]
  constructor
  · intro h
    split_ifs <;> omega
  · intro h
    split_ifs at h <;> omega

/-- A comparison bit, widened and converted, is `1` or `0`; times `t` it keeps `t` or clears it. -/
private theorem onehot_mul (x y : BitVec 32) (c : Prop) [Decidable c] (h : x = y ↔ c) (t : EReal) :
    (FloatOps.sitofp (F := Ideal) .f32 ((IntOp.cmpi .eq x y).setWidth 32) : EReal) * t = if c then t else 0 := by
  by_cases hc : c
  · obtain rfl : x = y := h.mpr hc
    rw [if_pos hc]
    have e : (IntOp.cmpi .eq x x).setWidth 32 = 1#32 := by simp [IntOp.cmpi]
    rw [e]
    show (((1#32 : BitVec 32).toInt : ℝ) : EReal) * t = t
    have e1 : (1#32 : BitVec 32).toInt = 1 := by decide
    rw [e1]
    simp
  · have hxy : ¬x = y := fun e => hc (h.mp e)
    rw [if_neg hc]
    have hb : (x == y) = false := beq_eq_false_iff_ne.mpr hxy
    have e : (IntOp.cmpi .eq x y).setWidth 32 = 0#32 := by
      show (BitVec.ofBool (x == y)).setWidth 32 = 0#32
      rw [hb]
      rfl
    rw [e]
    show (((0#32 : BitVec 32).toInt : ℝ) : EReal) * t = 0
    simp

/-! ## Two layout operations at an index: a vector as a column, and a column spread over the columns -/

section Layout
variable {α : Type}

/-- An `[a]` array cast to `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products at an index

Both contract one axis: the operand indices at output index `(r, c)` and contraction position `q` are `(r, q)` and
`(q, c)`, axis by axis. -/

private theorem lhs_inner_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
private theorem lhs_inner_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
private theorem rhs_inner_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
private theorem rhs_inner_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

private theorem lhs_outer_0 (i : S4096x128.Idx) (q : dot_S4096x2048_S2048x128_S4096x128_1_0_0_1_n_n.contr.Idx) :
    (dot_S4096x2048_S2048x128_S4096x128_1_0_0_1_n_n.lhsIdx i q 0).val = (i 0).val := by
  unfold DotDims.lhsIdx
  rw [dif_neg (show ¬(0 : Fin S4096x2048.rank) ∈ dot_S4096x2048_S2048x128_S4096x128_1_0_0_1_n_n.lhsBatch by decide), dif_pos (show (0 : Fin S4096x2048.rank) ∈ dot_S4096x2048_S2048x128_S4096x128_1_0_0_1_n_n.lhsNonContracting by decide)]
  rfl
private theorem lhs_outer_1 (i : S4096x128.Idx) (q : dot_S4096x2048_S2048x128_S4096x128_1_0_0_1_n_n.contr.Idx) :
    (dot_S4096x2048_S2048x128_S4096x128_1_0_0_1_n_n.lhsIdx i q 1).val = (q ⟨0, by decide⟩).val :=
  dot_S4096x2048_S2048x128_S4096x128_1_0_0_1_n_n.lhsIdx_val_of_single rfl i q
private theorem rhs_outer_0 (i : S4096x128.Idx) (q : dot_S4096x2048_S2048x128_S4096x128_1_0_0_1_n_n.contr.Idx) :
    (dot_S4096x2048_S2048x128_S4096x128_1_0_0_1_n_n.rhsIdx i q 0).val = (q ⟨0, by decide⟩).val :=
  dot_S4096x2048_S2048x128_S4096x128_1_0_0_1_n_n.rhsIdx_val_of_single rfl i q
private theorem rhs_outer_1 (i : S4096x128.Idx) (q : dot_S4096x2048_S2048x128_S4096x128_1_0_0_1_n_n.contr.Idx) :
    (dot_S4096x2048_S2048x128_S4096x128_1_0_0_1_n_n.rhsIdx i q 1).val = (i 1).val := by
  unfold DotDims.rhsIdx
  rw [dif_neg (show ¬(1 : Fin S2048x128.rank) ∈ dot_S4096x2048_S2048x128_S4096x128_1_0_0_1_n_n.rhsBatch by decide), dif_pos (show (1 : Fin S2048x128.rank) ∈ dot_S4096x2048_S2048x128_S4096x128_1_0_0_1_n_n.rhsNonContracting by decide)]
  rfl

/-- The block's product with the transposed weights into a cleared accumulator, at `(k, c)`: the sum over the 128
    features of the products. -/
private theorem inner_apply (L : FVec Ideal S2048x128 .bf16) (R : FVec Ideal S128x128 .bf16) (k : Fin 2048) (c : Fin 128) :
    matmul dot_S2048x128_S128x128_S2048x128_1_0_0_1_n_n none L R (constant (F := Ideal) S2048x128 .f32 0x00000000#32) (ix2 k c)
      = ∑ d : Fin 128, L (ix2 k d) * R (ix2 d c) := by
  simp only [matmul]
  rw [Ideal.matmul_constant_zero_apply,
    ← Equiv.sum_comp (contrEquiv1 dot_S2048x128_S128x128_S2048x128_1_0_0_1_n_n 128 rfl rfl).symm]
  refine Finset.sum_congr rfl fun d _ => ?_
  have hk := contrEquiv1_symm_val dot_S2048x128_S128x128_S2048x128_1_0_0_1_n_n 128 rfl rfl d
  have el : dot_S2048x128_S128x128_S2048x128_1_0_0_1_n_n.lhsIdx (ix2 k c)
      ((contrEquiv1 dot_S2048x128_S128x128_S2048x128_1_0_0_1_n_n 128 rfl rfl).symm d) = ix2 k d :=
    funext fun a => Fin.ext (by
      match a with
      | ⟨0, _⟩ => exact lhs_inner_0 _ _
      | ⟨1, _⟩ => exact (lhs_inner_1 _ _).trans hk)
  have er : dot_S2048x128_S128x128_S2048x128_1_0_0_1_n_n.rhsIdx (ix2 k c)
      ((contrEquiv1 dot_S2048x128_S128x128_S2048x128_1_0_0_1_n_n 128 rfl rfl).symm d) = ix2 d c :=
    funext fun a => Fin.ext (by
      match a with
      | ⟨0, _⟩ => exact (rhs_inner_0 _ _).trans hk
      | ⟨1, _⟩ => exact rhs_inner_1 _ _)
  rw [el, er]

/-- The one-hot matrix's product with the transformed rows into a cleared accumulator, at `(a, c)`: the sum over the
    block's 2048 positions of the products. -/
private theorem outer_apply (L : FVec Ideal S4096x2048 .bf16) (R : FVec Ideal S2048x128 .bf16) (a : Fin 4096) (c : Fin 128) :
    matmul dot_S4096x2048_S2048x128_S4096x128_1_0_0_1_n_n none L R (constant (F := Ideal) S4096x128 .f32 0x00000000#32) (ix2 a c)
      = ∑ k : Fin 2048, L (ix2 a k) * R (ix2 k c) := by
  simp only [matmul]
  rw [Ideal.matmul_constant_zero_apply,
    ← Equiv.sum_comp (contrEquiv1 dot_S4096x2048_S2048x128_S4096x128_1_0_0_1_n_n 2048 rfl rfl).symm]
  refine Finset.sum_congr rfl fun k _ => ?_
  have hk := contrEquiv1_symm_val dot_S4096x2048_S2048x128_S4096x128_1_0_0_1_n_n 2048 rfl rfl k
  have el : dot_S4096x2048_S2048x128_S4096x128_1_0_0_1_n_n.lhsIdx (ix2 a c)
      ((contrEquiv1 dot_S4096x2048_S2048x128_S4096x128_1_0_0_1_n_n 2048 rfl rfl).symm k) = ix2 a k :=
    funext fun ax => Fin.ext (by
      match ax with
      | ⟨0, _⟩ => exact lhs_outer_0 _ _
      | ⟨1, _⟩ => exact (lhs_outer_1 _ _).trans hk)
  have er : dot_S4096x2048_S2048x128_S4096x128_1_0_0_1_n_n.rhsIdx (ix2 a c)
      ((contrEquiv1 dot_S4096x2048_S2048x128_S4096x128_1_0_0_1_n_n 2048 rfl rfl).symm k) = ix2 k c :=
    funext fun ax => Fin.ext (by
      match ax with
      | ⟨0, _⟩ => exact (rhs_outer_0 _ _).trans hk
      | ⟨1, _⟩ => exact rhs_outer_1 _ _)
  rw [el, er]

/-! ## Two integer operations at an index (definitional) -/

private theorem cmpi_apply {s : Shape} {w : ℕ} (p : CmpIPredicate) (x y : IVec s w) (i : s.Idx) :
    cmpi p x y i = IntOp.cmpi p (x i) (y i) := rfl
private theorem subi_apply {s : Shape} {w : ℕ} (x y : IVec s w) (i : s.Idx) :
    subi x y i = IntOp.subi (x i) (y i) := rfl

/-- The transposed weights at `(d, c)` are the weights at `(c, d)`. -/
private theorem weightT_apply (W : FVec Ideal S128x128 .f32) (d c : Fin 128) :
    transpose S128x128 [1, 0] (truncf .bf16 W bitsLt_bf16_f32) transposes_S128x128_p1_0_S128x128 (ix2 d c) = W (ix2 c d) :=
  transpose_ix2_apply _ _ d c

/-! ## The three stored values -/

/-- The cleared accumulator holds zero everywhere. -/
theorem gatherCleared_apply (j : S4096x128.Idx) : k0_pay1 (F := Ideal) j = 0 := by
  simp only [k0_pay1]
  rw [shapeCast_self, broadcast_apply]
  exact Ideal.ofBits_zero_f32

/-- One node block's contribution: entry `(a, b)` of the accumulator gains, for the one position `k` of the block
    (if any) that edge `a`'s column index names, column `b` of that node's transformed row. -/
theorem gatherStep_apply (i : grid0.Coords) (x0 : Vec Ideal S2048x128 .f32) (x1 : Vec Ideal S128x128 .f32)
    (x2 : Vec Ideal S4096 .i32) (s : Vec Ideal S4096x128 .f32) (a : Fin 4096) (b : Fin 128) :
    k0_pay2 (F := Ideal) i x0 x1 x2 s (ix2 a b)
      = s (ix2 a b) + ∑ k : Fin 2048,
          (if (x2 (ix1 a)).toInt = ((2048 * (i 1).val + k.val : ℕ) : ℤ) then ∑ d : Fin 128, x0 (ix2 k d) * x1 (ix2 b d) else 0) := by
  have hn : (i 1).val < 49 := (i 1).isLt
  simp only [k0_pay2]
  rw [shapeCast_self, addf_apply, outer_apply]
  refine congrArg (s (ix2 a b) + ·) (Finset.sum_congr rfl fun k _ => ?_)
  rw [truncf_apply, truncf_apply, sitofp_apply, extui_apply, cmpi_apply, broadcastTo_a1_ab_apply,
    shapeCast_a_a1_apply, subi_apply, shapeCast_self, broadcast_apply, broadcastTo_1b_ab_apply,
    iota_single_apply, inner_apply]
  refine (onehot_mul _ _ _ (word_sub_eq_iff (x2 (ix1 a)) (i 1).val k.val hn k.isLt) _).trans ?_
  exact if_congr Iff.rfl
    (Finset.sum_congr rfl fun d _ =>
      congrArg₂ (· * ·) (congrFun (shapeCast_self x0 shapeCasts_S2048x128_S2048x128) (ix2 k d)) (weightT_apply x1 d b)) rfl

/-- The write-out: each accumulator row times its edge's value. -/
theorem gatherOut_apply (s : Vec Ideal S4096x128 .f32) (x3 : Vec Ideal S4096 .f32) (a : Fin 4096) (b : Fin 128) :
    k0_pay3 (F := Ideal) s x3 (ix2 a b) = s (ix2 a b) * x3 (ix1 a) := by
  simp only [k0_pay3]
  rw [mulf_apply, broadcastTo_a1_ab_apply, shapeCast_a_a1_apply, shapeCast_self]

end Cert.KernelIdeal.Layer

end
-- ==== Proof.Sums.lean ====
/-
  Three facts about finite sums on the extended reals that the two accumulations come down to.

  A block of 2048 consecutive positions contains a given integer at most once, so a sum over the block of terms
  that vanish except where the position equals that integer is the one term there, if the integer lies in the
  block, and zero otherwise. Summing chunk by chunk over 391 chunks of 4096 consecutive numbers is summing over
  the 1 601 536 numbers they make up. And terms known to vanish past the first 1 600 000 can be left out.
-/
import Mathlib.Algebra.BigOperators.Fin
import Mathlib.Algebra.BigOperators.Intervals
import Mathlib.Data.EReal.Basic

noncomputable section

open scoped BigOperators

namespace Cert.Sums

/-- `n` chunks of 4096 consecutive numbers, summed chunk by chunk, are the numbers below `4096 n`: by induction
    on `n`, the next chunk being the next 4096 numbers. -/
private theorem sum_chunks_below (g : ℕ → EReal) (n : ℕ) :
    (∑ e ∈ Finset.range n, ∑ a : Fin 4096, g (4096 * e + a.val)) = ∑ E ∈ Finset.range (4096 * n), g E := by
  induction n with
  | zero => rw [Finset.sum_range_zero, Nat.mul_zero, Finset.sum_range_zero]
  | succ n ih =>
    rw [Finset.sum_range_succ, ih, Nat.mul_succ, Finset.sum_range_add,
      Fin.sum_univ_eq_sum_range (fun x => g (4096 * n + x)) 4096]

/-- A sum over one block of 2048 positions of terms that vanish unless the position is the integer `z`. -/
theorem sum_block_hit (f : ℕ → EReal) (z : ℤ) (n : ℕ) :
    (∑ k : Fin 2048, (if z = ((2048 * n + k.val : ℕ) : ℤ) then f (2048 * n + k.val) else 0))
      = if ((2048 * n : ℕ) : ℤ) ≤ z ∧ z < ((2048 * (n + 1) : ℕ) : ℤ) then f z.toNat else 0 := by
  by_cases hb : ((2048 * n : ℕ) : ℤ) ≤ z ∧ z < ((2048 * (n + 1) : ℕ) : ℤ)
  · -- the block holds `z`: the one position that is `z` is `z - 2048 n`
    rw [if_pos hb]
    obtain ⟨h1, h2⟩ := hb
    have hk : (z - ((2048 * n : ℕ) : ℤ)).toNat < 2048 := by omega
    rw [Finset.sum_eq_single (⟨(z - ((2048 * n : ℕ) : ℤ)).toNat, hk⟩ : Fin 2048)]
    · rw [if_pos (show z = ((2048 * n + (z - ((2048 * n : ℕ) : ℤ)).toNat : ℕ) : ℤ) by omega)]
      exact congrArg f (show 2048 * n + (z - ((2048 * n : ℕ) : ℤ)).toNat = z.toNat by omega)
    · intro k _ hne
      refine if_neg fun hz => hne (Fin.ext ?_)
      show k.val = (z - ((2048 * n : ℕ) : ℤ)).toNat
      omega
    · intro h
      exact absurd (Finset.mem_univ _) h
  · -- the block does not hold `z`: every term vanishes
    rw [if_neg hb]
    refine Finset.sum_eq_zero fun k _ => if_neg fun hz => hb ?_
    have := k.isLt
    constructor <;> omega

/-- 391 chunks of 4096 consecutive numbers are the numbers below 1 601 536. -/
theorem sum_chunks (g : ℕ → EReal) :
    (∑ e ∈ Finset.range 391, ∑ a : Fin 4096, g (4096 * e + a.val)) = ∑ E : Fin 1601536, g E.val := by
  rw [sum_chunks_below g 391, Fin.sum_univ_eq_sum_range g 1601536]

/-- The chunks up to and including chunk `e` are the numbers below `4096 (e + 1)`. -/
theorem sum_chunks_upto (g : ℕ → EReal) (e : ℕ) :
    (∑ e' ∈ Finset.range (e + 1), ∑ a : Fin 4096, g (4096 * e' + a.val)) = ∑ E ∈ Finset.range (4096 * (e + 1)), g E := by
  exact sum_chunks_below g (e + 1)

/-- Terms that vanish from 1 600 000 on can be left out of a sum over the numbers below 1 601 536. -/
theorem sum_drop_padding (g : ℕ → EReal) (hz : ∀ E, 1600000 ≤ E → E < 1601536 → g E = 0) :
    (∑ E : Fin 1601536, g E.val) = ∑ E : Fin 1600000, g E.val := by
  rw [Fin.sum_univ_eq_sum_range g 1601536, Fin.sum_univ_eq_sum_range g 1600000,
    show (1601536 : ℕ) = 1600000 + 1536 from rfl, Finset.sum_range_add,
    Finset.sum_eq_zero (fun x hx => hz (1600000 + x) (Nat.le_add_right _ _)
      (by have := Finset.mem_range.mp hx; omega)), add_zero]

end Cert.Sums

end
-- ==== Proof.Propagation.lean ====
/-
  One propagation step over a sparse adjacency, as ONE function of the argument arrays on the extended reals.

  Nodes carry rows of 128 numbers. The dense transform sends node `n`'s row `x` to `x · Wᵀ`: column `o` of the
  result is `∑ d, x d * W o d`. Each of the 1 600 000 edges has a row index (the node it adds into), a column
  index (the node it reads from) and a value; its message is the transformed row of its source node times its
  value. A node's aggregate is the sum of the messages of the edges whose row index is that node; an edge whose
  row index names no node adds into nothing. The result is the leaky rectifier of slope 0.2 of the aggregate.

  The column index is read signed and clamped into the node range, which is what a row gather does with it; for
  a column index that is already a node the clamp is the identity.
-/
import Idealize.ShloMosaic.PureOps.Ideal
import Idealize.ShloMosaic.Lib.ValueIdx

noncomputable section

open scoped BigOperators

namespace Cert.Propagation

open Idealize.ShloMosaic Idealize.ShloMosaic.ValueIdx

/-- The node table's shape: 100 000 nodes, 128 numbers each. -/
abbrev Nodes : Shape := ⟨2, ![100000, 128]⟩
/-- The weight matrix's shape. -/
abbrev Weights : Shape := ⟨2, ![128, 128]⟩
/-- The edge lists' shape. -/
abbrev Edges : Shape := ⟨1, ![1600000]⟩

/-- Column `o` of node `n`'s transformed row: the row times `Wᵀ`. -/
def dense (emb : Nodes.Idx → EReal) (W : Weights.Idx → EReal) (n : Fin 100000) (o : Fin 128) : EReal :=
  ∑ d : Fin 128, emb (ix2 n d) * W (ix2 o d)

/-- The node edge `E` reads from: its column index read signed and clamped into the node range. -/
def source (cols : Edges.Idx → BitVec 32) (E : Fin 1600000) : Fin 100000 :=
  ⟨min (cols (ix1 E)).toInt.toNat 99999, by omega⟩

/-- Edge `E`'s message in column `o`: its source's transformed row, times the edge's value. -/
def message (emb : Nodes.Idx → EReal) (W : Weights.Idx → EReal) (cols : Edges.Idx → BitVec 32)
    (vals : Edges.Idx → EReal) (E : Fin 1600000) (o : Fin 128) : EReal :=
  dense emb W (source cols E) o * vals (ix1 E)

/-- Node `r`'s aggregate in column `o`: the sum of the messages of the edges whose row index, read signed, is `r`. -/
def aggregate (emb : Nodes.Idx → EReal) (W : Weights.Idx → EReal) (rows cols : Edges.Idx → BitVec 32)
    (vals : Edges.Idx → EReal) (r : Fin 100000) (o : Fin 128) : EReal :=
  ∑ E : Fin 1600000, if (rows (ix1 E)).toInt = (r.val : ℤ) then message emb W cols vals E o else 0

/-- The leaky rectifier of slope 0.2: `a` where `a ≥ 0`, else the slope (kept as its binary32 word) times `a`. -/
def leaky (a : EReal) : EReal :=
  Scalar.select (FloatOps.cmpf (F := Ideal) (φ := .f32) .oge a (Ideal.ofBits .f32 0x00000000#32)) a
    (Ideal.ofBits .f32 0x3E4CCCCD#32 * a)

/-- The layer's result at node `i 0`, column `i 1`. -/
def result (emb : Nodes.Idx → EReal) (W : Weights.Idx → EReal) (rows cols : Edges.Idx → BitVec 32)
    (vals : Edges.Idx → EReal) : Nodes.Idx → EReal :=
  fun i => leaky (aggregate emb W rows cols vals (i 0) (i 1))

end Cert.Propagation

end
-- ==== Proof.PaddedLayer.lean ====
/-
  The same layer over the padded arrays, and why the padding does not show.

  The kernel works on a node table padded to 100 352 rows and edge lists padded to 1 601 536 entries. Over those
  arrays: a padded node's transformed row; an edge's message — the transformed row of the node its column index
  names, if it names one of the 100 352, else zero, times the edge's value —; and a padded node's result, the leaky
  rectifier of the sum of the messages of the edges whose row index names it. When the padded arrays are the
  arguments followed by zeros and every column index of the arguments names one of the 100 000 nodes, the padded
  result at a node below 100 000 is the layer's result there: a padded edge has value zero, so its message is
  zero whatever row it would add into; an edge of the arguments reads a node below 100 000, whose padded row is its
  row; and the order of the two factors of a message does not matter.
-/
import proofs.«408857_j66305705115856_1_alg».proof.Proof.Propagation
import proofs.«408857_j66305705115856_1_alg».proof.Proof.Sums

noncomputable section

open scoped BigOperators

namespace Cert.PaddedLayer

open Idealize.ShloMosaic Idealize.ShloMosaic.ValueIdx
open Cert.Propagation

/-- The padded node table's shape, the padded edge lists', and the message array's. -/
abbrev NodesP : Shape := ⟨2, ![100352, 128]⟩
abbrev EdgesP : Shape := ⟨1, ![1601536]⟩
abbrev MessagesP : Shape := ⟨2, ![1601536, 128]⟩

/-- Column `o` of padded node `j`'s transformed row. -/
def denseP (nodesP : NodesP.Idx → EReal) (W : Weights.Idx → EReal) (j : Fin 100352) (o : Fin 128) : EReal :=
  ∑ d : Fin 128, nodesP (ix2 j d) * W (ix2 o d)

/-- Padded edge `E`'s message in column `o`: the transformed row of the node its column index names, if it names a
    padded node, else zero; times the edge's value. -/
def messageP (nodesP : NodesP.Idx → EReal) (W : Weights.Idx → EReal) (colsP : EdgesP.Idx → BitVec 32)
    (valsP : EdgesP.Idx → EReal) (E : Fin 1601536) (o : Fin 128) : EReal :=
  (if h : 0 ≤ (colsP (ix1 E)).toInt ∧ (colsP (ix1 E)).toInt < 100352
    then denseP nodesP W ⟨(colsP (ix1 E)).toInt.toNat, by omega⟩ o else 0) * valsP (ix1 E)

/-- The message array. -/
def messagesP (nodesP : NodesP.Idx → EReal) (W : Weights.Idx → EReal) (colsP : EdgesP.Idx → BitVec 32)
    (valsP : EdgesP.Idx → EReal) : MessagesP.Idx → EReal :=
  fun i => messageP nodesP W colsP valsP (i 0) (i 1)

/-- The padded result from a message array: at padded node `R`, column `o`, the leaky rectifier of the sum of the
    messages of the edges whose row index, read signed, is `R`. -/
def resultP (msgs : MessagesP.Idx → EReal) (rowsP : EdgesP.Idx → BitVec 32) : NodesP.Idx → EReal :=
  fun i => leaky (∑ E : Fin 1601536, if (rowsP (ix1 E)).toInt = (((i 0).val : ℕ) : ℤ) then msgs (ix2 E (i 1)) else 0)

/-! ## One edge's message over the padded arrays -/

/-- A padded node below 100 000 has the node's transformed row: its padded row is the node's row. -/
private theorem denseP_eq_dense (emb : Nodes.Idx → EReal) (W : Weights.Idx → EReal) (nodesP : NodesP.Idx → EReal)
    (hn : ∀ (j : Fin 100352) (d : Fin 128), nodesP (ix2 j d) = if h : j.val < 100000 then emb (ix2 ⟨j.val, h⟩ d) else 0)
    (j : Fin 100352) (n : Fin 100000) (hjn : j.val = n.val) (o : Fin 128) :
    denseP nodesP W j o = dense emb W n o := by
  have hlt : j.val < 100000 := by omega
  unfold denseP dense
  refine Finset.sum_congr rfl fun d _ => ?_
  rw [hn j d, dif_pos hlt]
  exact congrArg (fun t => emb (ix2 t d) * W (ix2 o d)) (Fin.ext hjn : (⟨j.val, hlt⟩ : Fin 100000) = n)

/-- A padded edge whose column index names a padded node: its message is that node's transformed row times its
    value. -/
private theorem messageP_of_mem (nodesP : NodesP.Idx → EReal) (W : Weights.Idx → EReal) (colsP : EdgesP.Idx → BitVec 32)
    (valsP : EdgesP.Idx → EReal) (E : Fin 1601536) (o : Fin 128) (c : BitVec 32) (v : EReal)
    (hc : colsP (ix1 E) = c) (hv : valsP (ix1 E) = v) (h0 : 0 ≤ c.toInt) (h1 : c.toInt < 100352) :
    messageP nodesP W colsP valsP E o = denseP nodesP W ⟨c.toInt.toNat, by omega⟩ o * v := by
  subst hc hv
  unfold messageP
  rw [dif_pos ⟨h0, h1⟩]

/-- A padded edge whose value is zero has the zero message. -/
private theorem messageP_of_val_zero (nodesP : NodesP.Idx → EReal) (W : Weights.Idx → EReal) (colsP : EdgesP.Idx → BitVec 32)
    (valsP : EdgesP.Idx → EReal) (E : Fin 1601536) (o : Fin 128) (hv : valsP (ix1 E) = 0) :
    messageP nodesP W colsP valsP E o = 0 := by
  unfold messageP
  rw [hv, mul_zero]

/-! ## The padded sum's term as a function of the edge's number -/

/-- The term edge number `E` adds into row `R`, column `o`, over the padded arrays (zero past the padded lists). -/
private def termP (nodesP : NodesP.Idx → EReal) (W : Weights.Idx → EReal) (rowsP colsP : EdgesP.Idx → BitVec 32)
    (valsP : EdgesP.Idx → EReal) (R : ℤ) (o : Fin 128) (E : ℕ) : EReal :=
  if h : E < 1601536 then
    (if (rowsP (ix1 (⟨E, h⟩ : Fin 1601536))).toInt = R then messageP nodesP W colsP valsP ⟨E, h⟩ o else 0)
  else 0

/-- At a padded edge it is that edge's term. -/
private theorem termP_val (nodesP : NodesP.Idx → EReal) (W : Weights.Idx → EReal) (rowsP colsP : EdgesP.Idx → BitVec 32)
    (valsP : EdgesP.Idx → EReal) (R : ℤ) (o : Fin 128) (E : Fin 1601536) :
    termP nodesP W rowsP colsP valsP R o E.val
      = if (rowsP (ix1 E)).toInt = R then messageP nodesP W colsP valsP E o else 0 :=
  dif_pos E.isLt

/-- From edge 1 600 000 on the value is zero, so the term is zero whatever row the edge would add into. -/
private theorem termP_padding (nodesP : NodesP.Idx → EReal) (W : Weights.Idx → EReal) (rowsP colsP : EdgesP.Idx → BitVec 32)
    (valsP : EdgesP.Idx → EReal) (vals : Edges.Idx → EReal)
    (hv : ∀ E : Fin 1601536, valsP (ix1 E) = if h : E.val < 1600000 then vals (ix1 ⟨E.val, h⟩) else 0)
    (R : ℤ) (o : Fin 128) (E : ℕ) (h1 : 1600000 ≤ E) (h2 : E < 1601536) :
    termP nodesP W rowsP colsP valsP R o E = 0 := by
  have hv0 : valsP (ix1 (⟨E, h2⟩ : Fin 1601536)) = 0 := by
    rw [hv ⟨E, h2⟩]
    exact dif_neg (Nat.not_lt.mpr h1)
  unfold termP
  rw [dif_pos h2, messageP_of_val_zero nodesP W colsP valsP ⟨E, h2⟩ o hv0, ite_self]

/-- Below edge 1 600 000 the padded lists are the arguments, the column index names a node below 100 000, and the
    term is the edge's term in the layer. -/
private theorem termP_argument (emb : Nodes.Idx → EReal) (W : Weights.Idx → EReal) (rows cols : Edges.Idx → BitVec 32)
    (vals : Edges.Idx → EReal)
    (nodesP : NodesP.Idx → EReal) (rowsP colsP : EdgesP.Idx → BitVec 32) (valsP : EdgesP.Idx → EReal)
    (hn : ∀ (j : Fin 100352) (d : Fin 128), nodesP (ix2 j d) = if h : j.val < 100000 then emb (ix2 ⟨j.val, h⟩ d) else 0)
    (hr : ∀ E : Fin 1601536, rowsP (ix1 E) = if h : E.val < 1600000 then rows (ix1 ⟨E.val, h⟩) else 0#32)
    (hc : ∀ E : Fin 1601536, colsP (ix1 E) = if h : E.val < 1600000 then cols (ix1 ⟨E.val, h⟩) else 0#32)
    (hv : ∀ E : Fin 1601536, valsP (ix1 E) = if h : E.val < 1600000 then vals (ix1 ⟨E.val, h⟩) else 0)
    (hcols : ∀ E : Fin 1600000, 0 ≤ (cols (ix1 E)).toInt ∧ (cols (ix1 E)).toInt < 100000)
    (R : ℤ) (o : Fin 128) (E : Fin 1600000) :
    termP nodesP W rowsP colsP valsP R o E.val
      = if (rows (ix1 E)).toInt = R then message emb W cols vals E o else 0 := by
  have hE : E.val < 1601536 := by omega
  have hrow : rowsP (ix1 (⟨E.val, hE⟩ : Fin 1601536)) = rows (ix1 E) := by
    rw [hr ⟨E.val, hE⟩]; exact dif_pos E.isLt
  have hcol : colsP (ix1 (⟨E.val, hE⟩ : Fin 1601536)) = cols (ix1 E) := by
    rw [hc ⟨E.val, hE⟩]; exact dif_pos E.isLt
  have hval : valsP (ix1 (⟨E.val, hE⟩ : Fin 1601536)) = vals (ix1 E) := by
    rw [hv ⟨E.val, hE⟩]; exact dif_pos E.isLt
  obtain ⟨h0, h1⟩ := hcols E
  have hmsg : messageP nodesP W colsP valsP ⟨E.val, hE⟩ o = message emb W cols vals E o := by
    rw [messageP_of_mem nodesP W colsP valsP ⟨E.val, hE⟩ o (cols (ix1 E)) (vals (ix1 E)) hcol hval h0 (by omega)]
    unfold message
    rw [denseP_eq_dense emb W nodesP hn _ (source cols E)
      (show (cols (ix1 E)).toInt.toNat = min (cols (ix1 E)).toInt.toNat 99999 from
        (Nat.min_eq_left (by omega)).symm) o]
  unfold termP
  rw [dif_pos hE, hrow, hmsg]

/-- The padded result below node 100 000 is the layer's result. -/
theorem padded_result_eq (emb : Nodes.Idx → EReal) (W : Weights.Idx → EReal) (rows cols : Edges.Idx → BitVec 32)
    (vals : Edges.Idx → EReal)
    (nodesP : NodesP.Idx → EReal) (rowsP colsP : EdgesP.Idx → BitVec 32) (valsP : EdgesP.Idx → EReal)
    (hn : ∀ (j : Fin 100352) (d : Fin 128), nodesP (ix2 j d) = if h : j.val < 100000 then emb (ix2 ⟨j.val, h⟩ d) else 0)
    (hr : ∀ E : Fin 1601536, rowsP (ix1 E) = if h : E.val < 1600000 then rows (ix1 ⟨E.val, h⟩) else 0#32)
    (hc : ∀ E : Fin 1601536, colsP (ix1 E) = if h : E.val < 1600000 then cols (ix1 ⟨E.val, h⟩) else 0#32)
    (hv : ∀ E : Fin 1601536, valsP (ix1 E) = if h : E.val < 1600000 then vals (ix1 ⟨E.val, h⟩) else 0)
    (hcols : ∀ E : Fin 1600000, 0 ≤ (cols (ix1 E)).toInt ∧ (cols (ix1 E)).toInt < 100000)
    (r : Fin 100000) (o : Fin 128) :
    resultP (messagesP nodesP W colsP valsP) rowsP (ix2 (⟨r.val, by omega⟩ : Fin 100352) o)
      = result emb W rows cols vals (ix2 r o) := by
  -- both sides are the leaky rectifier of a sum over the edges
  show leaky (∑ E : Fin 1601536,
        if (rowsP (ix1 E)).toInt = ((r.val : ℕ) : ℤ) then messageP nodesP W colsP valsP E o else 0)
      = leaky (∑ E : Fin 1600000,
        if (rows (ix1 E)).toInt = ((r.val : ℕ) : ℤ) then message emb W cols vals E o else 0)
  refine congrArg leaky ?_
  calc (∑ E : Fin 1601536,
          if (rowsP (ix1 E)).toInt = ((r.val : ℕ) : ℤ) then messageP nodesP W colsP valsP E o else 0)
      = ∑ E : Fin 1601536, termP nodesP W rowsP colsP valsP ((r.val : ℕ) : ℤ) o E.val :=
        Finset.sum_congr rfl fun E _ => (termP_val nodesP W rowsP colsP valsP _ o E).symm
    _ = ∑ E : Fin 1600000, termP nodesP W rowsP colsP valsP ((r.val : ℕ) : ℤ) o E.val :=
        Sums.sum_drop_padding _ (termP_padding nodesP W rowsP colsP valsP vals hv _ o)
    _ = ∑ E : Fin 1600000,
          if (rows (ix1 E)).toInt = ((r.val : ℕ) : ℤ) then message emb W cols vals E o else 0 :=
        Finset.sum_congr rfl fun E _ =>
          termP_argument emb W rows cols vals nodesP rowsP colsP valsP hn hr hc hv hcols _ o E

end Cert.PaddedLayer

end
-- ==== Proof.KernelIdeal.GatherTotal.lean ====
/-
  What the gather region leaves in the message array.

  Within edge chunk `e` the accumulator, after node block `n`, holds at row `a` the transformed row of the node that
  edge `4096 e + a`'s column index names if that node lies in the blocks `0 … n` (below `2048 (n + 1)`), and zero
  otherwise: the first block starts from the cleared accumulator, and each block adds the transformed row exactly
  when the column index falls in it — a sum over the block's 2048 positions with at most one term. After the last
  block, `n = 48`, that covers every padded node, and the row is scaled by the edge's value and written back as
  rows `4096 e … 4096 e + 4095` of the message array. The written-back blocks tile the array, so the array ends at
  the padded layer's messages.
-/
import proofs.«408857_j66305705115856_1_alg».proof.Proof.KernelIdeal.GatherData
import proofs.«408857_j66305705115856_1_alg».proof.Proof.KernelIdeal.GatherBlocks
import proofs.«408857_j66305705115856_1_alg».proof.Proof.KernelIdeal.GatherStep
import proofs.«408857_j66305705115856_1_alg».proof.Proof.Sums
import proofs.«408857_j66305705115856_1_alg».proof.Proof.PaddedLayer
import Idealize.ShloMosaic.Lib.ValueIdx
import Idealize.ShloMosaic.Lib.Pipeline.Value

set_option maxRecDepth 16384

noncomputable section

open scoped BigOperators

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The arrays by plain numbers

Edge numbers and node numbers as naturals, so that a chunk's or a block's position can be rewritten freely: the
column index of edge number `E` (zero past the padded list) and column `b` of node number `j`'s transformed row
(zero past the padded table). -/

/-- The column index of padded edge number `E`. -/
private def colW (E : ℕ) : BitVec 32 :=
  if h : E < 1601536 then (V c main_v1 : S1601536.Idx → BitVec 32) (ix1 (⟨E, h⟩ : Fin 1601536)) else 0#32

/-- Column `b` of padded node number `j`'s transformed row. -/
private def rowF (b : Fin 128) (j : ℕ) : EReal :=
  if h : j < 100352 then Cert.PaddedLayer.denseP (V c main_v0) (V c main_arg1) ⟨j, h⟩ b else 0

/-- What lies below `lo` and what lies in `[lo, hi)` make up what lies below `hi`. -/
private theorem below_add_hit (r : ℕ → EReal) (z : ℤ) (lo hi : ℕ) (h : lo ≤ hi) :
    (if 0 ≤ z ∧ z < (lo : ℤ) then r z.toNat else 0) + (if (lo : ℤ) ≤ z ∧ z < (hi : ℤ) then r z.toNat else 0)
      = if 0 ≤ z ∧ z < (hi : ℤ) then r z.toNat else 0 := by
  by_cases h1 : 0 ≤ z ∧ z < (lo : ℤ)
  · rw [if_pos h1, if_neg (by omega), if_pos (by omega), add_zero]
  · by_cases h2 : (lo : ℤ) ≤ z ∧ z < (hi : ℤ)
    · rw [if_neg h1, if_pos h2, if_pos (by omega), zero_add]
    · rw [if_neg h1, if_neg h2, if_neg (by omega), add_zero]

/-- Below the padded list's end the column index of edge number `E` is the array's entry. -/
private theorem colW_of_lt (E : ℕ) (h : E < 1601536) :
    colW V c E = (V c main_v1 : S1601536.Idx → BitVec 32) (ix1 (⟨E, h⟩ : Fin 1601536)) := by
  unfold colW
  exact dif_pos h

/-- Below the padded table's end node number `j`'s transformed row is the padded layer's. -/
private theorem rowF_of_lt (b : Fin 128) (j : ℕ) (h : j < 100352) :
    rowF V c b j = Cert.PaddedLayer.denseP (V c main_v0) (V c main_arg1) ⟨j, h⟩ b := by
  unfold rowF
  exact dif_pos h

/-- One point's step at entry `(a, b)`: the accumulator gains the source's transformed row exactly when the source
    lies in the point's node block. -/
private theorem gStep (n : ℕ) (hn : n < cfg0.N) (a : Fin 4096) (b : Fin 128) (s : Vec Ideal S4096x128 .f32) :
    k0_pay2 (F := Ideal) (grid0.coords ⟨n, hn⟩) (gEmb V c ⟨n, hn⟩) (gWts V c ⟨n, hn⟩) (gCols V c ⟨n, hn⟩) s (ix2 a b)
      = s (ix2 a b) + (if ((2048 * (n % 49) : ℕ) : ℤ) ≤ (colW V c (4096 * (n / 49) + a.val)).toInt
            ∧ (colW V c (4096 * (n / 49) + a.val)).toInt < ((2048 * (n % 49 + 1) : ℕ) : ℤ)
          then rowF V c b (colW V c (4096 * (n / 49) + a.val)).toInt.toNat else 0) := by
  have ht : n < 19159 := lt_of_lt_of_eq hn N_0
  have hE : 4096 * (n / 49) + a.val < 1601536 := by omega
  refine (gatherStep_apply (grid0.coords ⟨n, hn⟩) (gEmb V c ⟨n, hn⟩) (gWts V c ⟨n, hn⟩) (gCols V c ⟨n, hn⟩) s a b).trans ?_
  refine congrArg (fun x => s (ix2 a b) + x) ?_
  rw [← Cert.Sums.sum_block_hit (rowF V c b) (colW V c (4096 * (n / 49) + a.val)).toInt (n % 49)]
  refine Finset.sum_congr rfl fun k _ => ?_
  have hc : gCols V c ⟨n, hn⟩ (ix1 a) = colW V c (4096 * (n / 49) + a.val) :=
    (gCols_apply V c ⟨n, hn⟩ a).trans (colW_of_lt V c _ hE).symm
  have hi : ((grid0.coords ⟨n, hn⟩) 1).val = n % 49 := gInner ⟨n, hn⟩
  have hk : 2048 * (n % 49) + k.val < 100352 := by omega
  have hr : (∑ d : Fin 128, gEmb V c ⟨n, hn⟩ (ix2 k d) * gWts V c ⟨n, hn⟩ (ix2 b d))
      = rowF V c b (2048 * (n % 49) + k.val) := by
    rw [rowF_of_lt V c b _ hk]
    unfold Cert.PaddedLayer.denseP
    refine Finset.sum_congr rfl fun d _ => ?_
    exact congrArg₂ (· * ·) (gEmb_apply V c ⟨n, hn⟩ k d) (congrFun (gWts_eq V c ⟨n, hn⟩) (ix2 b d))
  rw [hc, hi, hr]

/-- The accumulator after point number `n`, entry `(a, b)`, by induction along the points: a first block starts from
    the cleared accumulator, any other from what the point before left, in the same edge chunk one node block
    back. -/
private theorem gAcc_nat (a : Fin 4096) (b : Fin 128) : ∀ (n : ℕ) (hn : n < cfg0.N),
    gAccAt V c n hn (ix2 a b)
      = if 0 ≤ (colW V c (4096 * (n / 49) + a.val)).toInt
            ∧ (colW V c (4096 * (n / 49) + a.val)).toInt < ((2048 * (n % 49 + 1) : ℕ) : ℤ)
        then rowF V c b (colW V c (4096 * (n / 49) + a.val)).toInt.toNat else 0 := by
  intro n
  induction n using Nat.strong_induction_on with
  | _ n ih =>
    intro hn
    rw [← below_add_hit (rowF V c b) (colW V c (4096 * (n / 49) + a.val)).toInt
      (2048 * (n % 49)) (2048 * (n % 49 + 1)) (by omega)]
    by_cases h : n % 49 = 0
    · refine (congrFun (gAccAt_first V c ⟨n, hn⟩ h) (ix2 a b)).trans ?_
      refine (gStep V c n hn a b _).trans ?_
      rw [gatherCleared_apply]
      congr 1
      exact (if_neg (by omega)).symm
    · refine (congrFun (gAccAt_next V c ⟨n, hn⟩ h) (ix2 a b)).trans ?_
      refine (gStep V c n hn a b _).trans ?_
      have e1 : (n - 1) / 49 = n / 49 := by omega
      have e2 : (n - 1) % 49 + 1 = n % 49 := by omega
      congr 1
      refine (ih (n - 1) (by omega) _).trans ?_
      rw [e1, e2]

/-- The accumulator after point `t`, entry `(a, b)`: the source's transformed row if the source lies in the node
    blocks done so far, else zero. -/
theorem gAccAt_apply (t : Fin cfg0.N) (a : Fin 4096) (b : Fin 128) :
    gAccAt V c t.val t.isLt (ix2 a b)
      = if h : 0 ≤ ((V c main_v1 : S1601536.Idx → BitVec 32) (ix1 (⟨4096 * (t.val / 49) + a.val, by have h : t.val < 19159 := lt_of_lt_of_eq t.isLt N_0; omega⟩ : Fin 1601536))).toInt
              ∧ ((V c main_v1 : S1601536.Idx → BitVec 32) (ix1 (⟨4096 * (t.val / 49) + a.val, by have h : t.val < 19159 := lt_of_lt_of_eq t.isLt N_0; omega⟩ : Fin 1601536))).toInt < ((2048 * (t.val % 49 + 1) : ℕ) : ℤ)
        then Cert.PaddedLayer.denseP (V c main_v0) (V c main_arg1)
          ⟨((V c main_v1 : S1601536.Idx → BitVec 32) (ix1 (⟨4096 * (t.val / 49) + a.val, by have h : t.val < 19159 := lt_of_lt_of_eq t.isLt N_0; omega⟩ : Fin 1601536))).toInt.toNat, by omega⟩ b
        else 0 := by
  have ht : t.val < 19159 := lt_of_lt_of_eq t.isLt N_0
  have hE : 4096 * (t.val / 49) + a.val < 1601536 := by omega
  refine (gAcc_nat V c a b t.val t.isLt).trans ?_
  rw [colW_of_lt V c _ hE]
  split_ifs with hP
  · exact rowF_of_lt V c b _ (by omega)
  · rfl

/-- The message array after the gather region: the padded layer's messages. -/
theorem gather_total :
    ((gDat V c).arrAt 4 cfg0.N : S1601536x128.Idx → EReal)
      = Cert.PaddedLayer.messagesP (V c main_v0) (V c main_arg1) (V c main_v1) (V c main_v3) := by
  refine (gDat V c).arrAt_eq_of_cover 4
    (Cert.PaddedLayer.messagesP (V c main_v0) (V c main_arg1) (V c main_v1) (V c main_v3)) (fun t hf => ?_) gOut_cover
  have h48 : t.val % 49 = 48 := (gOut_flush_iff t).mp hf
  have ht : t.val < 19159 := lt_of_lt_of_eq t.isLt N_0
  show ((gDat V c).after 4 t : Vec Ideal S4096x128 .f32)
    = (((cfg0.win 4).blk t).view.read (Elt Ideal)
        (Cert.PaddedLayer.messagesP (V c main_v0) (V c main_arg1) (V c main_v1) (V c main_v3)) : Vec Ideal S4096x128 .f32)
  rw [gDat_after4]
  funext j
  obtain ⟨a, b, rfl⟩ : ∃ (a : Fin 4096) (b : Fin 128), j = ix2 a b := ⟨j 0, j 1, eq_ix2 j⟩
  refine (gatherOut_apply (gAccAt V c t.val t.isLt) (gVals V c t) a b).trans ?_
  refine Eq.trans ?_ (gOut_read (F := Ideal)
    (Cert.PaddedLayer.messagesP (V c main_v0) (V c main_arg1) (V c main_v1) (V c main_v3)) t a b).symm
  rw [gAccAt_apply V c t a b, show gVals V c t (ix1 a) = _ from gVals_apply V c t a]
  show _ = Cert.PaddedLayer.messageP (V c main_v0) (V c main_arg1) (V c main_v1) (V c main_v3)
    (⟨4096 * (t.val / 49) + a.val, by omega⟩ : Fin 1601536) b
  unfold Cert.PaddedLayer.messageP
  refine congrArg (· * _) ?_
  by_cases hP : 0 ≤ ((V c main_v1 : S1601536.Idx → BitVec 32) (ix1 (⟨4096 * (t.val / 49) + a.val, by omega⟩ : Fin 1601536))).toInt
      ∧ ((V c main_v1 : S1601536.Idx → BitVec 32) (ix1 (⟨4096 * (t.val / 49) + a.val, by omega⟩ : Fin 1601536))).toInt < 100352
  · rw [dif_pos hP, dif_pos ⟨hP.1, by omega⟩]
  · rw [dif_neg hP, dif_neg (fun h => hP ⟨h.1, by omega⟩)]

end Cert.KernelIdeal.Layer

end
-- ==== Proof.KernelIdeal.ScatterStep.lean ====
/-
  The scatter body's arithmetic on the extended reals, one entry at a time.

  At node block `r` and one chunk of 4096 edges the body compares each edge's row index, less the block's first
  node `2048 r`, with the positions `0 … 2047`, and multiplies the TRANSPOSE of the resulting matrix of ones and
  zeros by the chunk's messages: row `k` of the product is the sum of the messages of the chunk's edges whose row
  index, read signed, is `2048 r + k`. The product is added to the accumulator. At the last chunk the leaky
  rectifier of the accumulator is written out.
-/
import proofs.«408857_j66305705115856_1_alg».proof.Proof.Gen.KernelIdeal.Skeleton
import proofs.«408857_j66305705115856_1_alg».proof.Proof.Propagation
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Layer

open Idealize.ShloMosaic Idealize.ShloMosaic.ValueIdx
open Cert.KernelIdeal Cert.KernelIdeal.Gen

/-! ## Words -/

/-- For a block number below 49 and a position below 2048 the wrapping 32-bit comparison the body makes says
    exactly that the word, read signed, is the node `2048 r + k`: both sides name a number below `2 ^ 31`. -/
private theorem word_eq_iff (w : BitVec 32) (r k : ℕ) (hr : r < 49) (hk : k < 2048) :
    w - BitVec.ofNat 32 r * 2048#32 = BitVec.ofNat 32 k ↔ w.toInt = ((2048 * r + k : ℕ) : ℤ) := by
  have hw : w.toNat < 2 ^ 32 := w.isLt
  have hI := BitVec.toInt_eq_toNat_cond w
  constructor
  · intro h
    have h' := congrArg BitVec.toNat h
    simp only [BitVec.toNat_sub, BitVec.toNat_mul, BitVec.toNat_ofNat] at h'
    split at hI <;> omega
  · intro h
    apply BitVec.eq_of_toNat_eq
    simp only [BitVec.toNat_sub, BitVec.toNat_mul, BitVec.toNat_ofNat]
    split at hI <;> omega

/-- The comparison bit, widened and converted, is the indicator of equality. -/
private theorem sitofp_cmpi_eq (x y : BitVec 32) :
    (FloatOps.sitofp (F := Ideal) .f32 ((IntOp.cmpi .eq x y).setWidth 32) : EReal) = if x = y then 1 else 0 := by
  by_cases h : x = y
  · subst h
    rw [if_pos rfl]
    show ((((BitVec.ofBool (x == x)).setWidth 32).toInt : ℝ) : EReal) = 1
    rw [beq_self_eq_true]
    have e : ((BitVec.ofBool true).setWidth 32).toInt = 1 := by decide
    rw [e]; simp
  · rw [if_neg h]
    show ((((BitVec.ofBool (x == y)).setWidth 32).toInt : ℝ) : EReal) = 0
    rw [beq_eq_false_iff_ne.mpr h]
    have e : ((BitVec.ofBool false).setWidth 32).toInt = 0 := by decide
    rw [e]; simp

/-! ## Elementwise integer operations at an index (definitional) -/

private theorem cmpi_apply {s : Shape} {w : ℕ} (p : CmpIPredicate) (x y : IVec s w) (i : s.Idx) :
    cmpi p x y i = IntOp.cmpi p (x i) (y i) := rfl
private theorem subi_apply {s : Shape} {w : ℕ} (x y : IVec s w) (i : s.Idx) :
    subi x y i = IntOp.subi (x i) (y i) := rfl

/-! ## Two column layout operations at an index -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices -/

/-- The product contracts one axis. -/
private theorem contr_rank : dot_S4096x2048_S4096x128_S2048x128_0_0_1_1_n_n.contr.rank = 1 := rfl

/-- On its contracted first axis the left operand's index is the contraction position … -/
private theorem lhs_axis0 (j : S2048x128.Idx) (q : dot_S4096x2048_S4096x128_S2048x128_0_0_1_1_n_n.contr.Idx) :
    (dot_S4096x2048_S4096x128_S2048x128_0_0_1_1_n_n.lhsIdx j q 0).val = (q ⟨0, contr_rank ▸ Nat.one_pos⟩).val :=
  DotDims.lhsIdx_val_of_single _ rfl j q

/-- … and so is the right operand's. -/
private theorem rhs_axis0 (j : S2048x128.Idx) (q : dot_S4096x2048_S4096x128_S2048x128_0_0_1_1_n_n.contr.Idx) :
    (dot_S4096x2048_S4096x128_S2048x128_0_0_1_1_n_n.rhsIdx j q 0).val = (q ⟨0, contr_rank ▸ Nat.one_pos⟩).val :=
  DotDims.rhsIdx_val_of_single _ rfl j q

/-- On its second axis the left operand's index is the output entry's row … -/
private theorem lhs_axis1 (j : S2048x128.Idx) (q : dot_S4096x2048_S4096x128_S2048x128_0_0_1_1_n_n.contr.Idx) :
    (dot_S4096x2048_S4096x128_S2048x128_0_0_1_1_n_n.lhsIdx j q 1).val = (j 0).val := by
  unfold DotDims.lhsIdx
  rw [dif_neg (show ¬(1 : Fin S4096x2048.rank) ∈ dot_S4096x2048_S4096x128_S2048x128_0_0_1_1_n_n.lhsBatch by decide),
    dif_pos (show (1 : Fin S4096x2048.rank) ∈ dot_S4096x2048_S4096x128_S2048x128_0_0_1_1_n_n.lhsNonContracting by decide)]
  rfl

/-- … and the right operand's is the output entry's column. -/
private theorem rhs_axis1 (j : S2048x128.Idx) (q : dot_S4096x2048_S4096x128_S2048x128_0_0_1_1_n_n.contr.Idx) :
    (dot_S4096x2048_S4096x128_S2048x128_0_0_1_1_n_n.rhsIdx j q 1).val = (j 1).val := by
  unfold DotDims.rhsIdx
  rw [dif_neg (show ¬(1 : Fin S4096x128.rank) ∈ dot_S4096x2048_S4096x128_S2048x128_0_0_1_1_n_n.rhsBatch by decide),
    dif_pos (show (1 : Fin S4096x128.rank) ∈ dot_S4096x2048_S4096x128_S2048x128_0_0_1_1_n_n.rhsNonContracting by decide)]
  rfl

/-- At output entry `(k, b)` and contraction position `a` the left operand is read at `(a, k)` … -/
private theorem lhsIdx_eq (k : Fin 2048) (b : Fin 128) (a : Fin 4096) :
    dot_S4096x2048_S4096x128_S2048x128_0_0_1_1_n_n.lhsIdx (ix2 k b)
      ((contrEquiv1 dot_S4096x2048_S4096x128_S2048x128_0_0_1_1_n_n 4096 rfl rfl).symm a) = ix2 a k := by
  funext ax
  apply Fin.ext
  match ax with
  | ⟨0, _⟩ => exact (lhs_axis0 _ _).trans (contrEquiv1_symm_val _ 4096 rfl rfl a)
  | ⟨1, _⟩ => exact lhs_axis1 _ _

/-- … and the right operand at `(a, b)`: both operands are contracted along their first axis. -/
private theorem rhsIdx_eq (k : Fin 2048) (b : Fin 128) (a : Fin 4096) :
    dot_S4096x2048_S4096x128_S2048x128_0_0_1_1_n_n.rhsIdx (ix2 k b)
      ((contrEquiv1 dot_S4096x2048_S4096x128_S2048x128_0_0_1_1_n_n 4096 rfl rfl).symm a) = ix2 a b := by
  funext ax
  apply Fin.ext
  match ax with
  | ⟨0, _⟩ => exact (rhs_axis0 _ _).trans (contrEquiv1_symm_val _ 4096 rfl rfl a)
  | ⟨1, _⟩ => exact rhs_axis1 _ _

/-! ## The three payloads -/

/-- The cleared accumulator holds zero everywhere. -/
theorem scatterCleared_apply (j : S2048x128.Idx) : k1_pay1 (F := Ideal) j = 0 := by
  unfold k1_pay1
  simp only [shapeCast_self]
  exact Ideal.ofBits_zero_f32

/-- One edge chunk's contribution: entry `(k, b)` of the accumulator gains column `b` of every message of the chunk
    whose edge's row index names position `k` of the block. -/
theorem scatterStep_apply (i : grid1.Coords) (y1 : Vec Ideal S4096 .i32) (y0 : Vec Ideal S4096x128 .f32)
    (s : Vec Ideal S2048x128 .f32) (k : Fin 2048) (b : Fin 128) :
    k1_pay2 (F := Ideal) i y1 y0 s (ix2 k b)
      = s (ix2 k b) + ∑ a : Fin 4096,
          (if (y1 (ix1 a)).toInt = ((2048 * (i 0).val + k.val : ℕ) : ℤ) then y0 (ix2 a b) else 0) := by
  have hr : (i 0).val < 49 := (i 0).isLt
  unfold k1_pay2
  simp only [shapeCast_self]
  rw [addf_apply]
  congr 1
  simp only [matmul]
  rw [Ideal.matmul_constant_zero_apply]
  refine (Equiv.sum_comp (contrEquiv1 dot_S4096x2048_S4096x128_S2048x128_0_0_1_1_n_n 4096 rfl rfl).symm _).symm.trans ?_
  refine Finset.sum_congr rfl fun a _ => ?_
  rw [lhsIdx_eq k b a, rhsIdx_eq k b a]
  rw [truncf_apply, truncf_apply, sitofp_apply, extui_apply, cmpi_apply, broadcastTo_a1_ab_apply,
    shapeCast_a_a1_apply, subi_apply, broadcast_apply, broadcastTo_1b_ab_apply, iota_single_apply, sitofp_cmpi_eq]
  show (if y1 (ix1 a) - BitVec.ofNat 32 (i 0).val * 2048#32 = BitVec.ofNat 32 k.val then (1 : EReal) else 0)
      * y0 (ix2 a b) = _
  by_cases hc : (y1 (ix1 a)).toInt = ((2048 * (i 0).val + k.val : ℕ) : ℤ)
  · rw [if_pos hc, if_pos ((word_eq_iff _ _ _ hr k.isLt).mpr hc), one_mul]
  · rw [if_neg hc, if_neg (fun h => hc ((word_eq_iff _ _ _ hr k.isLt).mp h)), zero_mul]

/-- The write-out: the leaky rectifier of each accumulator entry. -/
theorem scatterOut_apply (s : Vec Ideal S2048x128 .f32) (k : Fin 2048) (b : Fin 128) :
    k1_pay3 (F := Ideal) s (ix2 k b) = Cert.Propagation.leaky (s (ix2 k b)) := by
  unfold k1_pay3 Cert.Propagation.leaky
  rfl

end Cert.KernelIdeal.Layer

end
-- ==== Proof.KernelIdeal.ScatterTotal.lean ====
/-
  What the scatter region leaves in the padded result array.

  Within node block `r` the accumulator, after edge chunk `e`, holds at row `k` the sum of the messages of the edges
  below `4096 (e + 1)` whose row index, read signed, is `2048 r + k`: the first chunk starts from the cleared
  accumulator and each chunk adds its own edges' messages. After the last chunk, `e = 390`, that is the sum over
  all 1 601 536 padded edges, whose leaky rectifier is written back as rows `2048 r … 2048 r + 2047` of the padded
  result array. The written-back blocks tile the array, so the array ends at the padded layer's result.
-/
import proofs.«408857_j66305705115856_1_alg».proof.Proof.KernelIdeal.ScatterData
import proofs.«408857_j66305705115856_1_alg».proof.Proof.KernelIdeal.ScatterBlocks
import proofs.«408857_j66305705115856_1_alg».proof.Proof.KernelIdeal.ScatterStep
import proofs.«408857_j66305705115856_1_alg».proof.Proof.Sums
import proofs.«408857_j66305705115856_1_alg».proof.Proof.PaddedLayer
import Idealize.ShloMosaic.Lib.ValueIdx
import Idealize.ShloMosaic.Lib.Pipeline.Value

set_option maxRecDepth 16384

noncomputable section

open scoped BigOperators

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## One padded edge's term, and one chunk's contribution -/

/-- What padded edge `E` adds to row `k` of node block `r`, in column `b`: its message there if its row index, read
    signed, is the node `2048 r + k`, else nothing; nothing from `1 601 536` on, where there is no edge. -/
private def term (r : ℕ) (k : Fin 2048) (b : Fin 128) (E : ℕ) : EReal :=
  if h : E < 1601536 then
    (if ((V c main_v2 : S1601536.Idx → BitVec 32) (ix1 (⟨E, h⟩ : Fin 1601536))).toInt = ((2048 * r + k.val : ℕ) : ℤ)
      then (V c main_v4 : S1601536x128.Idx → EReal) (ix2 (⟨E, h⟩ : Fin 1601536) b) else 0)
  else 0

/-- ONE POINT'S STEP in the whole arrays' coordinates: entry `(k, b)` of the accumulator gains the terms of the
    4096 edges of the point's chunk, `4096 (t % 391) … 4096 (t % 391) + 4095`, for the point's node block `t / 391`. -/
private theorem step_at (t : Fin cfg1.N) (s : Vec Ideal S2048x128 .f32) (k : Fin 2048) (b : Fin 128) :
    k1_pay2 (F := Ideal) (grid1.coords t) (sRows V c t) (sMsgs V c t) s (ix2 k b)
      = s (ix2 k b) + ∑ a : Fin 4096, term V c (t.val / 391) k b (4096 * (t.val % 391) + a.val) := by
  refine (scatterStep_apply (grid1.coords t) (sRows V c t) (sMsgs V c t) s k b).trans ?_
  refine congrArg (s (ix2 k b) + ·) (Finset.sum_congr rfl fun a _ => ?_)
  have hlt : 4096 * (t.val % 391) + a.val < 1601536 := by omega
  have e1 : sRows V c t (ix1 a)
      = (V c main_v2 : S1601536.Idx → BitVec 32) (ix1 (⟨4096 * (t.val % 391) + a.val, hlt⟩ : Fin 1601536)) :=
    sRows_apply V c t a
  have e0 : sMsgs V c t (ix2 a b)
      = (V c main_v4 : S1601536x128.Idx → EReal) (ix2 (⟨4096 * (t.val % 391) + a.val, hlt⟩ : Fin 1601536) b) :=
    sMsgs_apply V c t a b
  rw [e1, e0, sOuter t]
  unfold term
  rw [dif_pos hlt]

/-- THE ACCUMULATOR AS A SUM OVER CHUNKS: after point `n` it holds, at `(k, b)`, the contributions of the chunks
    `0 … n % 391` of node block `n / 391`. By induction on the point: a first chunk starts from the cleared
    accumulator, which holds zero; any other point adds its chunk to what the point before left, which is in the same
    node block, one chunk earlier. -/
private theorem acc_chunks (k : Fin 2048) (b : Fin 128) : ∀ (n : ℕ) (hn : n < cfg1.N),
    sAccAt V c n hn (ix2 k b)
      = ∑ e ∈ Finset.range (n % 391 + 1), ∑ a : Fin 4096, term V c (n / 391) k b (4096 * e + a.val) := by
  intro n
  induction n using Nat.strong_induction_on with
  | _ n ih =>
    intro hn
    by_cases h : n % 391 = 0
    · refine (congrFun (sAccAt_first V c ⟨n, hn⟩ h) (ix2 k b)).trans ?_
      refine (step_at V c ⟨n, hn⟩ _ k b).trans ?_
      rw [scatterCleared_apply, zero_add]
      show ∑ a : Fin 4096, term V c (n / 391) k b (4096 * (n % 391) + a.val) = _
      rw [h, Finset.sum_range_one]
    · have hpos : 0 < n := Nat.pos_of_ne_zero fun e => h (by rw [e])
      have hn' : n - 1 < cfg1.N := Nat.lt_of_le_of_lt (Nat.sub_le _ _) hn
      refine (congrFun (sAccAt_next V c ⟨n, hn⟩ h) (ix2 k b)).trans ?_
      refine (step_at V c ⟨n, hn⟩ _ k b).trans ?_
      show sAccAt V c (n - 1) hn' (ix2 k b) + ∑ a : Fin 4096, term V c (n / 391) k b (4096 * (n % 391) + a.val) = _
      rw [ih (n - 1) (by omega) hn', show (n - 1) / 391 = n / 391 from by omega,
        show (n - 1) % 391 + 1 = n % 391 from by omega, Finset.sum_range_succ]

/-- The accumulator after point `t`, entry `(k, b)`: the messages, in column `b`, of the edges of the chunks done so
    far whose row index names position `k` of the node block. -/
theorem sAccAt_apply (t : Fin cfg1.N) (k : Fin 2048) (b : Fin 128) :
    sAccAt V c t.val t.isLt (ix2 k b)
      = ∑ E ∈ Finset.range (4096 * (t.val % 391 + 1)),
          ((if h : E < 1601536 then
            (if ((V c main_v2 : S1601536.Idx → BitVec 32) (ix1 (⟨E, h⟩ : Fin 1601536))).toInt = ((2048 * (t.val / 391) + k.val : ℕ) : ℤ)
              then (V c main_v4 : S1601536x128.Idx → EReal) (ix2 (⟨E, h⟩ : Fin 1601536) b) else 0)
           else 0) : EReal) := by
  refine (acc_chunks V c k b t.val t.isLt).trans ?_
  exact Cert.Sums.sum_chunks_upto (term V c (t.val / 391) k b) (t.val % 391)

/-- WHAT A LAST CHUNK WRITES BACK is the point's block of the padded layer's result: the leaky rectifier of the
    accumulator after all 391 chunks, whose sum runs over every padded edge. -/
private theorem flushed_eq (t : Fin cfg1.N) (h390 : t.val % 391 = 390) :
    (k1_pay3 (F := Ideal) (sAccAt V c t.val t.isLt) : Vec Ideal S2048x128 .f32)
      = (((cfg1.win 2).blk t).view.read (Elt Ideal)
          (Cert.PaddedLayer.resultP (V c main_v4) (V c main_v2) : Vec Ideal S100352x128 .f32) : Vec Ideal S2048x128 .f32) := by
  funext j
  obtain ⟨k, b, rfl⟩ : ∃ (k : Fin 2048) (b : Fin 128), j = ix2 k b := ⟨j 0, j 1, eq_ix2 j⟩
  refine (scatterOut_apply _ k b).trans ?_
  refine Eq.trans ?_ (sOut_read (F := Ideal) (Cert.PaddedLayer.resultP (V c main_v4) (V c main_v2) : Vec Ideal S100352x128 .f32) t k b).symm
  unfold Cert.PaddedLayer.resultP
  refine congrArg Cert.Propagation.leaky ?_
  rw [sAccAt_apply V c t k b, h390, show 4096 * (390 + 1) = 1601536 from rfl, ← Fin.sum_univ_eq_sum_range]
  refine Finset.sum_congr rfl fun E _ => ?_
  rw [dif_pos E.isLt]

/-- The padded result array after the scatter region: the padded layer's result over the message array it read. -/
theorem scatter_total :
    ((sDat V c).arrAt 2 cfg1.N : S100352x128.Idx → EReal)
      = Cert.PaddedLayer.resultP (V c main_v4) (V c main_v2) := by
  refine Pipeline.Dat.arrAt_eq_of_cover (sDat V c) 2 (Cert.PaddedLayer.resultP (V c main_v4) (V c main_v2))
    (fun t hf => ?_) (fun i => sOut_cover i)
  have h390 : t.val % 391 = 390 := (sOut_flush_iff t).mp hf
  show (cfg1.win 2).cut (grid1.coords t) ((sDat V c).after 2 t) = _
  rw [sDat_after2]
  exact flushed_eq V c t h390

end Cert.KernelIdeal.Layer

end
-- ==== Proof.KernelIdeal.Padded.lean ====
/-
  The host operations around the two regions, read at an index.

  Before the regions the node table is padded with 352 rows of zeros, to 100 352 rows, and each of the three edge
  lists with 1 536 entries of zero, to 1 601 536 entries: below the original extent a padded array holds the
  argument's entry, from there on zero. The weight matrix is passed as it is. After the regions the result is the
  first 100 000 rows of the padded result array.
-/
import proofs.«408857_j66305705115856_1_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Layer

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## A pad at the end of the first axis, read at an index -/

/-- A table padded with `p` rows after its last, read at `(j, d)`: the table's entry while `j` is a row of the table,
    the padding value from there on. -/
private theorem pad_rows_apply {α : Type} {n n' k p : Nat} {u : Shape} (x : (⟨2, ![n, k]⟩ : Shape).Idx → α) (v : u.Idx → α)
    (h : (⟨2, ![n, k]⟩ : Shape).Pads ![0, 0] ![p, 0] ![0, 0] ⟨2, ![n', k]⟩) (hu : 0 < u.numel) (j : Fin n') (d : Fin k) :
    pad ⟨2, ![n', k]⟩ ![0, 0] ![p, 0] ![0, 0] x v h hu (ix2 j d)
      = if hj : j.val < n then x (ix2 ⟨j.val, hj⟩ d) else v (Shape.Idx.first hu) := by
  by_cases hj : j.val < n
  · rw [dif_pos hj]
    refine pad_apply_of_inside _ _ _ x v h hu (ix2 j d) (ix2 ⟨j.val, hj⟩ d) fun a => ?_
    match a with
    | ⟨0, _⟩ => show j.val = 0 + j.val * (0 + 1); omega
    | ⟨1, _⟩ => show d.val = 0 + d.val * (0 + 1); omega
  · rw [dif_neg hj]
    refine pad_apply_of_not_inside _ _ _ x v h hu (ix2 j d) ⟨0, Nat.zero_lt_two⟩ fun hin => hj ?_
    have h3 : (j.val - 0) / (0 + 1) < n := hin.2.2
    omega

/-- A list padded with `p` entries after its last, read at `E`: the list's entry while `E` is a position of the list,
    the padding value from there on. -/
private theorem pad_tail_apply {α : Type} {n n' p : Nat} {u : Shape} (x : (⟨1, ![n]⟩ : Shape).Idx → α) (v : u.Idx → α)
    (h : (⟨1, ![n]⟩ : Shape).Pads ![0] ![p] ![0] ⟨1, ![n']⟩) (hu : 0 < u.numel) (E : Fin n') :
    pad ⟨1, ![n']⟩ ![0] ![p] ![0] x v h hu (ix1 E)
      = if hE : E.val < n then x (ix1 ⟨E.val, hE⟩) else v (Shape.Idx.first hu) := by
  by_cases hE : E.val < n
  · rw [dif_pos hE]
    refine pad_apply_of_inside _ _ _ x v h hu (ix1 E) (ix1 ⟨E.val, hE⟩) fun a => ?_
    match a with
    | ⟨0, _⟩ => show E.val = 0 + E.val * (0 + 1); omega
  · rw [dif_neg hE]
    refine pad_apply_of_not_inside _ _ _ x v h hu (ix1 E) ⟨0, Nat.zero_lt_one⟩ fun hin => hE ?_
    have h3 : (E.val - 0) / (0 + 1) < n := hin.2.2
    omega

/-- The integer zero, converted, is the float zero: what every float padding holds. -/
private theorem padF_zero (i : S_.Idx) : (sitofp .f32 (constantI S_ 32 0#32) : FVec Ideal S_ .f32) i = 0 := by
  show ((((0#32 : BitVec 32).toInt : ℤ) : ℝ) : EReal) = 0
  simp

/-! ## What the four pads wrote -/

/-- The padded node table is the argument padded with the converted zero: no later stretch writes it. -/
private theorem nodes_eq : (Gen.V8 m c main_v0 : S100352x128.Idx → EReal)
    = pad S100352x128 ![0, 0] ![352, 0] ![0, 0] (m ((c : Thread nD τ).loc main_arg0) : S100000x128.Idx → EReal)
        (sitofp .f32 (constantI S_ 32 0#32) : FVec Ideal S_ .f32) Gen.pads_S100000x128_S100352x128_03520_000 Gen.h_S_ := by
  rw [Gen.V8_of m c main_v0 (by decide), Gen.V7_of m c main_v0 (by decide), Gen.V6_of m c main_v0 (by decide),
    Gen.V5_of m c main_v0 (by decide), Gen.V4_of m c main_v0 (by decide), Gen.V3_of m c main_v0 (by decide)]
  dsimp only [Gen.V2, Gen.V1, Gen.V0, Gen.hostOps0_1, Gen.hostOps0]
  after_results
  rfl

/-- The padded column indices are the argument padded with the constant zero. -/
private theorem cols_eq : (Gen.V8 m c main_v1 : S1601536.Idx → BitVec 32)
    = pad S1601536 ![0] ![1536] ![0] (m ((c : Thread nD τ).loc main_arg3) : S1600000.Idx → BitVec 32)
        (constantI S_ 32 0#32) Gen.pads_S1600000_S1601536_015360 Gen.h_S_ := by
  rw [Gen.V8_of m c main_v1 (by decide), Gen.V7_of m c main_v1 (by decide), Gen.V6_of m c main_v1 (by decide),
    Gen.V5_of m c main_v1 (by decide)]
  dsimp only [Gen.V4, Gen.V3, Gen.V2, Gen.V1, Gen.V0, Gen.hostOps0_3, Gen.hostOps0_2, Gen.hostOps0_1, Gen.hostOps0]
  after_results
  rfl

/-- The padded row indices are the argument padded with the constant zero. -/
private theorem rows_eq : (Gen.V8 m c main_v2 : S1601536.Idx → BitVec 32)
    = pad S1601536 ![0] ![1536] ![0] (m ((c : Thread nD τ).loc main_arg2) : S1600000.Idx → BitVec 32)
        (constantI S_ 32 0#32) Gen.pads_S1600000_S1601536_015360 Gen.h_S_ := by
  rw [Gen.V8_of m c main_v2 (by decide), Gen.V7_of m c main_v2 (by decide)]
  dsimp only [Gen.V6, Gen.V5, Gen.V4, Gen.V3, Gen.V2, Gen.V1, Gen.V0, Gen.hostOps0_5, Gen.hostOps0_4, Gen.hostOps0_3,
    Gen.hostOps0_2, Gen.hostOps0_1, Gen.hostOps0]
  after_results
  rfl

/-- The padded edge values are the argument padded with the converted zero. -/
private theorem vals_eq : (Gen.V8 m c main_v3 : S1601536.Idx → EReal)
    = pad S1601536 ![0] ![1536] ![0] (m ((c : Thread nD τ).loc main_arg4) : S1600000.Idx → EReal)
        (sitofp .f32 (constantI S_ 32 0#32) : FVec Ideal S_ .f32) Gen.pads_S1600000_S1601536_015360 Gen.h_S_ := by
  dsimp only [Gen.V8, Gen.V7, Gen.V6, Gen.V5, Gen.V4, Gen.V3, Gen.V2, Gen.V1, Gen.V0, Gen.hostOps0_7, Gen.hostOps0_6,
    Gen.hostOps0_5, Gen.hostOps0_4, Gen.hostOps0_3, Gen.hostOps0_2, Gen.hostOps0_1, Gen.hostOps0]
  after_results
  rfl

/-! ## The arrays as the regions find them -/

/-- The padded node table as the gather region finds it. -/
theorem entry_nodes (j : Fin 100352) (d : Fin 128) :
    (Gen.V8 m c main_v0 : S100352x128.Idx → EReal) (ix2 j d)
      = if h : j.val < 100000 then (m ((c : Thread nD τ).loc main_arg0) : S100000x128.Idx → EReal) (ix2 ⟨j.val, h⟩ d) else (0 : EReal) := by
  rw [nodes_eq m c, pad_rows_apply]
  by_cases hj : j.val < 100000
  · rw [dif_pos hj, dif_pos hj]
  · rw [dif_neg hj, dif_neg hj]; exact padF_zero _

/-- The weights as the gather region finds them. -/
theorem entry_weights : Gen.V8 m c main_arg1 = m ((c : Thread nD τ).loc main_arg1) := by
  exact (Gen.V8_of m c main_arg1 (by decide)).trans <| (Gen.V7_of m c main_arg1 (by decide)).trans <|
    (Gen.V6_of m c main_arg1 (by decide)).trans <| (Gen.V5_of m c main_arg1 (by decide)).trans <|
    (Gen.V4_of m c main_arg1 (by decide)).trans <| (Gen.V3_of m c main_arg1 (by decide)).trans <|
    (Gen.V2_of m c main_arg1 (by decide)).trans <| (Gen.V1_of m c main_arg1 (by decide)).trans rfl

/-- The padded column indices as the gather region finds them. -/
theorem entry_cols (E : Fin 1601536) :
    (Gen.V8 m c main_v1 : S1601536.Idx → BitVec 32) (ix1 E)
      = if h : E.val < 1600000 then (m ((c : Thread nD τ).loc main_arg3) : S1600000.Idx → BitVec 32) (ix1 ⟨E.val, h⟩) else 0#32 := by
  rw [cols_eq m c, pad_tail_apply]
  rfl

/-- The padded row indices as the regions find them. -/
theorem entry_rows (E : Fin 1601536) :
    (Gen.V8 m c main_v2 : S1601536.Idx → BitVec 32) (ix1 E)
      = if h : E.val < 1600000 then (m ((c : Thread nD τ).loc main_arg2) : S1600000.Idx → BitVec 32) (ix1 ⟨E.val, h⟩) else 0#32 := by
  rw [rows_eq m c, pad_tail_apply]
  rfl

/-- The padded edge values as the gather region finds them. -/
theorem entry_vals (E : Fin 1601536) :
    (Gen.V8 m c main_v3 : S1601536.Idx → EReal) (ix1 E)
      = if h : E.val < 1600000 then (m ((c : Thread nD τ).loc main_arg4) : S1600000.Idx → EReal) (ix1 ⟨E.val, h⟩) else (0 : EReal) := by
  rw [vals_eq m c, pad_tail_apply]
  by_cases hE : E.val < 1600000
  · rw [dif_pos hE, dif_pos hE]
  · rw [dif_neg hE, dif_neg hE]; exact padF_zero _

/-- The result after the slice: the first 100 000 rows of the padded result array, whatever the regions left. -/
theorem exit_result (outs : Gen.Outs (F := Ideal)) (r : Fin 100000) (o : Fin 128) :
    (Gen.V11 m outs c main_v6 : S100000x128.Idx → EReal) (ix2 r o)
      = (Gen.V10 m outs c main_v5 : S100352x128.Idx → EReal) (ix2 (⟨r.val, by omega⟩ : Fin 100352) o) := by
  have e : (Gen.V11 m outs c main_v6 : S100000x128.Idx → EReal)
      = extractStridedSlice S100000x128 ![0, 0] (Gen.V10 m outs c main_v5 : S100352x128.Idx → EReal)
          Gen.slices_S100352x128_S100000x128_0_0 := by
    dsimp only [Gen.V11, Gen.hostOps2]
    after_results
  rw [e]
  refine extractStridedSlice_apply _ _ _ (ix2 r o) (ix2 (⟨r.val, by omega⟩ : Fin 100352) o) fun a => ?_
  match a with
  | ⟨0, _⟩ => show r.val = 0 + r.val; omega
  | ⟨1, _⟩ => show o.val = 0 + o.val; omega

end Cert.KernelIdeal.Layer

end
-- ==== Proof.Domain.lean ====
/-
  What the precondition says of the column indices: every edge reads from a node.

  The precondition is a conjunction of five all-quantified tests folded with "and": three say the float inputs are
  finite, the last two that every column index, read signed, is at least 0 and less than 100 000. Only those two
  are opened here: an "and" over all edges that comes out true is true at each edge, and a signed comparison of
  words that comes out true is the comparison of the integers they denote.
-/
import proofs.«408857_j66305705115856_1_alg».proof.Pre_finite_inputs
import Idealize.ShloMosaic.Lib.ValueIdx
import Idealize.ShloMosaic.Lib.ReduceAll
import Idealize.ShloMosaic.Lib.StableHlo.Predicate

noncomputable section

namespace Cert.Domain

open Idealize.ShloMosaic Idealize.ShloMosaic.ValueIdx
open Cert.Pre_finite_inputs

variable [Cert.Pre_finite_inputs.Facts]

/-- A word that tests at least 0 and below 100 000, both comparisons signed, denotes an integer in that range:
    a signed comparison that comes out true is the comparison of the integers the two words denote, and the two
    constant words denote 0 and 100 000. -/
private theorem word_in_range (w : BitVec 32) (hge : IntOp.cmpi .sge w 0#32 = 1#1)
    (hlt : IntOp.cmpi .slt w 100000#32 = 1#1) : 0 ≤ w.toInt ∧ w.toInt < 100000 := by
  have e0 : (0#32 : BitVec 32).toInt = 0 := by decide
  have e1 : (100000#32 : BitVec 32).toInt = 100000 := by decide
  rw [IntOp.cmpi_sge, e0] at hge
  rw [IntOp.cmpi_slt, e1] at hlt
  exact ⟨hge, hlt⟩

/-- Under the precondition every column index, read signed, names a node. -/
theorem cols_in_range {F : FTy → Type} [FloatOps F] (emb : FVec F S100000x128 .f32) (W : FVec F S128x128 .f32)
    (rows cols : IVec S1600000 32) (vals : FVec F S1600000 .f32)
    (h : Cert.Pre_finite_inputs.fn (F := F) emb W rows cols vals = fun _ => 1#1) (E : Fin 1600000) :
    0 ≤ (cols (ix1 E)).toInt ∧ (cols (ix1 E)).toInt < 100000 := by
  -- the scalar shape has exactly one index, so an "and" over all edges folds into that one place
  haveI : Subsingleton S_.Idx := ⟨fun a b => funext fun d => d.elim0⟩
  -- the predicate's one word is 1: unfold it into ((((A ∧ B) ∧ C) ∧ D) ∧ E')
  have h0 := congrFun h ValueIdx.ix0
  dsimp only [Cert.Pre_finite_inputs.fn, Cert.Pre_finite_inputs.fn_part1, andi] at h0
  obtain ⟨h17, h20⟩ := IntOp.andi_eq_one.1 h0
  obtain ⟨-, h16⟩ := IntOp.andi_eq_one.1 h17
  -- D and E' are "and"s over all edges: each is true at edge E
  have hge := Host.reduce_andi_all _ _ _ _ _ h16 (ix1 E)
  have hlt := Host.reduce_andi_all _ _ _ _ _ h20 (ix1 E)
  -- at edge E the two tests compare the column word with the broadcast constants 0 and 100 000
  exact word_in_range (cols (ix1 E)) hge hlt

end Cert.Domain

end
-- ==== Proof.KernelIdeal.Value.lean ====
/-
  The idealized program computes the layer.

  After the slice the result array is the first 100 000 rows of what the scatter region left in the padded result
  array. The scatter region read the message array the gather region left and the padded row indices, and left the
  padded layer's result over them; the gather region read the padded node table, the weights, the padded column
  indices and edge values, and left the padded layer's messages. The padded arrays are the arguments followed by
  zeros, and under the precondition every column index of the arguments names a node; so the padded result below
  node 100 000 is the layer's result.
-/
import proofs.«408857_j66305705115856_1_alg».proof.Proof.KernelIdeal.Frame
import proofs.«408857_j66305705115856_1_alg».proof.Proof.KernelIdeal.GatherTotal
import proofs.«408857_j66305705115856_1_alg».proof.Proof.KernelIdeal.ScatterTotal
import proofs.«408857_j66305705115856_1_alg».proof.Proof.KernelIdeal.Padded
import proofs.«408857_j66305705115856_1_alg».proof.Proof.Domain
import proofs.«408857_j66305705115856_1_alg».proof.Proof.PaddedLayer

set_option maxRecDepth 16384

noncomputable section

namespace Cert.KernelIdeal.Layer

open Idealize.ShloMosaic Idealize.ShloMosaic.TcCoe Idealize.ShloMosaic.ValueIdx Idealize.SL.Sem
open Cert.KernelIdeal Cert.KernelIdeal.Gen

variable [Cert.Pre_finite_inputs.Facts]
variable (m : (ℓ : Loc nD τ sig) → Buf (Elt Ideal) ℓ) (c : Dev nD)

/-- What the scatter region read as messages is what the gather region left. -/
theorem sEntry_messages : sEntry m c main_v4 = gLeft m c := by
  show Function.update (Gen.V8 m c) (Proc.devRef .tc main_v4) (gLeft m c) (Proc.devRef .tc main_v4) = gLeft m c
  exact Function.update_self (Proc.devRef .tc main_v4 : DevRef τ sig) (gLeft m c) (Gen.V8 m c)

/-- The row indices the scatter region read are the padded ones the pads made. -/
theorem sEntry_rows : sEntry m c main_v2 = Gen.V8 m c main_v2 := by
  show Function.update (Gen.V8 m c) (Proc.devRef .tc main_v4) (gLeft m c) (Proc.devRef .tc main_v2) = Gen.V8 m c main_v2
  exact Function.update_of_ne (StableHlo.devRef_ne_of_ne (by decide) : (Proc.devRef .tc main_v2 : DevRef τ sig) ≠ Proc.devRef .tc main_v4) (gLeft m c) (Gen.V8 m c)

/-- After the scatter region the padded result array holds what that region left. -/
theorem afterScatter_result : Gen.V10 m (left m) c main_v5 = sLeft m c := by
  unfold Gen.V10
  rw [show (Function.update (Gen.V9 m (left m) c) (Proc.devRef .tc main_v5) (left m 10 main_v5 c)) (Proc.devRef .tc main_v5) = left m 10 main_v5 c from
    Function.update_self (Proc.devRef .tc main_v5 : DevRef τ sig) (left m 10 main_v5 c) (Gen.V9 m (left m) c)]
  exact left_v5 m 10 c

/-- The result array's final contents are the layer's result of the argument arrays. -/
theorem result_value
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    (Gen.V11 m (left m) c main_v6 : S100000x128.Idx → EReal)
      = Cert.Propagation.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨r, o, rfl⟩ : ∃ (r : Fin 100000) (o : Fin 128), i = ix2 r o := ⟨i 0, i 1, eq_ix2 i⟩
  rw [exit_result m c (left m) r o, afterScatter_result m c]
  unfold sLeft
  rw [scatter_total (sEntry m) c, sEntry_messages m c, sEntry_rows m c]
  unfold gLeft
  rw [gather_total (gEntry m) c]
  have hW : (gEntry m c main_arg1 : S128x128.Idx → EReal) = m ((c.tc : Thread nD τ).loc main_arg1) := entry_weights m c
  rw [hW]
  exact Cert.PaddedLayer.padded_result_eq _ _ _ _ _ _ _ _ _
    (entry_nodes m c) (entry_rows m c) (entry_cols m c) (entry_vals m c)
    (fun E => Cert.Domain.cols_in_range _ _ _ _ _ hpre E) r o

end Cert.KernelIdeal.Layer

end
-- ==== Proof.ReferenceStages.lean ====
/-
  Two operations of the reference, read at one index.

  The row gather takes, for edge `E`, the row of the node table that the edge's start index names — read signed
  and clamped so that the row lies inside the table, which has 100 000 rows —, so its entry `(E, o)` is the table's
  entry `(clamp, o)`. The accumulating scatter adds every update row `E` into the operand's row that the edge's
  index names, read signed and NOT clamped: an index that names no row drops the update. So its entry `(r, o)` is
  the operand's entry plus the sum, over the edges whose index is `r`, of the updates' entries `(E, o)`: an update
  entry `(E, o')` lands on `(r, o)` exactly when the edge's index is `r` and `o' = o`.
-/
import proofs.«408857_j66305705115856_1_alg».proof.ReferenceIdeal
import Idealize.ShloMosaic.Lib.ValueIdx
import Idealize.ShloMosaic.PureOps.Ideal.Laws

set_option maxRecDepth 16384

noncomputable section

open scoped BigOperators

namespace Cert.ReferenceIdeal.Stages

open Idealize.ShloMosaic Idealize.ShloMosaic.ValueIdx
open Cert.ReferenceIdeal

variable [Cert.ReferenceIdeal.Facts]

local notation "gd" => gather_S100000x128_S1600000x1_S1600000x128_1_0_n_n_0_1_1128
local notation "sd" => scatter_S100000x128_S1600000x1_S1600000x128_1_0_0_1

/-- Axis 1 of the node table is not in the axis list `[0]`. -/
private theorem ax1_not_mem (h1 : 1 < S100000x128.rank) :
    (⟨1, h1⟩ : Fin S100000x128.rank) ∉ ([0] : List (Fin S100000x128.rank)) := fun h =>
  Nat.one_ne_zero (congrArg Fin.val (List.mem_singleton.mp h))

/-! ## The row gather -/

/-- Result index `(E, o)` reads its start index, whichever component, at `(E, 0)` of the start indices: the
    result's one batch axis is the edge axis, and the index vector has one component. -/
private theorem gather_siIdx (E : Fin 1600000) (o : Fin 128) (c : Fin (gd).startIndexMap.length) :
    (gd).siIdx (ix2 E o) c = ix2 E (0 : Fin 1) := by
  funext b
  refine Fin.ext ?_
  match b with
  | ⟨0, _⟩ => rfl
  | ⟨1, _⟩ =>
    show c.val = 0
    have hc : c.val < 1 := c.isLt
    omega

/-- On the row axis (collapsed, start-indexed) the operand coordinate is the clamped start. -/
private theorem gather_coord0 (idx : IVec S1600000x1 32) (E : Fin 1600000) (o : Fin 128) (h0 : 0 < S100000x128.rank) :
    (gd).start (ix2 E o) idx ⟨0, h0⟩ + (gd).batchCoord (ix2 E o) ⟨0, h0⟩ + (gd).offCoord (ix2 E o) ⟨0, h0⟩
      = min (idx (ix2 E (0 : Fin 1))).toInt.toNat 99999 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (⟨0, h0⟩ : Fin S100000x128.rank) ∈ (gd).startIndexMap from List.mem_singleton.mpr rfl), gather_siIdx]
  rfl

/-- On the column axis (an offset axis, not start-indexed) the operand coordinate is the result's column. -/
private theorem gather_coord1 (idx : IVec S1600000x1 32) (E : Fin 1600000) (o : Fin 128) (h1 : 1 < S100000x128.rank) :
    (gd).start (ix2 E o) idx ⟨1, h1⟩ + (gd).batchCoord (ix2 E o) ⟨1, h1⟩ + (gd).offCoord (ix2 E o) ⟨1, h1⟩ = o.val := by
  have hk : (⟨1, h1⟩ : Fin S100000x128.rank) ∈ (gd).sKept :=
    (GatherDims.mem_sKept _ _).mpr ⟨ax1_not_mem h1, List.not_mem_nil⟩
  rw [GatherDims.batchCoord_eq_zero _ _ _ List.not_mem_nil]
  unfold GatherDims.start GatherDims.offCoord
  rw [dif_neg (show (⟨1, h1⟩ : Fin S100000x128.rank) ∉ (gd).startIndexMap from ax1_not_mem h1), dif_pos hk]
  simp only [Nat.add_zero, Nat.zero_add]
  rfl

/-- The row gather at edge `E`, column `o`: the table's row at the edge's start index, read signed and clamped. -/
theorem gather_row (x : S100000x128.Idx → EReal) (idx : IVec S1600000x1 32) (E : Fin 1600000) (o : Fin 128) :
    Host.gather gather_S100000x128_S1600000x1_S1600000x128_1_0_n_n_0_1_1128 x idx (ix2 E o)
      = x (ix2 (⟨min (idx (ix2 E (0 : Fin 1))).toInt.toNat 99999, by omega⟩ : Fin 100000) o) := by
  unfold Host.gather
  refine congrArg x ?_
  funext a
  refine Fin.ext ?_
  match a with
  | ⟨0, h0⟩ => exact gather_coord0 idx E o h0
  | ⟨1, h1⟩ => exact gather_coord1 idx E o h1

/-! ## The accumulating scatter -/

/-- Update index `(E, o')` reads its scatter index, whichever component, at `(E, 0)` of the scatter indices. -/
private theorem scatter_siIdx (E : Fin 1600000) (o' : Fin 128) (c : Fin (sd).scatterDimsToOperandDims.length) :
    (sd).siIdx (ix2 E o') c = ix2 E (0 : Fin 1) := by
  funext b
  refine Fin.ext ?_
  match b with
  | ⟨0, _⟩ => rfl
  | ⟨1, _⟩ =>
    show c.val = 0
    have hc : c.val < 1 := c.isLt
    omega

/-- The operand's axes that are not inserted: an axis is one of them exactly when it is not in the inserted list. -/
private theorem scatter_mem_sKept (a : Fin S100000x128.rank) : a ∈ (sd).sKept ↔ a ∉ (sd).insertedWindowDims := by
  simp [ScatterDims.sKept, Shape.kept, List.mem_filter, List.mem_finRange]

/-- On the row axis the window starts at the edge's index, read signed. -/
private theorem scatter_start0 (idx : IVec S1600000x1 32) (E : Fin 1600000) (o' : Fin 128) (h0 : 0 < S100000x128.rank) :
    (sd).start (ix2 E o') idx ⟨0, h0⟩ = (idx (ix2 E (0 : Fin 1))).toInt := by
  unfold ScatterDims.start
  rw [dif_pos (show (⟨0, h0⟩ : Fin S100000x128.rank) ∈ (sd).scatterDimsToOperandDims from List.mem_singleton.mpr rfl),
    scatter_siIdx]

/-- On the column axis, which the index map does not name, the window starts at 0. -/
private theorem scatter_start1 (idx : IVec S1600000x1 32) (E : Fin 1600000) (o' : Fin 128) (h1 : 1 < S100000x128.rank) :
    (sd).start (ix2 E o') idx ⟨1, h1⟩ = 0 := by
  unfold ScatterDims.start
  rw [dif_neg (show (⟨1, h1⟩ : Fin S100000x128.rank) ∉ (sd).scatterDimsToOperandDims from ax1_not_mem h1)]

/-- The row axis is inserted: no window coordinate. -/
private theorem scatter_window0 (E : Fin 1600000) (o' : Fin 128) (h0 : 0 < S100000x128.rank) :
    (sd).window (ix2 E o') ⟨0, h0⟩ = 0 := by
  unfold ScatterDims.window
  rw [dif_neg (show (⟨0, h0⟩ : Fin S100000x128.rank) ∉ (sd).sKept from
    fun h => (scatter_mem_sKept _).mp h (List.mem_singleton.mpr rfl))]

/-- The column axis takes the update's column. -/
private theorem scatter_window1 (E : Fin 1600000) (o' : Fin 128) (h1 : 1 < S100000x128.rank) :
    (sd).window (ix2 E o') ⟨1, h1⟩ = o'.val := by
  unfold ScatterDims.window
  rw [dif_pos ((scatter_mem_sKept _).mpr (ax1_not_mem h1))]
  rfl

/-- WHERE AN UPDATE LANDS: update entry `(E, o')` lands on operand entry `(r, o)` exactly when the edge's index,
    read signed, is `r`, and `o' = o`. -/
private theorem scatter_resultIdx_iff (idx : IVec S1600000x1 32) (E : Fin 1600000) (o' o : Fin 128) (r : Fin 100000) :
    (sd).resultIdx? (ix2 E o') idx = some (ix2 r o)
      ↔ (idx (ix2 E (0 : Fin 1))).toInt = (r.val : ℤ) ∧ o' = o := by
  have h0 : 0 < S100000x128.rank := Nat.zero_lt_two
  have h1 : 1 < S100000x128.rank := Nat.one_lt_two
  have hr : r.val < 100000 := r.isLt
  have ho : o.val < 128 := o.isLt
  have ho' : o'.val < 128 := o'.isLt
  unfold ScatterDims.resultIdx?
  constructor
  · intro h
    split at h
    · rename_i hall
      have hf := Option.some.inj h
      have e0 : ((sd).start (ix2 E o') idx ⟨0, h0⟩ + ((sd).window (ix2 E o') ⟨0, h0⟩ : ℤ)).toNat = r.val :=
        congrArg (fun f : S100000x128.Idx => (f ⟨0, h0⟩).val) hf
      have e1 : ((sd).start (ix2 E o') idx ⟨1, h1⟩ + ((sd).window (ix2 E o') ⟨1, h1⟩ : ℤ)).toNat = o.val :=
        congrArg (fun f : S100000x128.Idx => (f ⟨1, h1⟩).val) hf
      have a0 := (hall ⟨0, h0⟩).1
      rw [scatter_start0, scatter_window0] at e0 a0
      rw [scatter_start1, scatter_window1] at e1
      exact ⟨by omega, Fin.ext (by omega)⟩
    · exact absurd h (by simp)
  · rintro ⟨hv, rfl⟩
    have hall : ∀ a : Fin S100000x128.rank,
        0 ≤ (sd).start (ix2 E o') idx a + ((sd).window (ix2 E o') a : ℤ)
          ∧ (sd).start (ix2 E o') idx a + ((sd).window (ix2 E o') a : ℤ) < (S100000x128.size a : ℤ) := by
      intro a
      match a with
      | ⟨0, _⟩ =>
        rw [scatter_start0, scatter_window0, hv]
        exact ⟨by omega, by show (r.val : ℤ) + ((0 : ℕ) : ℤ) < ((100000 : ℕ) : ℤ); omega⟩
      | ⟨1, _⟩ =>
        rw [scatter_start1, scatter_window1]
        exact ⟨by omega, by show (0 : ℤ) + (o'.val : ℤ) < ((128 : ℕ) : ℤ); omega⟩
    rw [dif_pos hall]
    refine congrArg some ?_
    funext a
    refine Fin.ext ?_
    match a with
    | ⟨0, k0⟩ =>
      show ((sd).start (ix2 E o') idx ⟨0, k0⟩ + ((sd).window (ix2 E o') ⟨0, k0⟩ : ℤ)).toNat = r.val
      rw [scatter_start0, scatter_window0, hv]; omega
    | ⟨1, k1⟩ =>
      show ((sd).start (ix2 E o') idx ⟨1, k1⟩ + ((sd).window (ix2 E o') ⟨1, k1⟩ : ℤ)).toNat = o'.val
      rw [scatter_start1, scatter_window1]; omega

/-- The accumulating scatter at node `r`, column `o`: the operand's entry plus the updates of the edges whose
    index, read signed, is `r`. -/
theorem scatterAdd_row (x : FVec Ideal S100000x128 .f32) (idx : IVec S1600000x1 32) (upd : FVec Ideal S1600000x128 .f32)
    (r : Fin 100000) (o : Fin 128) :
    Host.scatterAdd scatter_S100000x128_S1600000x1_S1600000x128_1_0_0_1 x idx upd (ix2 r o)
      = x (ix2 r o) + ∑ E : Fin 1600000, (if (idx (ix2 E (0 : Fin 1))).toInt = (r.val : ℤ) then upd (ix2 E o) else 0) := by
  unfold Host.scatterAdd
  rw [Ideal.hostScatterAdd_def]
  unfold Ideal.hostScatterAdd
  refine congrArg (x (ix2 r o) + ·) ?_
  -- the filtered sum over update entries, as a double sum over edges and columns with the filter as an `if`
  rw [Finset.sum_filter, sum_idx2]
  refine Finset.sum_congr rfl fun E _ => ?_
  simp only [scatter_resultIdx_iff]
  -- for a fixed edge: nothing lands unless its index is `r`, and then only the update's column `o` does
  by_cases hv : (idx (ix2 E (0 : Fin 1))).toInt = (r.val : ℤ)
  · rw [if_pos hv]
    simp only [hv, true_and]
    rw [Finset.sum_ite_eq' Finset.univ o (fun o' => upd (ix2 E o')), if_pos (Finset.mem_univ o)]
  · rw [if_neg hv]
    simp only [hv, false_and, if_false]
    exact Finset.sum_const_zero

end Cert.ReferenceIdeal.Stages

end
-- ==== Proof.ReferenceValue.lean ====
/-
  The reference computes the layer.

  Its program is a straight line: the dense transform as a contraction of the node table's columns with the weight
  matrix's columns; the column indices normalised the way Python reads a negative index (100 000 added to a negative
  one); a row gather at the normalised indices; the gathered rows times the edge values; an accumulating scatter
  of the products into a table of zeros at the row indices; and the leaky rectifier. For a column index that is
  already a node the normalisation and the gather's clamp both leave it alone, so the gathered row is the source's
  transformed row; zero plus a sum is the sum; and the product's factors are the specification's in the other
  order.
-/
import proofs.«408857_j66305705115856_1_alg».proof.Proof.Gen.ReferenceIdeal.Run
import proofs.«408857_j66305705115856_1_alg».proof.Proof.Gen.ReferenceIdeal.Read
import proofs.«408857_j66305705115856_1_alg».proof.Proof.ReferenceStages
import proofs.«408857_j66305705115856_1_alg».proof.Proof.Propagation
import Idealize.ShloMosaic.Lib.ValueIdx
import Idealize.ShloMosaic.PureOps.Ideal.Laws
import Idealize.ShloMosaic.Lib.Affine

set_option maxRecDepth 16384

noncomputable section

open scoped BigOperators

namespace Cert.ReferenceIdeal.RefValue

open Idealize.ShloMosaic Idealize.ShloMosaic.ValueIdx
open Cert.ReferenceIdeal

variable [Cert.ReferenceIdeal.Facts]

/-! ## Indices of the broadcasts, by coordinates -/

/-- An edge list broadcast along a new unit axis reads, at `(E, u)`, entry `E`: for the row indices … -/
private theorem idx_rows (E : Fin 1600000) (u : Fin 1) : Read.idx_main_v12 (ix2 E u) = ix1 E :=
  funext fun a => match a with | ⟨0, _⟩ => rfl

/-- … and for the normalised column indices. -/
private theorem idx_cols (E : Fin 1600000) (u : Fin 1) : Read.idx_main_v7 (ix2 E u) = ix1 E :=
  funext fun a => match a with | ⟨0, _⟩ => rfl

/-- The row indices as a column: entry `(E, 0)` is edge `E`'s row index. -/
private theorem rows_at (x2 : IVec S1600000 32) (E : Fin 1600000) :
    Read.val_main_v12 (F := Ideal) x2 (ix2 E (0 : Fin 1)) = x2 (ix1 E) := by
  rw [Read.val_main_v12_apply]
  exact congrArg x2 (idx_rows E 0)

/-- The edge values broadcast over the columns: entry `(E, o)` is edge `E`'s value. -/
private theorem vals_at (x4 : FVec Ideal S1600000 .f32) (E : Fin 1600000) (o : Fin 128) :
    Read.val_main_v9 (F := Ideal) x4 (ix2 E o) = x4 (ix1 E) := by
  rw [Read.val_main_v9_apply, Read.val_main_v1_apply]
  exact congrArg x4 (funext fun a => match a with | ⟨0, _⟩ => rfl)

/-! ## The normalised column index -/

/-- A word that reads as a non-negative integer is not below zero, so the normalisation leaves it alone. -/
private theorem select_slt_zero (x a : BitVec 32) (h : 0 ≤ x.toInt) :
    Scalar.select (IntOp.cmpi .slt x 0#32) a x = x := by
  have hne : ¬IntOp.cmpi .slt x 0#32 = 1#1 := fun hc => by
    have h1 := IntOp.cmpi_slt.mp hc
    have h0 : (0#32 : BitVec 32).toInt = 0 := by decide
    omega
  rw [eq_zero_of_ne_one hne, select_zero]

/-- The normalised column indices as a column: for a column index that names a node, entry `(E, 0)` is the index. -/
private theorem cols_at (x3 : IVec S1600000 32) (E : Fin 1600000) (h : 0 ≤ (x3 (ix1 E)).toInt) :
    Read.val_main_v7 (F := Ideal) x3 (ix2 E (0 : Fin 1)) = x3 (ix1 E) := by
  rw [Read.val_main_v7_apply, idx_cols E 0, Read.val_main_v6_apply, Read.val_main_v3_apply, Read.val_main_v2_apply,
    Read.val_main_c_apply]
  exact select_slt_zero _ _ h

/-! ## The dense transform and the gathered rows -/

/-- The reference's contraction at node `n`, column `o`, is the dense transform there. -/
private theorem dense_at (x0 : FVec Ideal S100000x128 .f32) (x1 : FVec Ideal S128x128 .f32) (n : Fin 100000) (o : Fin 128) :
    Read.val_main_v0 (F := Ideal) x0 x1 (ix2 n o) = Cert.Propagation.dense x0 x1 n o := by
  rw [Read.val_main_v0_apply]
  unfold Cert.Propagation.dense
  refine Finset.sum_congr rfl fun k _ => ?_
  have el : Read.lidx_main_v0 (ix2 n o) k = ix2 n k := funext fun a => match a with | ⟨0, _⟩ => rfl | ⟨1, _⟩ => rfl
  have er : Read.ridx_main_v0 (ix2 n o) k = ix2 o k := funext fun a => match a with | ⟨0, _⟩ => rfl | ⟨1, _⟩ => rfl
  rw [el, er]

/-- The row gather at a start index known to be the word `c`: the table's row at `c`, read signed and clamped. -/
private theorem gather_at (x : S100000x128.Idx → EReal) (idx : IVec S1600000x1 32) (E : Fin 1600000) (o : Fin 128)
    (c : BitVec 32) (hc : idx (ix2 E (0 : Fin 1)) = c) :
    Host.gather gather_S100000x128_S1600000x1_S1600000x128_1_0_n_n_0_1_1128 x idx (ix2 E o)
      = x (ix2 (⟨min c.toInt.toNat 99999, by omega⟩ : Fin 100000) o) := by
  subst hc
  exact Stages.gather_row x idx E o

/-- The reference's product at edge `E`, column `o`, is the edge's message. -/
private theorem message_at (x0 : FVec Ideal S100000x128 .f32) (x1 : FVec Ideal S128x128 .f32) (x3 : IVec S1600000 32)
    (x4 : FVec Ideal S1600000 .f32) (E : Fin 1600000) (o : Fin 128) (h : 0 ≤ (x3 (ix1 E)).toInt) :
    Read.val_main_v10 (F := Ideal) x0 x1 x3 x4 (ix2 E o) = Cert.Propagation.message x0 x1 x3 x4 E o := by
  rw [Read.val_main_v10_apply, vals_at]
  unfold Read.val_main_v8
  rw [gather_at _ _ E o (x3 (ix1 E)) (cols_at x3 E h), dense_at]
  exact mul_comm _ _

/-! ## The aggregate -/

/-- The accumulating scatter at node `r`, column `o`, is the node's aggregate. -/
private theorem aggregate_at (x0 : FVec Ideal S100000x128 .f32) (x1 : FVec Ideal S128x128 .f32) (x2 x3 : IVec S1600000 32)
    (x4 : FVec Ideal S1600000 .f32)
    (hcols : ∀ E : Fin 1600000, 0 ≤ (x3 (ix1 E)).toInt ∧ (x3 (ix1 E)).toInt < 100000) (r : Fin 100000) (o : Fin 128) :
    Read.val_main_v13 (F := Ideal) x0 x1 x2 x3 x4 (ix2 r o) = Cert.Propagation.aggregate x0 x1 x2 x3 x4 r o := by
  unfold Read.val_main_v13
  rw [Stages.scatterAdd_row, Read.val_main_v11_apply, Read.val_main_cst_apply, Ideal.ofBits_def, Ideal.ofBits_zero_f32,
    zero_add]
  unfold Cert.Propagation.aggregate
  refine Finset.sum_congr rfl fun E _ => ?_
  rw [rows_at, message_at x0 x1 x3 x4 E o (hcols E).1]

/-- The reference's result is the layer's, when every column index names a node. -/
theorem result_eq (x0 : FVec Ideal S100000x128 .f32) (x1 : FVec Ideal S128x128 .f32) (x2 x3 : IVec S1600000 32)
    (x4 : FVec Ideal S1600000 .f32)
    (hcols : ∀ E : Fin 1600000, 0 ≤ (x3 (ix1 E)).toInt ∧ (x3 (ix1 E)).toInt < 100000) :
    Cert.ReferenceIdeal.Read.val_main_v18 (F := Ideal) x0 x1 x2 x3 x4 = Cert.Propagation.result x0 x1 x2 x3 x4 := by
  funext i
  obtain ⟨r, o, rfl⟩ : ∃ (r : Fin 100000) (o : Fin 128), i = ix2 r o := ⟨i 0, i 1, eq_ix2 i⟩
  show Read.val_main_v18 (F := Ideal) x0 x1 x2 x3 x4 (ix2 r o) = Cert.Propagation.leaky (Cert.Propagation.aggregate x0 x1 x2 x3 x4 r o)
  rw [Read.val_main_v18_apply, Read.val_main_v15_apply, Read.val_main_v17_apply, Read.val_main_v14_apply,
    Read.val_main_v16_apply, Read.val_main_cst_1_apply, Read.val_main_cst_2_apply,
    aggregate_at x0 x1 x2 x3 x4 hcols r o]
  generalize Cert.Propagation.aggregate x0 x1 x2 x3 x4 r o = A
  rfl

end Cert.ReferenceIdeal.RefValue

end
-- ==== Proof.lean ====
/-
  Both programs compute one propagation step over a sparse adjacency — the dense transform of the node table, each
  edge's message (its source node's transformed row times the edge's value), each node's sum of the messages of the
  edges whose row index names it, and the leaky rectifier of slope 0.2 — and they compute it the same on the
  extended reals whenever every column index names a node, which the precondition says.

  The kernel does it in two grid-swept regions over padded arrays: a gather that, for each chunk of 4096 edges,
  finds each edge's source row by comparing its column index with the positions of one block of 2048 nodes at a
  time, accumulating over the 49 blocks; and a scatter that, for each block of 2048 nodes, adds up the messages of
  the edges whose row index names one of its nodes, accumulating over the 391 chunks. Each accumulation is a
  recursion along the grid's inner axis whose closed form is the padded layer's message, respectively its sum; the
  padding contributes nothing, because a padded edge has value zero. The reference is a straight line of host
  operations read one at a time.

  Frames: each kernel program runs to its end and leaves its arguments alone (Proof/Kernel/Frame.lean and its twin
  at the ideal instance), and so does the reference (its run, with the result dropped). Nothing was rewritten in
  the idealization, so there is nothing to preserve.
-/
import proofs.«408857_j66305705115856_1_alg».proof.Defs
import proofs.«408857_j66305705115856_1_alg».proof.Proof.Kernel.Frame
import proofs.«408857_j66305705115856_1_alg».proof.Proof.KernelIdeal.Frame
import proofs.«408857_j66305705115856_1_alg».proof.Proof.KernelIdeal.Run
import proofs.«408857_j66305705115856_1_alg».proof.Proof.KernelIdeal.Value
import proofs.«408857_j66305705115856_1_alg».proof.Proof.ReferenceValue
import proofs.«408857_j66305705115856_1_alg».proof.Proof.Domain
import proofs.«408857_j66305705115856_1_alg».proof.Proof.Gen.Kernel
import proofs.«408857_j66305705115856_1_alg».proof.Proof.Gen.KernelIdeal
import proofs.«408857_j66305705115856_1_alg».proof.Proof.Gen.ReferenceIdeal
import proofs.«408857_j66305705115856_1_alg».proof.Proof.Gen.Pre_finite_inputs
import proofs.«408857_j66305705115856_1_alg».proof.Proof.Gen.ReferenceIdeal.Run
import proofs.«408857_j66305705115856_1_alg».proof.Proof.Gen.ReferenceIdeal.Read
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Layer.frame m ρ

/-- So does the idealized one. -/
theorem frame_ideal : Cert.frame_KernelIdeal := fun m ρ _ => Cert.KernelIdeal.Layer.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the layer's result of the arguments. -/
theorem algebraic : Cert.algebraic_KernelIdeal_ReferenceIdeal := by
  intro m ρ m' ρ' hpre hagree
  refine ⟨fun c => Cert.Propagation.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨((h c).1).trans (Cert.KernelIdeal.Layer.result_value m c (hpre c)), (h c).2⟩) (Cert.KernelIdeal.Layer.run_result m ρ)
  · refine (θ_run Cert.ReferenceIdeal.defs _ _).mono (fun r h c => ⟨(h c).1.trans ?_, (h c).2⟩) (Cert.ReferenceIdeal.Value.run (F := Ideal) m' ρ')
    rw [(hagree c).1, (hagree c).2.1, (hagree c).2.2.1, (hagree c).2.2.2.1, (hagree c).2.2.2.2, Cert.ReferenceIdeal.Read.val_main_v18_eq]
    exact Cert.ReferenceIdeal.RefValue.result_eq _ _ _ _ _ (fun E => Cert.Domain.cols_in_range _ _ _ _ _ (hpre c) E)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
